-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S512x256 : Shape := ⟨2, ![512, 256]⟩
abbrev S1024x256 : Shape := ⟨2, ![1024, 256]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩
abbrev S1 : Shape := ⟨1, ![1]⟩

abbrev nBuf : Space → Nat
  | .hbm => 46
  | .vmem => 27
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8192x256, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x256, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S1x8192, .f32⟩
  | .hbm, ⟨24, _⟩ => ⟨S1x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192x256, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x256, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S1x8192, .f32⟩
  | .hbm, ⟨37, _⟩ => ⟨S1x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S1024x256, .f32⟩
  | .local _ .vmem, ⟨3, _⟩ => ⟨S1024x256, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S512x256, .f32⟩
  | .local _ .vmem, ⟨10, _⟩ => ⟨S512x256, .f32⟩
  | .local _ .vmem, ⟨11, _⟩ => ⟨S1024x256, .f32⟩
  | .local _ .vmem, ⟨12, _⟩ => ⟨S1024x256, .f32⟩
  | .local _ .vmem, ⟨13, _⟩ => ⟨S512x1, .f32⟩
  | .local _ .vmem, ⟨14, _⟩ => ⟨S512x1, .f32⟩
  | .local _ .vmem, ⟨15, _⟩ => ⟨S1x1024, .f32⟩
  | .local _ .vmem, ⟨16, _⟩ => ⟨S1x1024, .f32⟩
  | .local _ .vmem, ⟨17, _⟩ => ⟨S1x1, .f32⟩
  | .local _ .vmem, ⟨18, _⟩ => ⟨S512x256, .f32⟩
  | .local _ .vmem, ⟨19, _⟩ => ⟨S512x256, .f32⟩
  | .local _ .vmem, ⟨20, _⟩ => ⟨S1024x256, .f32⟩
  | .local _ .vmem, ⟨21, _⟩ => ⟨S1024x256, .f32⟩
  | .local _ .vmem, ⟨22, _⟩ => ⟨S512x1, .f32⟩
  | .local _ .vmem, ⟨23, _⟩ => ⟨S512x1, .f32⟩
  | .local _ .vmem, ⟨24, _⟩ => ⟨S1x1024, .f32⟩
  | .local _ .vmem, ⟨25, _⟩ => ⟨S1x1024, .f32⟩
  | .local _ .vmem, ⟨26, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev grid2 : Pipeline.Grid := ⟨2, ![16, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S1x1_S1x1_0_0 : ∀ a, (![0, 0] : Fin 2 → Nat) a + S1x1.size a ≤ S1x1.size a
  h_S1x1 : 0 < S1x1.numel
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  dot_S512x256_S1024x256_S512x1024_1_1_0_0_n_n_wf : DotDims.WF S512x256 S1024x256 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .f32 = 32 ∨ (Rect.block (s := S8192x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S8192x256.size a
  hwx2_0 : ∀ i : grid2.Coords, EltTy.bits .f32 = 32 ∨ (Rect.block (s := S8192x256) S512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .f32 = 32 ∨ (Rect.block (s := S8192x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S8192x1.size a
  hwx2_2 : ∀ i : grid2.Coords, EltTy.bits .f32 = 32 ∨ (Rect.block (s := S8192x1) S512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x8192.size a
  hwx2_3 : ∀ i : grid2.Coords, EltTy.bits .f32 = 32 ∨ (Rect.block (s := S1x8192) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 91
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S256x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x256, .f32⟩
  | .hbm, ⟨31, _⟩ => ⟨S_, .f32⟩
  | .hbm, ⟨32, _⟩ => ⟨S8192, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S1x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S256x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8192x256, .f32⟩
  | .hbm, ⟨59, _⟩ => ⟨S_, .f32⟩
  | .hbm, ⟨60, _⟩ => ⟨S8192, .f32⟩
  | .hbm, ⟨61, _⟩ => ⟨S8192x256, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S1x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S256x8192, .f32⟩
  | .hbm, ⟨70, _⟩ => ⟨S8192x8192, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩
abbrev main_v44 : Ref sig .tc := ⟨.hbm, 61, rfl⟩
abbrev main_cst_14 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_15 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_16 : Ref sig .tc := ⟨.hbm, 75, rfl⟩
abbrev main_v56 : Ref sig .tc := ⟨.hbm, 76, rfl⟩
abbrev main_v57 : Ref sig .tc := ⟨.hbm, 77, rfl⟩
abbrev main_cst_17 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_18 : Ref sig .tc := ⟨.hbm, 82, rfl⟩
abbrev main_v61 : Ref sig .tc := ⟨.hbm, 83, rfl⟩
abbrev main_cst_19 : Ref sig .tc := ⟨.hbm, 84, rfl⟩
abbrev main_v62 : Ref sig .tc := ⟨.hbm, 85, rfl⟩
abbrev main_v63 : Ref sig .tc := ⟨.hbm, 86, rfl⟩
abbrev main_cst_20 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KBody0.lean ====
/-
  Region 0 of @main, the kernel's half: what one call of the kernel body does to its five staging buffers, and what
  the 1 x 1 accumulator holds after each of the 128 grid points.

  The body resets the accumulator at the first grid point only (both coordinates zero), then at every point loads its
  four input blocks, forms the block's partial sum and adds it to the accumulator it finds. So there are two control
  cases: the first point (reset, then add) and every other point (add to what the point before left). The accumulator's
  block index never moves and it is written back after the last point only, so between two points the buffer keeps
  what the body left. The statements hold at any float instance: the arithmetic stays inside the payload terms.
-/
import proofs.«123217_j81080392613941_1_alg».proof.Proof.Gen.Kernel.Launch
import proofs.«123217_j81080392613941_1_alg».proof.Proof.Gen.Kernel.Skeleton
import proofs.«123217_j81080392613941_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched the block index has not moved), for any proof data whose array is the entry contents and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The reset condition -/

/-- The body's reset condition from the grid coordinates: both are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-! ## The staging memrefs -/

/-- One staging buffer of the accumulator's window, through which its contents are stated. -/
abbrev VO0_4 : View sig .tc .vmem S1x1 .f32 := (Memref.whole cc0_stg4_0 : Memref sig .tc .vmem S1x1 .f32).view
/-- Each window's current staging memref at point `t`, as the pipeline passes it, and its wholeness. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

/-! ## The body's run, case by case -/

set_option maxHeartbeats 1000000 in
/-- THE FIRST POINT. On whole staging memrefs, the inputs' at their contents and the accumulator's at anything, the body
    runs to the continuation holding the inputs' as they were and the accumulator's buffer with its stores written:
    the pieces (last store first) are the witness the run finds. -/
noncomputable def kernelRun0_A (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond0 i)
    (x0 : Vec F S512x256 .f32) (x1 : Vec F S1024x256 .f32) (x2 : Vec F S512x1 .f32) (x3 : Vec F S1x1024 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__rbf_sum_kernel i arg2 harg2 arg3 harg3 arg4 harg4 arg5 harg5 arg6 harg6) K } := by
  refine ⟨?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- EVERY OTHER POINT. As above, with the accumulator's buffer at its running contents `xo`, which the body reads
    before it overwrites it. -/
noncomputable def kernelRun0_B (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond0 i)
    (x0 : Vec F S512x256 .f32) (x1 : Vec F S1024x256 .f32) (x2 : Vec F S512x1 .f32) (x3 : Vec F S1x1024 .f32) (xo : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__rbf_sum_kernel i arg2 harg2 arg3 harg3 arg4 harg4 arg5 harg5 arg6 harg6) K } := by
  refine ⟨?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-! ## What the accumulator's buffer holds after a call -/

/-- The first point's stores cover the 1 x 1 block. -/
theorem cover0_A_4 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond0 i)
    (x0 : Vec F S512x256 .f32) (x1 : Vec F S1024x256 .f32) (x2 : Vec F S512x1 .f32) (x3 : Vec F S1x1024 .f32) (y : S1x1.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S1x1.size (by sl_kernel_rfl) y

/-- What the first point leaves in the accumulator's buffer: its stores read back. -/
def out0_A_4 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond0 i)
    (x0 : Vec F S512x256 .f32) (x1 : Vec F S1024x256 .f32) (x2 : Vec F S512x1 .f32) (x3 : Vec F S1x1024 .f32) : Vec F S1x1 .f32 :=
  VO0_4.read (Elt F) (VO0_4.writes (Elt F) VO0_4.junk (kernelRun0_A c i arg2 harg2 arg3 harg3 arg4 harg4 arg5 harg5 arg6 harg6 hc0 x0 x1 x2 x3).1)

/-- Another point's store covers the block. -/
theorem cover0_B_4 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond0 i)
    (x0 : Vec F S512x256 .f32) (x1 : Vec F S1024x256 .f32) (x2 : Vec F S512x1 .f32) (x3 : Vec F S1x1024 .f32) (xo : Vec F S1x1 .f32) (y : S1x1.Idx) :
    ∃ pc ∈ (kernelRun0_B c i arg2 harg2 arg3 harg3 arg4 harg4 arg5 harg5 arg6 harg6 hc0 x0 x1 x2 x3 xo).1, y ∈ pc.1.set :=
  View.cover_of_tiledL (kernelRun0_B c i arg2 harg2 arg3 harg3 arg4 harg4 arg5 harg5 arg6 harg6 hc0 x0 x1 x2 x3 xo).1 S1x1.size (by sl_kernel_rfl) y

/-- What another point leaves in the accumulator's buffer, over the running contents `xo`. -/
def out0_B_4 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond0 i)
    (x0 : Vec F S512x256 .f32) (x1 : Vec F S1024x256 .f32) (x2 : Vec F S512x1 .f32) (x3 : Vec F S1x1024 .f32) (xo : Vec F S1x1 .f32) : Vec F S1x1 .f32 :=
  VO0_4.read (Elt F) (VO0_4.writes (Elt F) VO0_4.junk (kernelRun0_B c i arg2 harg2 arg3 harg3 arg4 harg4 arg5 harg5 arg6 harg6 hc0 x0 x1 x2 x3 xo).1)

/-- THE ACCUMULATION: what the accumulator's buffer holds after the body at position `n` — the first point's
    contents at 0, and afterwards the other case's over what position `n - 1` left. -/
def outsAt0 (c : Dev nD) : (n : ℕ) → n < cfg0.N → Vec F S1x1 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr rfl) (iblk0 V c 0 ⟨0, hn⟩) (iblk0 V c 1 ⟨0, hn⟩) (iblk0 V c 2 ⟨0, hn⟩) (iblk0 V c 3 ⟨0, hn⟩)
  | n + 1, hn => out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))

theorem outsAt0_A (c : Dev nD) (t : Fin cfg0.N) (h0 : t.val = 0) :
    outsAt0 V c t.val t.isLt = out0_A_4 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t) (iblk0 V c 3 t) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 V c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of pipeline 0 on core `c`: the arrays as the region finds them; after the body at point `t` each
    input's buffer at its block and the accumulator's at `outsAt0`; nothing owed; the array the two sample windows share is held half by each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
/-- At a point other than the first the accumulator's buffer holds what the body left at the point before: it was not
    written back between, and the window is live and uncut. -/
theorem before0_4_B (c : Dev nD) (t : Fin cfg0.N) (h0 : ¬t.val = 0) (d) :
    (dat0 V c).before 4 t d = outsAt0 V c (t.val - 1) (Nat.lt_of_le_of_lt (Nat.sub_le _ _) t.isLt) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1000000 in
/-- The body at any point: the inputs' memrefs hold their blocks; the point is the first or not; at another point the
    accumulator's buffer holds what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [outsAt0_A V c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B V c t h0]
    simp only [before0_4_B V c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The body obligation of the pipeline rule, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  Region 1 of @main, the kernel's half: what one call of the kernel body does to its five staging buffers, and what
  the 1 x 1 accumulator holds after each of the 128 grid points.

  The body resets the accumulator at the first grid point only (both coordinates zero), then at every point loads its
  four input blocks, forms the block's partial sum and adds it to the accumulator it finds. So there are two control
  cases: the first point (reset, then add) and every other point (add to what the point before left). The accumulator's
  block index never moves and it is written back after the last point only, so between two points the buffer keeps
  what the body left. The statements hold at any float instance: the arithmetic stays inside the payload terms.
-/
import proofs.«123217_j81080392613941_1_alg».proof.Proof.Gen.Kernel.Launch
import proofs.«123217_j81080392613941_1_alg».proof.Proof.Gen.Kernel.Skeleton
import proofs.«123217_j81080392613941_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched the block index has not moved), for any proof data whose array is the entry contents and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The reset condition -/

/-- The body's reset condition from the grid coordinates: both are zero. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond1 : ∀ t : Fin cfg1.N, cond1 (grid1.coords t) ↔ t.val = 0 :=
  (by decide +kernel : ∀ t : Fin grid1.N, cond1 (grid1.coords t) ↔ t.val = 0)

/-! ## The staging memrefs -/

/-- One staging buffer of the accumulator's window, through which its contents are stated. -/
abbrev VO1_4 : View sig .tc .vmem S1x1 .f32 := (Memref.whole cc1_stg4_0 : Memref sig .tc .vmem S1x1 .f32).view
/-- Each window's current staging memref at point `t`, as the pipeline passes it, and its wholeness. -/
abbrev ms1_0 (t : Fin cfg1.N) : Memref sig .tc .vmem S512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-! ## The body's run, case by case -/

set_option maxHeartbeats 1000000 in
/-- THE FIRST POINT. On whole staging memrefs, the inputs' at their contents and the accumulator's at anything, the body
    runs to the continuation holding the inputs' as they were and the accumulator's buffer with its stores written:
    the pieces (last store first) are the witness the run finds. -/
noncomputable def kernelRun1_A (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond1 i)
    (x0 : Vec F S512x256 .f32) (x1 : Vec F S1024x256 .f32) (x2 : Vec F S512x1 .f32) (x3 : Vec F S1x1024 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__rbf_sum_kernel i arg2 harg2 arg3 harg3 arg4 harg4 arg5 harg5 arg6 harg6) K } := by
  refine ⟨?_, fun E K => ?run⟩
  case run =>
    simp only [cc1__rbf_sum_kernel_eq_skeleton]; unfold cc1__rbf_sum_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- EVERY OTHER POINT. As above, with the accumulator's buffer at its running contents `xo`, which the body reads
    before it overwrites it. -/
noncomputable def kernelRun1_B (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond1 i)
    (x0 : Vec F S512x256 .f32) (x1 : Vec F S1024x256 .f32) (x2 : Vec F S512x1 .f32) (x3 : Vec F S1x1024 .f32) (xo : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__rbf_sum_kernel i arg2 harg2 arg3 harg3 arg4 harg4 arg5 harg5 arg6 harg6) K } := by
  refine ⟨?_, fun E K => ?run⟩
  case run =>
    simp only [cc1__rbf_sum_kernel_eq_skeleton]; unfold cc1__rbf_sum_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-! ## What the accumulator's buffer holds after a call -/

/-- The first point's stores cover the 1 x 1 block. -/
theorem cover1_A_4 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond1 i)
    (x0 : Vec F S512x256 .f32) (x1 : Vec F S1024x256 .f32) (x2 : Vec F S512x1 .f32) (x3 : Vec F S1x1024 .f32) (y : S1x1.Idx) :
    ∃ pc ∈ (kernelRun1_A c i arg2 harg2 arg3 harg3 arg4 harg4 arg5 harg5 arg6 harg6 hc0 x0 x1 x2 x3).1, y ∈ pc.1.set :=
  View.cover_of_tiledL (kernelRun1_A c i arg2 harg2 arg3 harg3 arg4 harg4 arg5 harg5 arg6 harg6 hc0 x0 x1 x2 x3).1 S1x1.size (by sl_kernel_rfl) y

/-- What the first point leaves in the accumulator's buffer: its stores read back. -/
def out1_A_4 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond1 i)
    (x0 : Vec F S512x256 .f32) (x1 : Vec F S1024x256 .f32) (x2 : Vec F S512x1 .f32) (x3 : Vec F S1x1024 .f32) : Vec F S1x1 .f32 :=
  VO1_4.read (Elt F) (VO1_4.writes (Elt F) VO1_4.junk (kernelRun1_A c i arg2 harg2 arg3 harg3 arg4 harg4 arg5 harg5 arg6 harg6 hc0 x0 x1 x2 x3).1)

/-- Another point's store covers the block. -/
theorem cover1_B_4 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond1 i)
    (x0 : Vec F S512x256 .f32) (x1 : Vec F S1024x256 .f32) (x2 : Vec F S512x1 .f32) (x3 : Vec F S1x1024 .f32) (xo : Vec F S1x1 .f32) (y : S1x1.Idx) :
    ∃ pc ∈ (kernelRun1_B c i arg2 harg2 arg3 harg3 arg4 harg4 arg5 harg5 arg6 harg6 hc0 x0 x1 x2 x3 xo).1, y ∈ pc.1.set :=
  View.cover_of_tiledL (kernelRun1_B c i arg2 harg2 arg3 harg3 arg4 harg4 arg5 harg5 arg6 harg6 hc0 x0 x1 x2 x3 xo).1 S1x1.size (by sl_kernel_rfl) y

/-- What another point leaves in the accumulator's buffer, over the running contents `xo`. -/
def out1_B_4 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond1 i)
    (x0 : Vec F S512x256 .f32) (x1 : Vec F S1024x256 .f32) (x2 : Vec F S512x1 .f32) (x3 : Vec F S1x1024 .f32) (xo : Vec F S1x1 .f32) : Vec F S1x1 .f32 :=
  VO1_4.read (Elt F) (VO1_4.writes (Elt F) VO1_4.junk (kernelRun1_B c i arg2 harg2 arg3 harg3 arg4 harg4 arg5 harg5 arg6 harg6 hc0 x0 x1 x2 x3 xo).1)

/-- THE ACCUMULATION: what the accumulator's buffer holds after the body at position `n` — the first point's
    contents at 0, and afterwards the other case's over what position `n - 1` left. -/
def outsAt1 (c : Dev nD) : (n : ℕ) → n < cfg1.N → Vec F S1x1 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1 ⟨0, hn⟩).mpr rfl) (iblk1 V c 0 ⟨0, hn⟩) (iblk1 V c 1 ⟨0, hn⟩) (iblk1 V c 2 ⟨0, hn⟩) (iblk1 V c 3 ⟨0, hn⟩)
  | n + 1, hn => out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => Nat.succ_ne_zero n ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

theorem outsAt1_A (c : Dev nD) (t : Fin cfg1.N) (h0 : t.val = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1 t).mpr h0) (iblk1 V c 0 t) (iblk1 V c 1 t) (iblk1 V c 2 t) (iblk1 V c 3 t) := by
  obtain ⟨n, hn⟩ := t
  cases n with
  | zero => exact rfl
  | succ n => exact absurd h0 (Nat.succ_ne_zero n)

theorem outsAt1_B (c : Dev nD) (t : Fin cfg1.N) (h0 : ¬t.val = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of pipeline 1 on core `c`: the arrays as the region finds them; after the body at point `t` each
    input's buffer at its block and the accumulator's at `outsAt1`; nothing owed; the array the two sample windows share is held half by each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a point other than the first the accumulator's buffer holds what the body left at the point before: it was not
    written back between, and the window is live and uncut. -/
theorem before1_4_B (c : Dev nD) (t : Fin cfg1.N) (h0 : ¬t.val = 0) (d) :
    (dat1 V c).before 4 t d = outsAt1 V c (t.val - 1) (Nat.lt_of_le_of_lt (Nat.sub_le _ _) t.isLt) := by
  have hN : t.val < 128 := lt_of_lt_of_eq t.isLt (show cfg1.N = 128 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1000000 in
/-- The body at any point: the inputs' memrefs hold their blocks; the point is the first or not; at another point the
    accumulator's buffer holds what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

/-- The body obligation of the pipeline rule, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
/-
  Region 2 of @main, the kernel's half: what one call of the kernel body does to its five staging buffers, and what
  the 1 x 1 accumulator holds after each of the 128 grid points.

  The body resets the accumulator at the first grid point only (both coordinates zero), then at every point loads its
  four input blocks, forms the block's partial sum and adds it to the accumulator it finds. So there are two control
  cases: the first point (reset, then add) and every other point (add to what the point before left). The accumulator's
  block index never moves and it is written back after the last point only, so between two points the buffer keeps
  what the body left. The statements hold at any float instance: the arithmetic stays inside the payload terms.
-/
import proofs.«123217_j81080392613941_1_alg».proof.Proof.Gen.Kernel.Launch
import proofs.«123217_j81080392613941_1_alg».proof.Proof.Gen.Kernel.Skeleton
import proofs.«123217_j81080392613941_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not
    fetched the block index has not moved), for any proof data whose array is the entry contents and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The reset condition -/

/-- The body's reset condition from the grid coordinates: both are zero. -/
abbrev cond2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond2 : ∀ t : Fin cfg2.N, cond2 (grid2.coords t) ↔ t.val = 0 :=
  (by decide +kernel : ∀ t : Fin grid2.N, cond2 (grid2.coords t) ↔ t.val = 0)

/-! ## The staging memrefs -/

/-- One staging buffer of the accumulator's window, through which its contents are stated. -/
abbrev VO2_4 : View sig .tc .vmem S1x1 .f32 := (Memref.whole cc2_stg4_0 : Memref sig .tc .vmem S1x1 .f32).view
/-- Each window's current staging memref at point `t`, as the pipeline passes it, and its wholeness. -/
abbrev ms2_0 (t : Fin cfg2.N) : Memref sig .tc .vmem S512x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)

/-! ## The body's run, case by case -/

set_option maxHeartbeats 1000000 in
/-- THE FIRST POINT. On whole staging memrefs, the inputs' at their contents and the accumulator's at anything, the body
    runs to the continuation holding the inputs' as they were and the accumulator's buffer with its stores written:
    the pieces (last store first) are the witness the run finds. -/
noncomputable def kernelRun2_A (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond2 i)
    (x0 : Vec F S512x256 .f32) (x1 : Vec F S1024x256 .f32) (x2 : Vec F S512x1 .f32) (x3 : Vec F S1x1024 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc2__rbf_sum_kernel i arg2 harg2 arg3 harg3 arg4 harg4 arg5 harg5 arg6 harg6) K } := by
  refine ⟨?_, fun E K => ?run⟩
  case run =>
    simp only [cc2__rbf_sum_kernel_eq_skeleton]; unfold cc2__rbf_sum_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- EVERY OTHER POINT. As above, with the accumulator's buffer at its running contents `xo`, which the body reads
    before it overwrites it. -/
noncomputable def kernelRun2_B (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond2 i)
    (x0 : Vec F S512x256 .f32) (x1 : Vec F S1024x256 .f32) (x2 : Vec F S512x1 .f32) (x3 : Vec F S1x1024 .f32) (xo : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc2__rbf_sum_kernel i arg2 harg2 arg3 harg3 arg4 harg4 arg5 harg5 arg6 harg6) K } := by
  refine ⟨?_, fun E K => ?run⟩
  case run =>
    simp only [cc2__rbf_sum_kernel_eq_skeleton]; unfold cc2__rbf_sum_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-! ## What the accumulator's buffer holds after a call -/

/-- The first point's stores cover the 1 x 1 block. -/
theorem cover2_A_4 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond2 i)
    (x0 : Vec F S512x256 .f32) (x1 : Vec F S1024x256 .f32) (x2 : Vec F S512x1 .f32) (x3 : Vec F S1x1024 .f32) (y : S1x1.Idx) :
    ∃ pc ∈ (kernelRun2_A c i arg2 harg2 arg3 harg3 arg4 harg4 arg5 harg5 arg6 harg6 hc0 x0 x1 x2 x3).1, y ∈ pc.1.set :=
  View.cover_of_tiledL (kernelRun2_A c i arg2 harg2 arg3 harg3 arg4 harg4 arg5 harg5 arg6 harg6 hc0 x0 x1 x2 x3).1 S1x1.size (by sl_kernel_rfl) y

/-- What the first point leaves in the accumulator's buffer: its stores read back. -/
def out2_A_4 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond2 i)
    (x0 : Vec F S512x256 .f32) (x1 : Vec F S1024x256 .f32) (x2 : Vec F S512x1 .f32) (x3 : Vec F S1x1024 .f32) : Vec F S1x1 .f32 :=
  VO2_4.read (Elt F) (VO2_4.writes (Elt F) VO2_4.junk (kernelRun2_A c i arg2 harg2 arg3 harg3 arg4 harg4 arg5 harg5 arg6 harg6 hc0 x0 x1 x2 x3).1)

/-- Another point's store covers the block. -/
theorem cover2_B_4 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond2 i)
    (x0 : Vec F S512x256 .f32) (x1 : Vec F S1024x256 .f32) (x2 : Vec F S512x1 .f32) (x3 : Vec F S1x1024 .f32) (xo : Vec F S1x1 .f32) (y : S1x1.Idx) :
    ∃ pc ∈ (kernelRun2_B c i arg2 harg2 arg3 harg3 arg4 harg4 arg5 harg5 arg6 harg6 hc0 x0 x1 x2 x3 xo).1, y ∈ pc.1.set :=
  View.cover_of_tiledL (kernelRun2_B c i arg2 harg2 arg3 harg3 arg4 harg4 arg5 harg5 arg6 harg6 hc0 x0 x1 x2 x3 xo).1 S1x1.size (by sl_kernel_rfl) y

/-- What another point leaves in the accumulator's buffer, over the running contents `xo`. -/
def out2_B_4 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond2 i)
    (x0 : Vec F S512x256 .f32) (x1 : Vec F S1024x256 .f32) (x2 : Vec F S512x1 .f32) (x3 : Vec F S1x1024 .f32) (xo : Vec F S1x1 .f32) : Vec F S1x1 .f32 :=
  VO2_4.read (Elt F) (VO2_4.writes (Elt F) VO2_4.junk (kernelRun2_B c i arg2 harg2 arg3 harg3 arg4 harg4 arg5 harg5 arg6 harg6 hc0 x0 x1 x2 x3 xo).1)

/-- THE ACCUMULATION: what the accumulator's buffer holds after the body at position `n` — the first point's
    contents at 0, and afterwards the other case's over what position `n - 1` left. -/
def outsAt2 (c : Dev nD) : (n : ℕ) → n < cfg2.N → Vec F S1x1 .f32
  | 0, hn => out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2 ⟨0, hn⟩).mpr rfl) (iblk2 V c 0 ⟨0, hn⟩) (iblk2 V c 1 ⟨0, hn⟩) (iblk2 V c 2 ⟨0, hn⟩) (iblk2 V c 3 ⟨0, hn⟩)
  | n + 1, hn => out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => Nat.succ_ne_zero n ((hcond2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn))

theorem outsAt2_A (c : Dev nD) (t : Fin cfg2.N) (h0 : t.val = 0) :
    outsAt2 V c t.val t.isLt = out2_A_4 c (grid2.coords t) (ms2_0 t) (hs2_0 t) (ms2_1 t) (hs2_1 t) (ms2_2 t) (hs2_2 t) (ms2_3 t) (hs2_3 t) (ms2_4 t) (hs2_4 t) ((hcond2 t).mpr h0) (iblk2 V c 0 t) (iblk2 V c 1 t) (iblk2 V c 2 t) (iblk2 V c 3 t) := by
  obtain ⟨n, hn⟩ := t
  cases n with
  | zero => exact rfl
  | succ n => exact absurd h0 (Nat.succ_ne_zero n)

theorem outsAt2_B (c : Dev nD) (t : Fin cfg2.N) (h0 : ¬t.val = 0) :
    outsAt2 V c t.val t.isLt = out2_B_4 c (grid2.coords t) (ms2_0 t) (hs2_0 t) (ms2_1 t) (hs2_1 t) (ms2_2 t) (hs2_2 t) (ms2_3 t) (hs2_3 t) (ms2_4 t) (hs2_4 t) (fun h => h0 ((hcond2 t).mp h)) (iblk2 V c 0 t) (iblk2 V c 1 t) (iblk2 V c 2 t) (iblk2 V c 3 t) (outsAt2 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of pipeline 2 on core `c`: the arrays as the region finds them; after the body at point `t` each
    input's buffer at its block and the accumulator's at `outsAt2`; nothing owed; the array the two sample windows share is held half by each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q w := match w with
    | ⟨0, _⟩ => fullShare
    | ⟨1, _⟩ => fullShare
    | ⟨2, _⟩ => fullShare
    | ⟨3, _⟩ => fullShare
    | ⟨4, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
/-- At a point other than the first the accumulator's buffer holds what the body left at the point before: it was not
    written back between, and the window is live and uncut. -/
theorem before2_4_B (c : Dev nD) (t : Fin cfg2.N) (h0 : ¬t.val = 0) (d) :
    (dat2 V c).before 4 t d = outsAt2 V c (t.val - 1) (Nat.lt_of_le_of_lt (Nat.sub_le _ _) t.isLt) := by
  have hN : t.val < 128 := lt_of_lt_of_eq t.isLt (show cfg2.N = 128 from N_2)
  rw [Dat.before_out_kept _ 4 rfl t (by omega) (Bool.eq_false_iff.mpr fun h => by have := (flush2_4 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1000000 in
/-- The body at any point: the inputs' memrefs hold their blocks; the point is the first or not; at another point the
    accumulator's buffer holds what the point before left; so the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  by_cases h0 : t.val = 0
  · rw [outsAt2_A V c t h0]
    unfold out2_A_4
    iintro ⟨HΦ, Ho, ⟨%d0, H0⟩, ⟨%d1, H1⟩, ⟨%d2, H2⟩, ⟨%d3, H3⟩, ⟨%d4, H4⟩⟩
    iapply ((kernelRun2_A c (grid2.coords t) _ _ _ _ _ _ _ _ _ _ ((hcond2 t).mpr h0) (iblk2 V c 0 t) (iblk2 V c 1 t) (iblk2 V c 2 t) (iblk2 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_A_4 c _ _ _ _ _ _ _ _ _ _ _ _ _ _ _ _)
  · rw [outsAt2_B V c t h0]
    simp only [before2_4_B V c t h0]
    unfold out2_B_4
    iintro ⟨HΦ, Ho, ⟨%d0, H0⟩, ⟨%d1, H1⟩, ⟨%d2, H2⟩, ⟨%d3, H3⟩, ⟨%d4, H4⟩⟩
    iapply ((kernelRun2_B c (grid2.coords t) _ _ _ _ _ _ _ _ _ _ (fun h => h0 ((hcond2 t).mp h)) (iblk2 V c 0 t) (iblk2 V c 1 t) (iblk2 V c 2 t) (iblk2 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_B_4 c _ _ _ _ _ _ _ _ _ _ _ _ _ _ _ _ _)

/-- The body obligation of the pipeline rule, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KShared0.lean ====
/-
  Region 0 hands ONE array of @main to its two sample windows (the rows of the same matrix, read in blocks of 512 and
  of 1024). At the region's entry the core holds every unscoped buffer whole; the pipeline wants, per window, its array
  at that window's share. So the shared array's full share is split in two halves, one per window, and every other
  array goes to its one window whole; at the exit the two halves, which still hold the same contents, are joined
  again. These are the two entailments a region's entry and exit take.
-/
import proofs.«123217_j81080392613941_1_alg».proof.Proof.Gen.Kernel.Launch
import Idealize.ShloMosaic.Lib.Pipeline.Regions
import Idealize.ShloMosaic.Lib.Pipeline.RegionsLoop

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

/-- The windows' arrays are four references: the shared argument, the two other inputs' arrays and the output's. -/
theorem arrRefs0 : Finset.univ.image (Pipeline.arrRef spec0) = [main_arg0, main_v2, main_v6, main_v7].toFinset := by decide

/-- The buffers behind the windows' arrays, one by one. -/
theorem arrBufs0_eq (c : Dev nD) (V : (b : Ref sig .tc) → Buf (Elt F) ((c : Thread nD τ).loc b)) :
    (Pipeline.arrBufs spec0 c V : sProp 𝕄)
      = iprop(((c : Thread nD τ).loc main_arg0 ↦{fullShare} V main_arg0) ∗ ((c : Thread nD τ).loc main_v2 ↦{fullShare} V main_v2)
          ∗ ((c : Thread nD τ).loc main_v6 ↦{fullShare} V main_v6) ∗ ((c : Thread nD τ).loc main_v7 ↦{fullShare} V main_v7)) :=
  bigSep_eq_bigSepL_of_eq [main_arg0, main_v2, main_v6, main_v7] arrRefs0 (by decide) _

/-- The pipeline's arrays, window by window: every array is a whole buffer; the two sample windows hold the shared
    array at the left and the right half of the full share, the other inputs and the output hold theirs whole. -/
theorem arrays0_eq (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Ff : (w : Fin cfg0.W) → Buf (Elt F) ((cfg0.win w).arr.view.loc (c : Thread nD τ))) :
    (dat.arrays Ff : sProp 𝕄)
      = iprop(((c : Thread nD τ).loc main_arg0 ↦{fullShare.left} Ff 0) ∗ ((c : Thread nD τ).loc main_arg0 ↦{fullShare.right} Ff 1)
          ∗ ((c : Thread nD τ).loc main_v2 ↦{fullShare} Ff 2) ∗ ((c : Thread nD τ).loc main_v6 ↦{fullShare} Ff 3)
          ∗ ((c : Thread nD τ).loc main_v7 ↦{fullShare} Ff 4)) := by
  have h0 : ((cfg0.win 0).arr.view.loc (c : Thread nD τ) ↦[(cfg0.win 0).arr.view.set]{dat.share 0} Ff 0 : sProp 𝕄)
      = ((c : Thread nD τ).loc main_arg0 ↦{fullShare.left} Ff 0) := by
    rw [(arr_whole0 0).set_eq_univ, show dat.share 0 = dat.q 0 from rfl, hq0] <;> rfl
  have h1 : ((cfg0.win 1).arr.view.loc (c : Thread nD τ) ↦[(cfg0.win 1).arr.view.set]{dat.share 1} Ff 1 : sProp 𝕄)
      = ((c : Thread nD τ).loc main_arg0 ↦{fullShare.right} Ff 1) := by
    rw [(arr_whole0 1).set_eq_univ, show dat.share 1 = dat.q 1 from rfl, hq1] <;> rfl
  have h2 : ((cfg0.win 2).arr.view.loc (c : Thread nD τ) ↦[(cfg0.win 2).arr.view.set]{dat.share 2} Ff 2 : sProp 𝕄)
      = ((c : Thread nD τ).loc main_v2 ↦{fullShare} Ff 2) := by
    rw [(arr_whole0 2).set_eq_univ, show dat.share 2 = dat.q 2 from rfl, hq2] <;> rfl
  have h3 : ((cfg0.win 3).arr.view.loc (c : Thread nD τ) ↦[(cfg0.win 3).arr.view.set]{dat.share 3} Ff 3 : sProp 𝕄)
      = ((c : Thread nD τ).loc main_v6 ↦{fullShare} Ff 3) := by
    rw [(arr_whole0 3).set_eq_univ, show dat.share 3 = dat.q 3 from rfl, hq3] <;> rfl
  have h4 : ((cfg0.win 4).arr.view.loc (c : Thread nD τ) ↦[(cfg0.win 4).arr.view.set]{dat.share 4} Ff 4 : sProp 𝕄)
      = ((c : Thread nD τ).loc main_v7 ↦{fullShare} Ff 4) := by
    rw [(arr_whole0 4).set_eq_univ, show dat.share 4 = fullShare from rfl] <;> rfl
  unfold Dat.arrays
  rw [bigSep_W0]
  beta_reduce
  rw [h0, h1, h2, h3, h4]

/-- A core's unscoped buffers are the buffers behind the windows' arrays and the rest (the arrays need not be distinct). -/
theorem split0 (c : Dev nD) (V : (b : Ref sig .tc) → Buf (Elt F) ((c : Thread nD τ).loc b)) :
    (unscopedBufs c V : sProp 𝕄) = iprop(Pipeline.arrBufs spec0 c V ∗ Pipeline.unscopedRest spec0 c V) :=
  Pipeline.unscopedBufs_split₀ cfgs 0 winFacts₀0.arr_unscoped c V

/-- The full share is its left half composed with its right half: a whole array is its two halves at one contents. -/
theorem halves (c : Dev nD) (f : Buf (Elt F) ((c : Thread nD τ).loc main_arg0)) :
    ((c : Thread nD τ).loc main_arg0 ↦{fullShare} f : sProp 𝕄)
      ⊣⊢ iprop(((c : Thread nD τ).loc main_arg0 ↦{fullShare.left} f) ∗ ((c : Thread nD τ).loc main_arg0 ↦{fullShare.right} f)) :=
  pointsTo_share (PosShare.mem_left_op_right fullShare)

/-- ENTRY: a core's unscoped buffers at contents `V` are pipeline 0's arrays at the proof data's entry contents —
    read off `V`, the shared array half to each of its two windows, the others whole — and the unscoped rest. -/
theorem arrays_of_unscopedBufs0 (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (hA : ∀ w, dat.A w = V (Pipeline.arrRef spec0 w)) :
    (unscopedBufs c V : sProp 𝕄) ⊢ iprop(dat.arrays (dat.arrAt · 0) ∗ Pipeline.unscopedRest spec0 c V) := by
  have e : ∀ w, dat.arrAt w 0 = V (Pipeline.arrRef spec0 w) := fun w => (show dat.arrAt w 0 = dat.A w from rfl).trans (hA w)
  rw [split0 c V, arrBufs0_eq c V, arrays0_eq c dat hq0 hq1 hq2 hq3, e 0, e 1, e 2, e 3, e 4]
  refine sep_mono ?_ .rfl
  exact (sep_mono (halves c (V main_arg0)).mp .rfl).trans sep_assoc.mp

/-- EXIT: the pipeline's arrays at contents `Ff` and the unscoped rest at `V` are the core's unscoped buffers at any
    `V'` that has the arrays at `Ff` and agrees with `V` off them (the two halves of the shared array hold the same
    contents, `V'` of it, and join). -/
theorem unscopedBufs_of_arrays0 (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V V' : (b : Ref sig .tc) → Buf (Elt F) ((c : Thread nD τ).loc b))
    (Ff : (w : Fin cfg0.W) → Buf (Elt F) ((cfg0.win w).arr.view.loc (c : Thread nD τ)))
    (hF : ∀ w, Ff w = V' (Pipeline.arrRef spec0 w))
    (hrest : ∀ b, b ∉ Finset.univ.image (Pipeline.arrRef spec0) → V' b = V b) :
    iprop(dat.arrays Ff ∗ Pipeline.unscopedRest spec0 c V) ⊢ (unscopedBufs c V' : sProp 𝕄) := by
  rw [split0 c V', arrBufs0_eq c V', arrays0_eq c dat hq0 hq1 hq2 hq3, hF 0, hF 1, hF 2, hF 3, hF 4]
  refine sep_mono ?_ (Entails.of_eq ?_)
  · exact sep_assoc.mpr.trans (sep_mono (halves c (V' main_arg0)).mpr .rfl)
  · unfold Pipeline.unscopedRest
    exact bigSep_congr fun b hb => by rw [hrest b (Finset.mem_sdiff.mp hb).2]

end Cert.Kernel.Hand

end
-- ==== Proof.KShared1.lean ====
/-
  Region 1 hands ONE array of @main to its two sample windows (the rows of the same matrix, read in blocks of 512 and
  of 1024). At the region's entry the core holds every unscoped buffer whole; the pipeline wants, per window, its array
  at that window's share. So the shared array's full share is split in two halves1, one per window, and every other
  array goes to its one window whole; at the exit the two halves1, which still hold the same contents, are joined
  again. These are the two entailments a region's entry and exit take.
-/
import proofs.«123217_j81080392613941_1_alg».proof.Proof.Gen.Kernel.Launch
import Idealize.ShloMosaic.Lib.Pipeline.Regions
import Idealize.ShloMosaic.Lib.Pipeline.RegionsLoop

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

/-- The windows' arrays are four references: the shared argument, the two other inputs' arrays and the output's. -/
theorem arrRefs1 : Finset.univ.image (Pipeline.arrRef spec1) = [main_arg1, main_v12, main_v16, main_v17].toFinset := by decide

/-- The buffers behind the windows' arrays, one by one. -/
theorem arrBufs1_eq (c : Dev nD) (V : (b : Ref sig .tc) → Buf (Elt F) ((c : Thread nD τ).loc b)) :
    (Pipeline.arrBufs spec1 c V : sProp 𝕄)
      = iprop(((c : Thread nD τ).loc main_arg1 ↦{fullShare} V main_arg1) ∗ ((c : Thread nD τ).loc main_v12 ↦{fullShare} V main_v12)
          ∗ ((c : Thread nD τ).loc main_v16 ↦{fullShare} V main_v16) ∗ ((c : Thread nD τ).loc main_v17 ↦{fullShare} V main_v17)) :=
  bigSep_eq_bigSepL_of_eq [main_arg1, main_v12, main_v16, main_v17] arrRefs1 (by decide) _

/-- The pipeline's arrays, window by window: every array is a whole buffer; the two sample windows hold the shared
    array at the left and the right half of the full share, the other inputs and the output hold theirs whole. -/
theorem arrays1_eq (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (Ff : (w : Fin cfg1.W) → Buf (Elt F) ((cfg1.win w).arr.view.loc (c : Thread nD τ))) :
    (dat.arrays Ff : sProp 𝕄)
      = iprop(((c : Thread nD τ).loc main_arg1 ↦{fullShare.left} Ff 0) ∗ ((c : Thread nD τ).loc main_arg1 ↦{fullShare.right} Ff 1)
          ∗ ((c : Thread nD τ).loc main_v12 ↦{fullShare} Ff 2) ∗ ((c : Thread nD τ).loc main_v16 ↦{fullShare} Ff 3)
          ∗ ((c : Thread nD τ).loc main_v17 ↦{fullShare} Ff 4)) := by
  have h0 : ((cfg1.win 0).arr.view.loc (c : Thread nD τ) ↦[(cfg1.win 0).arr.view.set]{dat.share 0} Ff 0 : sProp 𝕄)
      = ((c : Thread nD τ).loc main_arg1 ↦{fullShare.left} Ff 0) := by
    rw [(arr_whole1 0).set_eq_univ, show dat.share 0 = dat.q 0 from rfl, hq0] <;> rfl
  have h1 : ((cfg1.win 1).arr.view.loc (c : Thread nD τ) ↦[(cfg1.win 1).arr.view.set]{dat.share 1} Ff 1 : sProp 𝕄)
      = ((c : Thread nD τ).loc main_arg1 ↦{fullShare.right} Ff 1) := by
    rw [(arr_whole1 1).set_eq_univ, show dat.share 1 = dat.q 1 from rfl, hq1] <;> rfl
  have h2 : ((cfg1.win 2).arr.view.loc (c : Thread nD τ) ↦[(cfg1.win 2).arr.view.set]{dat.share 2} Ff 2 : sProp 𝕄)
      = ((c : Thread nD τ).loc main_v12 ↦{fullShare} Ff 2) := by
    rw [(arr_whole1 2).set_eq_univ, show dat.share 2 = dat.q 2 from rfl, hq2] <;> rfl
  have h3 : ((cfg1.win 3).arr.view.loc (c : Thread nD τ) ↦[(cfg1.win 3).arr.view.set]{dat.share 3} Ff 3 : sProp 𝕄)
      = ((c : Thread nD τ).loc main_v16 ↦{fullShare} Ff 3) := by
    rw [(arr_whole1 3).set_eq_univ, show dat.share 3 = dat.q 3 from rfl, hq3] <;> rfl
  have h4 : ((cfg1.win 4).arr.view.loc (c : Thread nD τ) ↦[(cfg1.win 4).arr.view.set]{dat.share 4} Ff 4 : sProp 𝕄)
      = ((c : Thread nD τ).loc main_v17 ↦{fullShare} Ff 4) := by
    rw [(arr_whole1 4).set_eq_univ, show dat.share 4 = fullShare from rfl] <;> rfl
  unfold Dat.arrays
  rw [bigSep_W1]
  beta_reduce
  rw [h0, h1, h2, h3, h4]

/-- A core's unscoped buffers are the buffers behind the windows' arrays and the rest (the arrays need not be distinct). -/
theorem split1 (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

/-- The full share is its left half composed with its right half: a whole array is its two halves1 at one contents. -/
theorem halves1 (c : Dev nD) (f : Buf (Elt F) ((c : Thread nD τ).loc main_arg1)) :
    ((c : Thread nD τ).loc main_arg1 ↦{fullShare} f : sProp 𝕄)
      ⊣⊢ iprop(((c : Thread nD τ).loc main_arg1 ↦{fullShare.left} f) ∗ ((c : Thread nD τ).loc main_arg1 ↦{fullShare.right} f)) :=
  pointsTo_share (PosShare.mem_left_op_right fullShare)

/-- ENTRY: a core's unscoped buffers at contents `V` are pipeline 1's arrays at the proof data's entry contents —
    read off `V`, the shared array half to each of its two windows, the others whole — and the unscoped rest. -/
theorem arrays_of_unscopedBufs1 (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (hA : ∀ w, dat.A w = V (Pipeline.arrRef spec1 w)) :
    (unscopedBufs c V : sProp 𝕄) ⊢ iprop(dat.arrays (dat.arrAt · 0) ∗ Pipeline.unscopedRest spec1 c V) := by
  have e : ∀ w, dat.arrAt w 0 = V (Pipeline.arrRef spec1 w) := fun w => (show dat.arrAt w 0 = dat.A w from rfl).trans (hA w)
  rw [split1 c V, arrBufs1_eq c V, arrays1_eq c dat hq0 hq1 hq2 hq3, e 0, e 1, e 2, e 3, e 4]
  refine sep_mono ?_ .rfl
  exact (sep_mono (halves1 c (V main_arg1)).mp .rfl).trans sep_assoc.mp

/-- EXIT: the pipeline's arrays at contents `Ff` and the unscoped rest at `V` are the core's unscoped buffers at any
    `V'` that has the arrays at `Ff` and agrees with `V` off them (the two halves1 of the shared array hold the same
    contents, `V'` of it, and join). -/
theorem unscopedBufs_of_arrays1 (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V V' : (b : Ref sig .tc) → Buf (Elt F) ((c : Thread nD τ).loc b))
    (Ff : (w : Fin cfg1.W) → Buf (Elt F) ((cfg1.win w).arr.view.loc (c : Thread nD τ)))
    (hF : ∀ w, Ff w = V' (Pipeline.arrRef spec1 w))
    (hrest : ∀ b, b ∉ Finset.univ.image (Pipeline.arrRef spec1) → V' b = V b) :
    iprop(dat.arrays Ff ∗ Pipeline.unscopedRest spec1 c V) ⊢ (unscopedBufs c V' : sProp 𝕄) := by
  rw [split1 c V', arrBufs1_eq c V', arrays1_eq c dat hq0 hq1 hq2 hq3, hF 0, hF 1, hF 2, hF 3, hF 4]
  refine sep_mono ?_ (Entails.of_eq ?_)
  · exact sep_assoc.mpr.trans (sep_mono (halves1 c (V' main_arg1)).mpr .rfl)
  · unfold Pipeline.unscopedRest
    exact bigSep_congr fun b hb => by rw [hrest b (Finset.mem_sdiff.mp hb).2]

end Cert.Kernel.Hand

end
-- ==== Proof.KRun.lean ====
/-
  @main's run: three kernel regions among four stretches of host operations.

  Between two items a core holds every unscoped buffer whole at known contents: the launch memory, then each host
  stretch's operations applied, then, after a region, the same with the region's one result array at what the
  pipeline's write-back leaves there. Each region enters the pipeline rule from that state and comes back to it. The
  run then reads the last contents against the final memory: the two argument arrays are as launched (no item writes
  them), and the result buffer holds the last stretch's value.
-/
import proofs.«123217_j81080392613941_1_alg».proof.Proof.KBody0
import proofs.«123217_j81080392613941_1_alg».proof.Proof.KBody1
import proofs.«123217_j81080392613941_1_alg».proof.Proof.KBody2
import proofs.«123217_j81080392613941_1_alg».proof.Proof.KShared0
import proofs.«123217_j81080392613941_1_alg».proof.Proof.KShared1
import proofs.«123217_j81080392613941_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, one after the other -/

/-- A result array's contents nothing has been said about yet: as launched. -/
abbrev asLaunched (r : Ref sig .tc) (c : Dev nD) : Buf (Elt F) ((c : Thread nD τ).loc r) := m ((c : Thread nD τ).loc r)

/-- The three regions' result arrays as the unknowns the valuations are written over. -/
def outsOf (r0 : (c : Dev nD) → Buf (Elt F) ((c : Thread nD τ).loc main_v7)) (r1 : (c : Dev nD) → Buf (Elt F) ((c : Thread nD τ).loc main_v17))
    (r2 : (c : Dev nD) → Buf (Elt F) ((c : Thread nD τ).loc main_v27)) : Outs (F := F) := fun J r c =>
  match J with
  | 2 => Function.update (fun r => asLaunched m r c) main_v7 (r0 c) r
  | 4 => Function.update (fun r => asLaunched m r c) main_v17 (r1 c) r
  | _ => Function.update (fun r => asLaunched m r c) main_v27 (r2 c) r

theorem outsOf_2 (r0 r1 r2) (c : Dev nD) : outsOf m r0 r1 r2 2 main_v7 c = r0 c := by
  unfold outsOf; exact Function.update_self ..
theorem outsOf_4 (r0 r1 r2) (c : Dev nD) : outsOf m r0 r1 r2 4 main_v17 c = r1 c := by
  unfold outsOf; exact Function.update_self ..
theorem outsOf_6 (r0 r1 r2) (c : Dev nD) : outsOf m r0 r1 r2 6 main_v27 c = r2 c := by
  unfold outsOf; exact Function.update_self ..

/-- Region 0's entry contents, at the TensorCore's references. -/
abbrev E1 (c : Dev nD) (b : Ref sig .tc) : Buf (Elt F) ((c : Thread nD τ).loc b) := V1 m c b
/-- What region 0 leaves in its result array: the accumulator's block written back after the last point. -/
def res0 (c : Dev nD) : Buf (Elt F) ((c : Thread nD τ).loc main_v7) := (dat0 (E1 m) c).arrAt 4 cfg0.N
/-- The unknowns with region 0's result known. -/
abbrev outs₁ : Outs (F := F) := outsOf m (res0 m) (asLaunched m main_v17) (asLaunched m main_v27)
/-- Region 1's entry contents. -/
abbrev E3 (c : Dev nD) (b : Ref sig .tc) : Buf (Elt F) ((c : Thread nD τ).loc b) := V3 m (outs₁ m) c b
def res1 (c : Dev nD) : Buf (Elt F) ((c : Thread nD τ).loc main_v17) := (dat1 (E3 m) c).arrAt 4 cfg1.N
abbrev outs₂ : Outs (F := F) := outsOf m (res0 m) (res1 m) (asLaunched m main_v27)
/-- Region 2's entry contents. -/
abbrev E5 (c : Dev nD) (b : Ref sig .tc) : Buf (Elt F) ((c : Thread nD τ).loc b) := V5 m (outs₂ m) c b
def res2 (c : Dev nD) : Buf (Elt F) ((c : Thread nD τ).loc main_v27) := (dat2 (E5 m) c).arrAt 4 cfg2.N
/-- The unknowns, all three known. -/
abbrev outs : Outs (F := F) := outsOf m (res0 m) (res1 m) (res2 m)

theorem outs_2 (c : Dev nD) : outs m 2 main_v7 c = res0 m c := outsOf_2 m _ _ _ c
theorem outs₁_2 (c : Dev nD) : outs₁ m 2 main_v7 c = res0 m c := outsOf_2 m _ _ _ c
theorem outs₂_2 (c : Dev nD) : outs₂ m 2 main_v7 c = res0 m c := outsOf_2 m _ _ _ c
theorem outs_4 (c : Dev nD) : outs m 4 main_v17 c = res1 m c := outsOf_4 m _ _ _ c
theorem outs₂_4 (c : Dev nD) : outs₂ m 4 main_v17 c = res1 m c := outsOf_4 m _ _ _ c
theorem outs_6 (c : Dev nD) : outs m 6 main_v27 c = res2 m c := outsOf_6 m _ _ _ c

/-- The valuations read an unknown only at its own item: with all three known they are the staged ones. -/
theorem V3_outs (c : Dev nD) : V3 m (outs m) c = V3 m (outs₁ m) c := by
  show StableHlo.after hostOps1 (Function.update (V1 m c) main_v7 (outs m 2 main_v7 c)) = StableHlo.after hostOps1 (Function.update (V1 m c) main_v7 (outs₁ m 2 main_v7 c))
  rw [outs_2, outs₁_2]
theorem V3_outs₂ (c : Dev nD) : V3 m (outs₂ m) c = V3 m (outs₁ m) c := by
  show StableHlo.after hostOps1 (Function.update (V1 m c) main_v7 (outs₂ m 2 main_v7 c)) = StableHlo.after hostOps1 (Function.update (V1 m c) main_v7 (outs₁ m 2 main_v7 c))
  rw [outs₂_2, outs₁_2]
theorem V5_outs (c : Dev nD) : V5 m (outs m) c = V5 m (outs₂ m) c := by
  show StableHlo.after hostOps2 (Function.update (V3 m (outs m) c) main_v17 (outs m 4 main_v17 c)) = StableHlo.after hostOps2 (Function.update (V3 m (outs₂ m) c) main_v17 (outs₂ m 4 main_v17 c))
  rw [outs_4, outs₂_4, V3_outs, V3_outs₂]

/-! ## The proof data family and the thread state -/

/-- Every pipeline's proof data, each at its region's entry contents: a literal match on the pipeline. -/
def pdats : (p : Fin 3) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and that it owes
    nothing. -/
abbrev R (c : Dev nD) : sProp 𝕄 := iprop((∃ r, prngReg c r) ∗ ∃ W, owes (c : Thread nD τ) (0 : CellTallies nD τ sig Unit) W)

/-! ## Each region's arrays at its exit -/

theorem hF0 (c : Dev nD) (w : Fin cfg0.W) : (pdats m 0 c).arrAt w cfg0.N = V2 m (outs m) c (Pipeline.arrRef spec0 w) := by
  match w with
  | ⟨0, _⟩ => exact ((pdats m 0 c).arrAt_in 0 rfl _).trans ((A_eq0 (E1 m) c 0).trans (V2_of m (outs m) c main_arg0 (by decide)).symm)
  | ⟨1, _⟩ => exact ((pdats m 0 c).arrAt_in 1 rfl _).trans ((A_eq0 (E1 m) c 1).trans (V2_of m (outs m) c main_arg0 (by decide)).symm)
  | ⟨2, _⟩ => exact ((pdats m 0 c).arrAt_in 2 rfl _).trans ((A_eq0 (E1 m) c 2).trans (V2_of m (outs m) c main_v2 (by decide)).symm)
  | ⟨3, _⟩ => exact ((pdats m 0 c).arrAt_in 3 rfl _).trans ((A_eq0 (E1 m) c 3).trans (V2_of m (outs m) c main_v6 (by decide)).symm)
  | ⟨4, _⟩ =>
    show res0 m c = Function.update (V1 m c) main_v7 (outs m 2 main_v7 c) main_v7
    rw [Function.update_self, outs_2]
theorem hrest0 (c : Dev nD) : ∀ b, b ∉ Finset.univ.image (Pipeline.arrRef spec0) → V2 m (outs m) c b = E1 m c b :=
  fun b hb => V2_of m (outs m) c b (fun h => hb (Finset.mem_image.mpr ⟨4, Finset.mem_univ _, (List.mem_singleton.mp h).symm⟩))

theorem hF1 (c : Dev nD) (w : Fin cfg1.W) : (pdats m 1 c).arrAt w cfg1.N = V4 m (outs m) c (Pipeline.arrRef spec1 w) := by
  match w with
  | ⟨0, _⟩ => exact ((pdats m 1 c).arrAt_in 0 rfl _).trans ((A_eq1 (E3 m) c 0).trans ((congrFun (V3_outs m c) _).symm.trans (V4_of m (outs m) c main_arg1 (by decide)).symm))
  | ⟨1, _⟩ => exact ((pdats m 1 c).arrAt_in 1 rfl _).trans ((A_eq1 (E3 m) c 1).trans ((congrFun (V3_outs m c) _).symm.trans (V4_of m (outs m) c main_arg1 (by decide)).symm))
  | ⟨2, _⟩ => exact ((pdats m 1 c).arrAt_in 2 rfl _).trans ((A_eq1 (E3 m) c 2).trans ((congrFun (V3_outs m c) _).symm.trans (V4_of m (outs m) c main_v12 (by decide)).symm))
  | ⟨3, _⟩ => exact ((pdats m 1 c).arrAt_in 3 rfl _).trans ((A_eq1 (E3 m) c 3).trans ((congrFun (V3_outs m c) _).symm.trans (V4_of m (outs m) c main_v16 (by decide)).symm))
  | ⟨4, _⟩ =>
    show res1 m c = Function.update (V3 m (outs m) c) main_v17 (outs m 4 main_v17 c) main_v17
    rw [Function.update_self, outs_4]
theorem hrest1 (c : Dev nD) : ∀ b, b ∉ Finset.univ.image (Pipeline.arrRef spec1) → V4 m (outs m) c b = E3 m c b :=
  fun b hb => (V4_of m (outs m) c b (fun h => hb (Finset.mem_image.mpr ⟨4, Finset.mem_univ _, (List.mem_singleton.mp h).symm⟩))).trans (congrFun (V3_outs m c) _)

theorem hF2 (c : Dev nD) (w : Fin cfg2.W) : (pdats m 2 c).arrAt w cfg2.N = V6 m (outs m) c (Pipeline.arrRef spec2 w) := by
  match w with
  | ⟨0, _⟩ => exact ((pdats m 2 c).arrAt_in 0 rfl _).trans ((A_eq2 (E5 m) c 0).trans ((congrFun (V5_outs m c) _).symm.trans (V6_of m (outs m) c main_arg0 (by decide)).symm))
  | ⟨1, _⟩ => exact ((pdats m 2 c).arrAt_in 1 rfl _).trans ((A_eq2 (E5 m) c 1).trans ((congrFun (V5_outs m c) _).symm.trans (V6_of m (outs m) c main_arg1 (by decide)).symm))
  | ⟨2, _⟩ => exact ((pdats m 2 c).arrAt_in 2 rfl _).trans ((A_eq2 (E5 m) c 2).trans ((congrFun (V5_outs m c) _).symm.trans (V6_of m (outs m) c main_v22 (by decide)).symm))
  | ⟨3, _⟩ => exact ((pdats m 2 c).arrAt_in 3 rfl _).trans ((A_eq2 (E5 m) c 3).trans ((congrFun (V5_outs m c) _).symm.trans (V6_of m (outs m) c main_v26 (by decide)).symm))
  | ⟨4, _⟩ =>
    show res2 m c = Function.update (V5 m (outs m) c) main_v27 (outs m 6 main_v27 c) main_v27
    rw [Function.update_self, outs_6]
theorem hrest2 (c : Dev nD) : ∀ b, b ∉ Finset.univ.image (Pipeline.arrRef spec2) → V6 m (outs m) c b = E5 m c b :=
  fun b hb => (V6_of m (outs m) c b (fun h => hb (Finset.mem_image.mpr ⟨4, Finset.mem_univ _, (List.mem_singleton.mp h).symm⟩))).trans (congrFun (V5_outs m c) _)

/-- Region 2 holds each of its arrays whole. -/
theorem q2_full (c : Dev nD) (w : Fin cfg2.W) : (pdats m 2 c).q w = fullShare := by
  match w with
  | ⟨0, _⟩ => rfl
  | ⟨1, _⟩ => rfl
  | ⟨2, _⟩ => rfl
  | ⟨3, _⟩ => rfl
  | ⟨4, _⟩ => rfl

/-! ## The regions as segments -/

-- `iapply` of a library lemma stated over the pinned configuration unifies only when unification may unfold plain
-- definitions in a metavariable's type
set_option backward.isDefEq.respectTransparency.types false in
/-- REGION 0 over the thread state: entered from every unscoped buffer at the contents before it, left at those contents
    updated at `main_v7` by what the pipeline's write-back leaves. The shared sample array is split between its two
    windows at entry and joined at exit; the generator register goes into the body's invariant and comes out; nothing
    is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := arrays_of_unscopedBufs0 c (pdats m 0 c) rfl rfl rfl rfl (E1 m c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 c (pdats m 0 c) rfl rfl rfl rfl (E1 m c) (fun b => V2 m (outs m) c b)
      ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- REGION 1 over the thread state: entered from every unscoped buffer at the contents before it, left at those contents
    updated at `main_v17` by what the pipeline's write-back leaves. The shared sample array is split between its two
    windows at entry and joined at exit; the generator register goes into the body's invariant and comes out; nothing
    is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_outs]
    have hsplit := arrays_of_unscopedBufs1 c (pdats m 1 c) rfl rfl rfl rfl (E3 m c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 c (pdats m 1 c) rfl rfl rfl rfl (E3 m c) (fun b => V4 m (outs m) c b)
      ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- REGION 2 over the thread state: its five arrays are distinct buffers, each held whole. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none, V5_outs]
    have hsplit := Pipeline.arrays_of_unscopedBufs (p := 2) (pcfgs (F := F)) adm (pdats m) launch2.win launch2.arr_whole c
      ((pdats m 2 c).share_full (q2_full m c)) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full (q2_full m c))
      (E5 m c) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's ghost state and the rest states -/

/-- The launch element: the pipeline library's, at every pipeline's staging cells. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own ((emb₁ : Emb (UR sig nD τ) 𝕄) (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals makes the rest state on every core: the generator register, and nothing owed. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE3 (c : Dev nD) : R (F := F) c ⊢ (iprop(∃ W, owes (c : Thread nD τ) (0 : CellTallies nD τ sig Unit) W) : sProp 𝕄) := by
  iintro ⟨-, H⟩; iexact H

/-! ## The frame -/

/-- THE FRAME: every weakly fair execution of @main terminates, nothing faulting, and the two argument arrays end as
    launched — the conditional frame of the several-region program at these three regions' records. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond (m := m) (EP := (emb₁ : Emb (UR sig nD τ) 𝕄)) (ι := ()) (𝒱₀ := 𝒱₀) (L := L) (lv := lv) (hL := fun _ _ => rfl) (ρ := ρ) (outs := outs m)
    (pdats := pdats m) (O₀ := 0) (G := fun _ => (BI.emp : sProp 𝕄)) (u₀ := u₀) (hu₀ := hu₀) (E := fun _ c => R c) (hE0 := hE0 ρ) (hE3 := hE3)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

/-! ## The run with the result named -/

-- the launch theorem's implicit arguments are found by unifying its conclusion with this one, which takes unfolding
-- plain definitions in a metavariable's type
set_option backward.isDefEq.respectTransparency.types false in
/-- THE RUN: as the frame, and the result buffer ends at the last stretch's value: the last valuation read at
    `main_v33`. The same launch over the same segments as the conditional frame; only the reading of the last thread
    state against the final memory asks for one more buffer. -/
theorem run : θ_run defs (onTc (τ := τ) (main (F := F))) ⟨m, fun _ => 0, ρ⟩ (fun r => ∀ c : Dev nD,
      r.2.mem ((c.tc : Thread nD τ).loc main_v33) = V7 m (outs m) c main_v33
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm (pdats m) () cellOf_inj (emb₁ : Emb (UR sig nD τ) 𝕄) defs₀ 𝒱₀ L lv m ρ main
    (segs m (outs m) 𝒱₀ L lv (fun _ c => R c) () (pdats m) (reg0 m) (reg1 m) (reg2 m))
    (fun c Q => by
      rewrite [main_chain c, Seg.run_eq_chain,
        show (segs m (outs m) 𝒱₀ L lv (fun _ c => R c) () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) (0 : Dev nD → CellTallies nD τ sig Unit) (fun _ _ => rfl)
    (fun _ => (BI.emp : sProp 𝕄)) u₀ hu₀
    (T₀ := fun c => iprop(StableHlo.held (c : Thread nD τ) (Pipeline.ucRefs τ sig) (V0 m c) ∗ R c))
    (Tₙ := fun c => StableHlo.held (c : Thread nD τ) (Pipeline.ucRefs τ sig) (V7 m (outs m) c))
    (hch := fun c => ⟨.rfl, .rfl, .rfl, .rfl, .rfl, .rfl, .rfl, sep_mono .rfl (hE3 c)⟩)
    (hinit := ?_) (QY := fun c s => s.mem ((c.tc : Thread nD τ).loc main_v33) = V7 m (outs m) c main_v33
      ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    have hj : iprop((bigSep Finset.univ fun c : Dev nD => StableHlo.held (c : Thread nD τ) (Pipeline.ucRefs τ sig) (V0 m c)) ∗ bigSep Finset.univ (fun c : Dev nD => R (F := F) c))
        ⊢ (bigSep Finset.univ (fun c : Dev nD => iprop(StableHlo.held (c : Thread nD τ) (Pipeline.ucRefs τ sig) (V0 m c) ∗ R (F := F) c)) : sProp 𝕄) := by
      rw [← bigSep_sep']
    iapply hj
    isplitl [Hh]; · iexact Hh
    iexact HE
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact ⟨h (Proc.devRef .tc main_v33) (Finset.mem_filter.mpr ⟨StableHlo.devRef_mem_tcRefs main_v33, by decide⟩),
        (h (Proc.devRef .tc main_arg0) (Finset.mem_filter.mpr ⟨StableHlo.devRef_mem_tcRefs main_arg0, by decide⟩)).trans (V7_main_arg0 m (outs m) c),
        (h (Proc.devRef .tc main_arg1) (Finset.mem_filter.mpr ⟨StableHlo.devRef_mem_tcRefs main_arg1, by decide⟩)).trans (V7_main_arg1 m (outs m) c)⟩
    · iexact HSI

end Cert.Kernel.Hand

end
-- ==== Proof.Body0.lean ====
/-
  Region 0 of @main, the kernel's half: what one call of the kernel body does to its five staging buffers, and what
  the 1 x 1 accumulator holds after each of the 128 grid points.

  The body resets the accumulator at the first grid point only (both coordinates zero), then at every point loads its
  four input blocks, forms the block's partial sum and adds it to the accumulator it finds. So there are two control
  cases: the first point (reset, then add) and every other point (add to what the point before left). The accumulator's
  block index never moves and it is written back after the last point only, so between two points the buffer keeps
  what the body left. The statements hold at any float instance: the arithmetic stays inside the payload terms.
-/
import proofs.«123217_j81080392613941_1_alg».proof.Proof.Gen.KernelIdeal.Launch
import proofs.«123217_j81080392613941_1_alg».proof.Proof.Gen.KernelIdeal.Skeleton
import proofs.«123217_j81080392613941_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched the block index has not moved), for any proof data whose array is the entry contents and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The reset condition -/

/-- The body's reset condition from the grid coordinates: both are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-! ## The staging memrefs -/

/-- One staging buffer of the accumulator's window, through which its contents are stated. -/
abbrev VO0_4 : View sig .tc .vmem S1x1 .f32 := (Memref.whole cc0_stg4_0 : Memref sig .tc .vmem S1x1 .f32).view
/-- Each window's current staging memref at point `t`, as the pipeline passes it, and its wholeness. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

/-! ## The body's run, case by case -/

set_option maxHeartbeats 1000000 in
/-- THE FIRST POINT. On whole staging memrefs, the inputs' at their contents and the accumulator's at anything, the body
    runs to the continuation holding the inputs' as they were and the accumulator's buffer with its stores written:
    the pieces (last store first) are the witness the run finds. -/
noncomputable def kernelRun0_A (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond0 i)
    (x0 : Vec F S512x256 .f32) (x1 : Vec F S1024x256 .f32) (x2 : Vec F S512x1 .f32) (x3 : Vec F S1x1024 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__rbf_sum_kernel i arg2 harg2 arg3 harg3 arg4 harg4 arg5 harg5 arg6 harg6) K } := by
  refine ⟨?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- EVERY OTHER POINT. As above, with the accumulator's buffer at its running contents `xo`, which the body reads
    before it overwrites it. -/
noncomputable def kernelRun0_B (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond0 i)
    (x0 : Vec F S512x256 .f32) (x1 : Vec F S1024x256 .f32) (x2 : Vec F S512x1 .f32) (x3 : Vec F S1x1024 .f32) (xo : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__rbf_sum_kernel i arg2 harg2 arg3 harg3 arg4 harg4 arg5 harg5 arg6 harg6) K } := by
  refine ⟨?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-! ## What the accumulator's buffer holds after a call -/

/-- The first point's stores cover the 1 x 1 block. -/
theorem cover0_A_4 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond0 i)
    (x0 : Vec F S512x256 .f32) (x1 : Vec F S1024x256 .f32) (x2 : Vec F S512x1 .f32) (x3 : Vec F S1x1024 .f32) (y : S1x1.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S1x1.size (by sl_kernel_rfl) y

/-- What the first point leaves in the accumulator's buffer: its stores read back. -/
def out0_A_4 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond0 i)
    (x0 : Vec F S512x256 .f32) (x1 : Vec F S1024x256 .f32) (x2 : Vec F S512x1 .f32) (x3 : Vec F S1x1024 .f32) : Vec F S1x1 .f32 :=
  VO0_4.read (Elt F) (VO0_4.writes (Elt F) VO0_4.junk (kernelRun0_A c i arg2 harg2 arg3 harg3 arg4 harg4 arg5 harg5 arg6 harg6 hc0 x0 x1 x2 x3).1)

/-- Another point's store covers the block. -/
theorem cover0_B_4 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond0 i)
    (x0 : Vec F S512x256 .f32) (x1 : Vec F S1024x256 .f32) (x2 : Vec F S512x1 .f32) (x3 : Vec F S1x1024 .f32) (xo : Vec F S1x1 .f32) (y : S1x1.Idx) :
    ∃ pc ∈ (kernelRun0_B c i arg2 harg2 arg3 harg3 arg4 harg4 arg5 harg5 arg6 harg6 hc0 x0 x1 x2 x3 xo).1, y ∈ pc.1.set :=
  View.cover_of_tiledL (kernelRun0_B c i arg2 harg2 arg3 harg3 arg4 harg4 arg5 harg5 arg6 harg6 hc0 x0 x1 x2 x3 xo).1 S1x1.size (by sl_kernel_rfl) y

/-- What another point leaves in the accumulator's buffer, over the running contents `xo`. -/
def out0_B_4 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond0 i)
    (x0 : Vec F S512x256 .f32) (x1 : Vec F S1024x256 .f32) (x2 : Vec F S512x1 .f32) (x3 : Vec F S1x1024 .f32) (xo : Vec F S1x1 .f32) : Vec F S1x1 .f32 :=
  VO0_4.read (Elt F) (VO0_4.writes (Elt F) VO0_4.junk (kernelRun0_B c i arg2 harg2 arg3 harg3 arg4 harg4 arg5 harg5 arg6 harg6 hc0 x0 x1 x2 x3 xo).1)

/-- THE ACCUMULATION: what the accumulator's buffer holds after the body at position `n` — the first point's
    contents at 0, and afterwards the other case's over what position `n - 1` left. -/
def outsAt0 (c : Dev nD) : (n : ℕ) → n < cfg0.N → Vec F S1x1 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr rfl) (iblk0 V c 0 ⟨0, hn⟩) (iblk0 V c 1 ⟨0, hn⟩) (iblk0 V c 2 ⟨0, hn⟩) (iblk0 V c 3 ⟨0, hn⟩)
  | n + 1, hn => out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => Nat.succ_ne_zero n ((hcond0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))

theorem outsAt0_A (c : Dev nD) (t : Fin cfg0.N) (h0 : t.val = 0) :
    outsAt0 V c t.val t.isLt = out0_A_4 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t) (iblk0 V c 3 t) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 V c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of pipeline 0 on core `c`: the arrays as the region finds them; after the body at point `t` each
    input's buffer at its block and the accumulator's at `outsAt0`; nothing owed; the array the two sample windows share is held half by each. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
/-- At a point other than the first the accumulator's buffer holds what the body left at the point before: it was not
    written back between, and the window is live and uncut. -/
theorem before0_4_B (c : Dev nD) (t : Fin cfg0.N) (h0 : ¬t.val = 0) (d) :
    (dat0 V c).before 4 t d = outsAt0 V c (t.val - 1) (Nat.lt_of_le_of_lt (Nat.sub_le _ _) t.isLt) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1000000 in
/-- The body at any point: the inputs' memrefs hold their blocks; the point is the first or not; at another point the
    accumulator's buffer holds what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [outsAt0_A V c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B V c t h0]
    simp only [before0_4_B V c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The body obligation of the pipeline rule, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
/-
  Region 1 of @main, the kernel's half: what one call of the kernel body does to its five staging buffers, and what
  the 1 x 1 accumulator holds after each of the 128 grid points.

  The body resets the accumulator at the first grid point only (both coordinates zero), then at every point loads its
  four input blocks, forms the block's partial sum and adds it to the accumulator it finds. So there are two control
  cases: the first point (reset, then add) and every other point (add to what the point before left). The accumulator's
  block index never moves and it is written back after the last point only, so between two points the buffer keeps
  what the body left. The statements hold at any float instance: the arithmetic stays inside the payload terms.
-/
import proofs.«123217_j81080392613941_1_alg».proof.Proof.Gen.KernelIdeal.Launch
import proofs.«123217_j81080392613941_1_alg».proof.Proof.Gen.KernelIdeal.Skeleton
import proofs.«123217_j81080392613941_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched the block index has not moved), for any proof data whose array is the entry contents and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The reset condition -/

/-- The body's reset condition from the grid coordinates: both are zero. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond1 : ∀ t : Fin cfg1.N, cond1 (grid1.coords t) ↔ t.val = 0 :=
  (by decide +kernel : ∀ t : Fin grid1.N, cond1 (grid1.coords t) ↔ t.val = 0)

/-! ## The staging memrefs -/

/-- One staging buffer of the accumulator's window, through which its contents are stated. -/
abbrev VO1_4 : View sig .tc .vmem S1x1 .f32 := (Memref.whole cc1_stg4_0 : Memref sig .tc .vmem S1x1 .f32).view
/-- Each window's current staging memref at point `t`, as the pipeline passes it, and its wholeness. -/
abbrev ms1_0 (t : Fin cfg1.N) : Memref sig .tc .vmem S512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-! ## The body's run, case by case -/

set_option maxHeartbeats 1000000 in
/-- THE FIRST POINT. On whole staging memrefs, the inputs' at their contents and the accumulator's at anything, the body
    runs to the continuation holding the inputs' as they were and the accumulator's buffer with its stores written:
    the pieces (last store first) are the witness the run finds. -/
noncomputable def kernelRun1_A (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond1 i)
    (x0 : Vec F S512x256 .f32) (x1 : Vec F S1024x256 .f32) (x2 : Vec F S512x1 .f32) (x3 : Vec F S1x1024 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__rbf_sum_kernel i arg2 harg2 arg3 harg3 arg4 harg4 arg5 harg5 arg6 harg6) K } := by
  refine ⟨?_, fun E K => ?run⟩
  case run =>
    simp only [cc1__rbf_sum_kernel_eq_skeleton]; unfold cc1__rbf_sum_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- EVERY OTHER POINT. As above, with the accumulator's buffer at its running contents `xo`, which the body reads
    before it overwrites it. -/
noncomputable def kernelRun1_B (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond1 i)
    (x0 : Vec F S512x256 .f32) (x1 : Vec F S1024x256 .f32) (x2 : Vec F S512x1 .f32) (x3 : Vec F S1x1024 .f32) (xo : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1__rbf_sum_kernel i arg2 harg2 arg3 harg3 arg4 harg4 arg5 harg5 arg6 harg6) K } := by
  refine ⟨?_, fun E K => ?run⟩
  case run =>
    simp only [cc1__rbf_sum_kernel_eq_skeleton]; unfold cc1__rbf_sum_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-! ## What the accumulator's buffer holds after a call -/

/-- The first point's stores cover the 1 x 1 block. -/
theorem cover1_A_4 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond1 i)
    (x0 : Vec F S512x256 .f32) (x1 : Vec F S1024x256 .f32) (x2 : Vec F S512x1 .f32) (x3 : Vec F S1x1024 .f32) (y : S1x1.Idx) :
    ∃ pc ∈ (kernelRun1_A c i arg2 harg2 arg3 harg3 arg4 harg4 arg5 harg5 arg6 harg6 hc0 x0 x1 x2 x3).1, y ∈ pc.1.set :=
  View.cover_of_tiledL (kernelRun1_A c i arg2 harg2 arg3 harg3 arg4 harg4 arg5 harg5 arg6 harg6 hc0 x0 x1 x2 x3).1 S1x1.size (by sl_kernel_rfl) y

/-- What the first point leaves in the accumulator's buffer: its stores read back. -/
def out1_A_4 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond1 i)
    (x0 : Vec F S512x256 .f32) (x1 : Vec F S1024x256 .f32) (x2 : Vec F S512x1 .f32) (x3 : Vec F S1x1024 .f32) : Vec F S1x1 .f32 :=
  VO1_4.read (Elt F) (VO1_4.writes (Elt F) VO1_4.junk (kernelRun1_A c i arg2 harg2 arg3 harg3 arg4 harg4 arg5 harg5 arg6 harg6 hc0 x0 x1 x2 x3).1)

/-- Another point's store covers the block. -/
theorem cover1_B_4 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond1 i)
    (x0 : Vec F S512x256 .f32) (x1 : Vec F S1024x256 .f32) (x2 : Vec F S512x1 .f32) (x3 : Vec F S1x1024 .f32) (xo : Vec F S1x1 .f32) (y : S1x1.Idx) :
    ∃ pc ∈ (kernelRun1_B c i arg2 harg2 arg3 harg3 arg4 harg4 arg5 harg5 arg6 harg6 hc0 x0 x1 x2 x3 xo).1, y ∈ pc.1.set :=
  View.cover_of_tiledL (kernelRun1_B c i arg2 harg2 arg3 harg3 arg4 harg4 arg5 harg5 arg6 harg6 hc0 x0 x1 x2 x3 xo).1 S1x1.size (by sl_kernel_rfl) y

/-- What another point leaves in the accumulator's buffer, over the running contents `xo`. -/
def out1_B_4 (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond1 i)
    (x0 : Vec F S512x256 .f32) (x1 : Vec F S1024x256 .f32) (x2 : Vec F S512x1 .f32) (x3 : Vec F S1x1024 .f32) (xo : Vec F S1x1 .f32) : Vec F S1x1 .f32 :=
  VO1_4.read (Elt F) (VO1_4.writes (Elt F) VO1_4.junk (kernelRun1_B c i arg2 harg2 arg3 harg3 arg4 harg4 arg5 harg5 arg6 harg6 hc0 x0 x1 x2 x3 xo).1)

/-- THE ACCUMULATION: what the accumulator's buffer holds after the body at position `n` — the first point's
    contents at 0, and afterwards the other case's over what position `n - 1` left. -/
def outsAt1 (c : Dev nD) : (n : ℕ) → n < cfg1.N → Vec F S1x1 .f32
  | 0, hn => out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1 ⟨0, hn⟩).mpr rfl) (iblk1 V c 0 ⟨0, hn⟩) (iblk1 V c 1 ⟨0, hn⟩) (iblk1 V c 2 ⟨0, hn⟩) (iblk1 V c 3 ⟨0, hn⟩)
  | n + 1, hn => out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => Nat.succ_ne_zero n ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

theorem outsAt1_A (c : Dev nD) (t : Fin cfg1.N) (h0 : t.val = 0) :
    outsAt1 V c t.val t.isLt = out1_A_4 c (grid1.coords t) (ms1_0 t) (hs1_0 t) (ms1_1 t) (hs1_1 t) (ms1_2 t) (hs1_2 t) (ms1_3 t) (hs1_3 t) (ms1_4 t) (hs1_4 t) ((hcond1 t).mpr h0) (iblk1 V c 0 t) (iblk1 V c 1 t) (iblk1 V c 2 t) (iblk1 V c 3 t) := by
  obtain ⟨n, hn⟩ := t
  cases n with
  | zero => exact rfl
  | succ n => exact absurd h0 (Nat.succ_ne_zero n)

theorem outsAt1_B (c : Dev nD) (t : Fin cfg1.N) (h0 : ¬t.val = 0) :
    outsAt1 V c t.val t.isLt = out1_B_4 c (grid1.coords t) (ms1_0 t) (hs1_0 t) (ms1_1 t) (hs1_1 t) (ms1_2 t) (hs1_2 t) (ms1_3 t) (hs1_3 t) (ms1_4 t) (hs1_4 t) (fun h => h0 ((hcond1 t).mp h)) (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of pipeline 1 on core `c`: the arrays as the region finds them; after the body at point `t` each
    input's buffer at its block and the accumulator's at `outsAt1`; nothing owed; the array the two sample windows share is held half by each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a point other than the first the accumulator's buffer holds what the body left at the point before: it was not
    written back between, and the window is live and uncut. -/
theorem before1_4_B (c : Dev nD) (t : Fin cfg1.N) (h0 : ¬t.val = 0) (d) :
    (dat1 V c).before 4 t d = outsAt1 V c (t.val - 1) (Nat.lt_of_le_of_lt (Nat.sub_le _ _) t.isLt) := by
  have hN : t.val < 128 := lt_of_lt_of_eq t.isLt (show cfg1.N = 128 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1000000 in
/-- The body at any point: the inputs' memrefs hold their blocks; the point is the first or not; at another point the
    accumulator's buffer holds what the point before left; so the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val = 0
  · rw [outsAt1_A V c t h0]
    unfold out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _)
  · rw [outsAt1_B V c t h0]
    simp only [before1_4_B V c t h0]
    unfold out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _)

/-- The body obligation of the pipeline rule, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Body2.lean ====
/-
  Region 2 of @main, the kernel's half: what one call of the kernel body does to its five staging buffers, and what
  the 1 x 1 accumulator holds after each of the 128 grid points.

  The body resets the accumulator at the first grid point only (both coordinates zero), then at every point loads its
  four input blocks, forms the block's partial sum and adds it to the accumulator it finds. So there are two control
  cases: the first point (reset, then add) and every other point (add to what the point before left). The accumulator's
  block index never moves and it is written back after the last point only, so between two points the buffer keeps
  what the body left. The statements hold at any float instance: the arithmetic stays inside the payload terms.
-/
import proofs.«123217_j81080392613941_1_alg».proof.Proof.Gen.KernelIdeal.Launch
import proofs.«123217_j81080392613941_1_alg».proof.Proof.Gen.KernelIdeal.Skeleton
import proofs.«123217_j81080392613941_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not
    fetched the block index has not moved), for any proof data whose array is the entry contents and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The reset condition -/

/-- The body's reset condition from the grid coordinates: both are zero. -/
abbrev cond2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond2 : ∀ t : Fin cfg2.N, cond2 (grid2.coords t) ↔ t.val = 0 :=
  (by decide +kernel : ∀ t : Fin grid2.N, cond2 (grid2.coords t) ↔ t.val = 0)

/-! ## The staging memrefs -/

/-- One staging buffer of the accumulator's window, through which its contents are stated. -/
abbrev VO2_4 : View sig .tc .vmem S1x1 .f32 := (Memref.whole cc2_stg4_0 : Memref sig .tc .vmem S1x1 .f32).view
/-- Each window's current staging memref at point `t`, as the pipeline passes it, and its wholeness. -/
abbrev ms2_0 (t : Fin cfg2.N) : Memref sig .tc .vmem S512x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)

/-! ## The body's run, case by case -/

set_option maxHeartbeats 1000000 in
/-- THE FIRST POINT. On whole staging memrefs, the inputs' at their contents and the accumulator's at anything, the body
    runs to the continuation holding the inputs' as they were and the accumulator's buffer with its stores written:
    the pieces (last store first) are the witness the run finds. -/
noncomputable def kernelRun2_A (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond2 i)
    (x0 : Vec F S512x256 .f32) (x1 : Vec F S1024x256 .f32) (x2 : Vec F S512x1 .f32) (x3 : Vec F S1x1024 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc2__rbf_sum_kernel i arg2 harg2 arg3 harg3 arg4 harg4 arg5 harg5 arg6 harg6) K } := by
  refine ⟨?_, fun E K => ?run⟩
  case run =>
    simp only [cc2__rbf_sum_kernel_eq_skeleton]; unfold cc2__rbf_sum_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- EVERY OTHER POINT. As above, with the accumulator's buffer at its running contents `xo`, which the body reads
    before it overwrites it. -/
noncomputable def kernelRun2_B (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond2 i)
    (x0 : Vec F S512x256 .f32) (x1 : Vec F S1024x256 .f32) (x2 : Vec F S512x1 .f32) (x3 : Vec F S1x1024 .f32) (xo : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc2__rbf_sum_kernel i arg2 harg2 arg3 harg3 arg4 harg4 arg5 harg5 arg6 harg6) K } := by
  refine ⟨?_, fun E K => ?run⟩
  case run =>
    simp only [cc2__rbf_sum_kernel_eq_skeleton]; unfold cc2__rbf_sum_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-! ## What the accumulator's buffer holds after a call -/

/-- The first point's stores cover the 1 x 1 block. -/
theorem cover2_A_4 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond2 i)
    (x0 : Vec F S512x256 .f32) (x1 : Vec F S1024x256 .f32) (x2 : Vec F S512x1 .f32) (x3 : Vec F S1x1024 .f32) (y : S1x1.Idx) :
    ∃ pc ∈ (kernelRun2_A c i arg2 harg2 arg3 harg3 arg4 harg4 arg5 harg5 arg6 harg6 hc0 x0 x1 x2 x3).1, y ∈ pc.1.set :=
  View.cover_of_tiledL (kernelRun2_A c i arg2 harg2 arg3 harg3 arg4 harg4 arg5 harg5 arg6 harg6 hc0 x0 x1 x2 x3).1 S1x1.size (by sl_kernel_rfl) y

/-- What the first point leaves in the accumulator's buffer: its stores read back. -/
def out2_A_4 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond2 i)
    (x0 : Vec F S512x256 .f32) (x1 : Vec F S1024x256 .f32) (x2 : Vec F S512x1 .f32) (x3 : Vec F S1x1024 .f32) : Vec F S1x1 .f32 :=
  VO2_4.read (Elt F) (VO2_4.writes (Elt F) VO2_4.junk (kernelRun2_A c i arg2 harg2 arg3 harg3 arg4 harg4 arg5 harg5 arg6 harg6 hc0 x0 x1 x2 x3).1)

/-- Another point's store covers the block. -/
theorem cover2_B_4 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond2 i)
    (x0 : Vec F S512x256 .f32) (x1 : Vec F S1024x256 .f32) (x2 : Vec F S512x1 .f32) (x3 : Vec F S1x1024 .f32) (xo : Vec F S1x1 .f32) (y : S1x1.Idx) :
    ∃ pc ∈ (kernelRun2_B c i arg2 harg2 arg3 harg3 arg4 harg4 arg5 harg5 arg6 harg6 hc0 x0 x1 x2 x3 xo).1, y ∈ pc.1.set :=
  View.cover_of_tiledL (kernelRun2_B c i arg2 harg2 arg3 harg3 arg4 harg4 arg5 harg5 arg6 harg6 hc0 x0 x1 x2 x3 xo).1 S1x1.size (by sl_kernel_rfl) y

/-- What another point leaves in the accumulator's buffer, over the running contents `xo`. -/
def out2_B_4 (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond2 i)
    (x0 : Vec F S512x256 .f32) (x1 : Vec F S1024x256 .f32) (x2 : Vec F S512x1 .f32) (x3 : Vec F S1x1024 .f32) (xo : Vec F S1x1 .f32) : Vec F S1x1 .f32 :=
  VO2_4.read (Elt F) (VO2_4.writes (Elt F) VO2_4.junk (kernelRun2_B c i arg2 harg2 arg3 harg3 arg4 harg4 arg5 harg5 arg6 harg6 hc0 x0 x1 x2 x3 xo).1)

/-- THE ACCUMULATION: what the accumulator's buffer holds after the body at position `n` — the first point's
    contents at 0, and afterwards the other case's over what position `n - 1` left. -/
def outsAt2 (c : Dev nD) : (n : ℕ) → n < cfg2.N → Vec F S1x1 .f32
  | 0, hn => out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) ((hcond2 ⟨0, hn⟩).mpr rfl) (iblk2 V c 0 ⟨0, hn⟩) (iblk2 V c 1 ⟨0, hn⟩) (iblk2 V c 2 ⟨0, hn⟩) (iblk2 V c 3 ⟨0, hn⟩)
  | n + 1, hn => out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (fun h => Nat.succ_ne_zero n ((hcond2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn))

theorem outsAt2_A (c : Dev nD) (t : Fin cfg2.N) (h0 : t.val = 0) :
    outsAt2 V c t.val t.isLt = out2_A_4 c (grid2.coords t) (ms2_0 t) (hs2_0 t) (ms2_1 t) (hs2_1 t) (ms2_2 t) (hs2_2 t) (ms2_3 t) (hs2_3 t) (ms2_4 t) (hs2_4 t) ((hcond2 t).mpr h0) (iblk2 V c 0 t) (iblk2 V c 1 t) (iblk2 V c 2 t) (iblk2 V c 3 t) := by
  obtain ⟨n, hn⟩ := t
  cases n with
  | zero => exact rfl
  | succ n => exact absurd h0 (Nat.succ_ne_zero n)

theorem outsAt2_B (c : Dev nD) (t : Fin cfg2.N) (h0 : ¬t.val = 0) :
    outsAt2 V c t.val t.isLt = out2_B_4 c (grid2.coords t) (ms2_0 t) (hs2_0 t) (ms2_1 t) (hs2_1 t) (ms2_2 t) (hs2_2 t) (ms2_3 t) (hs2_3 t) (ms2_4 t) (hs2_4 t) (fun h => h0 ((hcond2 t).mp h)) (iblk2 V c 0 t) (iblk2 V c 1 t) (iblk2 V c 2 t) (iblk2 V c 3 t) (outsAt2 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of pipeline 2 on core `c`: the arrays as the region finds them; after the body at point `t` each
    input's buffer at its block and the accumulator's at `outsAt2`; nothing owed; the array the two sample windows share is held half by each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q w := match w with
    | ⟨0, _⟩ => fullShare
    | ⟨1, _⟩ => fullShare
    | ⟨2, _⟩ => fullShare
    | ⟨3, _⟩ => fullShare
    | ⟨4, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
/-- At a point other than the first the accumulator's buffer holds what the body left at the point before: it was not
    written back between, and the window is live and uncut. -/
theorem before2_4_B (c : Dev nD) (t : Fin cfg2.N) (h0 : ¬t.val = 0) (d) :
    (dat2 V c).before 4 t d = outsAt2 V c (t.val - 1) (Nat.lt_of_le_of_lt (Nat.sub_le _ _) t.isLt) := by
  have hN : t.val < 128 := lt_of_lt_of_eq t.isLt (show cfg2.N = 128 from N_2)
  rw [Dat.before_out_kept _ 4 rfl t (by omega) (Bool.eq_false_iff.mpr fun h => by have := (flush2_4 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1000000 in
/-- The body at any point: the inputs' memrefs hold their blocks; the point is the first or not; at another point the
    accumulator's buffer holds what the point before left; so the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  by_cases h0 : t.val = 0
  · rw [outsAt2_A V c t h0]
    unfold out2_A_4
    iintro ⟨HΦ, Ho, ⟨%d0, H0⟩, ⟨%d1, H1⟩, ⟨%d2, H2⟩, ⟨%d3, H3⟩, ⟨%d4, H4⟩⟩
    iapply ((kernelRun2_A c (grid2.coords t) _ _ _ _ _ _ _ _ _ _ ((hcond2 t).mpr h0) (iblk2 V c 0 t) (iblk2 V c 1 t) (iblk2 V c 2 t) (iblk2 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_A_4 c _ _ _ _ _ _ _ _ _ _ _ _ _ _ _ _)
  · rw [outsAt2_B V c t h0]
    simp only [before2_4_B V c t h0]
    unfold out2_B_4
    iintro ⟨HΦ, Ho, ⟨%d0, H0⟩, ⟨%d1, H1⟩, ⟨%d2, H2⟩, ⟨%d3, H3⟩, ⟨%d4, H4⟩⟩
    iapply ((kernelRun2_B c (grid2.coords t) _ _ _ _ _ _ _ _ _ _ (fun h => h0 ((hcond2 t).mp h)) (iblk2 V c 0 t) (iblk2 V c 1 t) (iblk2 V c 2 t) (iblk2 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_B_4 c _ _ _ _ _ _ _ _ _ _ _ _ _ _ _ _ _)

/-- The body obligation of the pipeline rule, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Shared0.lean ====
/-
  Region 0 hands ONE array of @main to its two sample windows (the rows of the same matrix, read in blocks of 512 and
  of 1024). At the region's entry the core holds every unscoped buffer whole; the pipeline wants, per window, its array
  at that window's share. So the shared array's full share is split in two halves, one per window, and every other
  array goes to its one window whole; at the exit the two halves, which still hold the same contents, are joined
  again. These are the two entailments a region's entry and exit take.
-/
import proofs.«123217_j81080392613941_1_alg».proof.Proof.Gen.KernelIdeal.Launch
import Idealize.ShloMosaic.Lib.Pipeline.Regions
import Idealize.ShloMosaic.Lib.Pipeline.RegionsLoop

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

/-- The windows' arrays are four references: the shared argument, the two other inputs' arrays and the output's. -/
theorem arrRefs0 : Finset.univ.image (Pipeline.arrRef spec0) = [main_arg0, main_v2, main_v6, main_v7].toFinset := by decide

/-- The buffers behind the windows' arrays, one by one. -/
theorem arrBufs0_eq (c : Dev nD) (V : (b : Ref sig .tc) → Buf (Elt F) ((c : Thread nD τ).loc b)) :
    (Pipeline.arrBufs spec0 c V : sProp 𝕄)
      = iprop(((c : Thread nD τ).loc main_arg0 ↦{fullShare} V main_arg0) ∗ ((c : Thread nD τ).loc main_v2 ↦{fullShare} V main_v2)
          ∗ ((c : Thread nD τ).loc main_v6 ↦{fullShare} V main_v6) ∗ ((c : Thread nD τ).loc main_v7 ↦{fullShare} V main_v7)) :=
  bigSep_eq_bigSepL_of_eq [main_arg0, main_v2, main_v6, main_v7] arrRefs0 (by decide) _

/-- The pipeline's arrays, window by window: every array is a whole buffer; the two sample windows hold the shared
    array at the left and the right half of the full share, the other inputs and the output hold theirs whole. -/
theorem arrays0_eq (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Ff : (w : Fin cfg0.W) → Buf (Elt F) ((cfg0.win w).arr.view.loc (c : Thread nD τ))) :
    (dat.arrays Ff : sProp 𝕄)
      = iprop(((c : Thread nD τ).loc main_arg0 ↦{fullShare.left} Ff 0) ∗ ((c : Thread nD τ).loc main_arg0 ↦{fullShare.right} Ff 1)
          ∗ ((c : Thread nD τ).loc main_v2 ↦{fullShare} Ff 2) ∗ ((c : Thread nD τ).loc main_v6 ↦{fullShare} Ff 3)
          ∗ ((c : Thread nD τ).loc main_v7 ↦{fullShare} Ff 4)) := by
  have h0 : ((cfg0.win 0).arr.view.loc (c : Thread nD τ) ↦[(cfg0.win 0).arr.view.set]{dat.share 0} Ff 0 : sProp 𝕄)
      = ((c : Thread nD τ).loc main_arg0 ↦{fullShare.left} Ff 0) := by
    rw [(arr_whole0 0).set_eq_univ, show dat.share 0 = dat.q 0 from rfl, hq0] <;> rfl
  have h1 : ((cfg0.win 1).arr.view.loc (c : Thread nD τ) ↦[(cfg0.win 1).arr.view.set]{dat.share 1} Ff 1 : sProp 𝕄)
      = ((c : Thread nD τ).loc main_arg0 ↦{fullShare.right} Ff 1) := by
    rw [(arr_whole0 1).set_eq_univ, show dat.share 1 = dat.q 1 from rfl, hq1] <;> rfl
  have h2 : ((cfg0.win 2).arr.view.loc (c : Thread nD τ) ↦[(cfg0.win 2).arr.view.set]{dat.share 2} Ff 2 : sProp 𝕄)
      = ((c : Thread nD τ).loc main_v2 ↦{fullShare} Ff 2) := by
    rw [(arr_whole0 2).set_eq_univ, show dat.share 2 = dat.q 2 from rfl, hq2] <;> rfl
  have h3 : ((cfg0.win 3).arr.view.loc (c : Thread nD τ) ↦[(cfg0.win 3).arr.view.set]{dat.share 3} Ff 3 : sProp 𝕄)
      = ((c : Thread nD τ).loc main_v6 ↦{fullShare} Ff 3) := by
    rw [(arr_whole0 3).set_eq_univ, show dat.share 3 = dat.q 3 from rfl, hq3] <;> rfl
  have h4 : ((cfg0.win 4).arr.view.loc (c : Thread nD τ) ↦[(cfg0.win 4).arr.view.set]{dat.share 4} Ff 4 : sProp 𝕄)
      = ((c : Thread nD τ).loc main_v7 ↦{fullShare} Ff 4) := by
    rw [(arr_whole0 4).set_eq_univ, show dat.share 4 = fullShare from rfl] <;> rfl
  unfold Dat.arrays
  rw [bigSep_W0]
  beta_reduce
  rw [h0, h1, h2, h3, h4]

/-- A core's unscoped buffers are the buffers behind the windows' arrays and the rest (the arrays need not be distinct). -/
theorem split0 (c : Dev nD) (V : (b : Ref sig .tc) → Buf (Elt F) ((c : Thread nD τ).loc b)) :
    (unscopedBufs c V : sProp 𝕄) = iprop(Pipeline.arrBufs spec0 c V ∗ Pipeline.unscopedRest spec0 c V) :=
  Pipeline.unscopedBufs_split₀ cfgs 0 winFacts₀0.arr_unscoped c V

/-- The full share is its left half composed with its right half: a whole array is its two halves at one contents. -/
theorem halves (c : Dev nD) (f : Buf (Elt F) ((c : Thread nD τ).loc main_arg0)) :
    ((c : Thread nD τ).loc main_arg0 ↦{fullShare} f : sProp 𝕄)
      ⊣⊢ iprop(((c : Thread nD τ).loc main_arg0 ↦{fullShare.left} f) ∗ ((c : Thread nD τ).loc main_arg0 ↦{fullShare.right} f)) :=
  pointsTo_share (PosShare.mem_left_op_right fullShare)

/-- ENTRY: a core's unscoped buffers at contents `V` are pipeline 0's arrays at the proof data's entry contents —
    read off `V`, the shared array half to each of its two windows, the others whole — and the unscoped rest. -/
theorem arrays_of_unscopedBufs0 (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (hA : ∀ w, dat.A w = V (Pipeline.arrRef spec0 w)) :
    (unscopedBufs c V : sProp 𝕄) ⊢ iprop(dat.arrays (dat.arrAt · 0) ∗ Pipeline.unscopedRest spec0 c V) := by
  have e : ∀ w, dat.arrAt w 0 = V (Pipeline.arrRef spec0 w) := fun w => (show dat.arrAt w 0 = dat.A w from rfl).trans (hA w)
  rw [split0 c V, arrBufs0_eq c V, arrays0_eq c dat hq0 hq1 hq2 hq3, e 0, e 1, e 2, e 3, e 4]
  refine sep_mono ?_ .rfl
  exact (sep_mono (halves c (V main_arg0)).mp .rfl).trans sep_assoc.mp

/-- EXIT: the pipeline's arrays at contents `Ff` and the unscoped rest at `V` are the core's unscoped buffers at any
    `V'` that has the arrays at `Ff` and agrees with `V` off them (the two halves of the shared array hold the same
    contents, `V'` of it, and join). -/
theorem unscopedBufs_of_arrays0 (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V V' : (b : Ref sig .tc) → Buf (Elt F) ((c : Thread nD τ).loc b))
    (Ff : (w : Fin cfg0.W) → Buf (Elt F) ((cfg0.win w).arr.view.loc (c : Thread nD τ)))
    (hF : ∀ w, Ff w = V' (Pipeline.arrRef spec0 w))
    (hrest : ∀ b, b ∉ Finset.univ.image (Pipeline.arrRef spec0) → V' b = V b) :
    iprop(dat.arrays Ff ∗ Pipeline.unscopedRest spec0 c V) ⊢ (unscopedBufs c V' : sProp 𝕄) := by
  rw [split0 c V', arrBufs0_eq c V', arrays0_eq c dat hq0 hq1 hq2 hq3, hF 0, hF 1, hF 2, hF 3, hF 4]
  refine sep_mono ?_ (Entails.of_eq ?_)
  · exact sep_assoc.mpr.trans (sep_mono (halves c (V' main_arg0)).mpr .rfl)
  · unfold Pipeline.unscopedRest
    exact bigSep_congr fun b hb => by rw [hrest b (Finset.mem_sdiff.mp hb).2]

end Cert.KernelIdeal.Hand

end
-- ==== Proof.Shared1.lean ====
/-
  Region 1 hands ONE array of @main to its two sample windows (the rows of the same matrix, read in blocks of 512 and
  of 1024). At the region's entry the core holds every unscoped buffer whole; the pipeline wants, per window, its array
  at that window's share. So the shared array's full share is split in two halves1, one per window, and every other
  array goes to its one window whole; at the exit the two halves1, which still hold the same contents, are joined
  again. These are the two entailments a region's entry and exit take.
-/
import proofs.«123217_j81080392613941_1_alg».proof.Proof.Gen.KernelIdeal.Launch
import Idealize.ShloMosaic.Lib.Pipeline.Regions
import Idealize.ShloMosaic.Lib.Pipeline.RegionsLoop

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

/-- The windows' arrays are four references: the shared argument, the two other inputs' arrays and the output's. -/
theorem arrRefs1 : Finset.univ.image (Pipeline.arrRef spec1) = [main_arg1, main_v12, main_v16, main_v17].toFinset := by decide

/-- The buffers behind the windows' arrays, one by one. -/
theorem arrBufs1_eq (c : Dev nD) (V : (b : Ref sig .tc) → Buf (Elt F) ((c : Thread nD τ).loc b)) :
    (Pipeline.arrBufs spec1 c V : sProp 𝕄)
      = iprop(((c : Thread nD τ).loc main_arg1 ↦{fullShare} V main_arg1) ∗ ((c : Thread nD τ).loc main_v12 ↦{fullShare} V main_v12)
          ∗ ((c : Thread nD τ).loc main_v16 ↦{fullShare} V main_v16) ∗ ((c : Thread nD τ).loc main_v17 ↦{fullShare} V main_v17)) :=
  bigSep_eq_bigSepL_of_eq [main_arg1, main_v12, main_v16, main_v17] arrRefs1 (by decide) _

/-- The pipeline's arrays, window by window: every array is a whole buffer; the two sample windows hold the shared
    array at the left and the right half of the full share, the other inputs and the output hold theirs whole. -/
theorem arrays1_eq (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (Ff : (w : Fin cfg1.W) → Buf (Elt F) ((cfg1.win w).arr.view.loc (c : Thread nD τ))) :
    (dat.arrays Ff : sProp 𝕄)
      = iprop(((c : Thread nD τ).loc main_arg1 ↦{fullShare.left} Ff 0) ∗ ((c : Thread nD τ).loc main_arg1 ↦{fullShare.right} Ff 1)
          ∗ ((c : Thread nD τ).loc main_v12 ↦{fullShare} Ff 2) ∗ ((c : Thread nD τ).loc main_v16 ↦{fullShare} Ff 3)
          ∗ ((c : Thread nD τ).loc main_v17 ↦{fullShare} Ff 4)) := by
  have h0 : ((cfg1.win 0).arr.view.loc (c : Thread nD τ) ↦[(cfg1.win 0).arr.view.set]{dat.share 0} Ff 0 : sProp 𝕄)
      = ((c : Thread nD τ).loc main_arg1 ↦{fullShare.left} Ff 0) := by
    rw [(arr_whole1 0).set_eq_univ, show dat.share 0 = dat.q 0 from rfl, hq0] <;> rfl
  have h1 : ((cfg1.win 1).arr.view.loc (c : Thread nD τ) ↦[(cfg1.win 1).arr.view.set]{dat.share 1} Ff 1 : sProp 𝕄)
      = ((c : Thread nD τ).loc main_arg1 ↦{fullShare.right} Ff 1) := by
    rw [(arr_whole1 1).set_eq_univ, show dat.share 1 = dat.q 1 from rfl, hq1] <;> rfl
  have h2 : ((cfg1.win 2).arr.view.loc (c : Thread nD τ) ↦[(cfg1.win 2).arr.view.set]{dat.share 2} Ff 2 : sProp 𝕄)
      = ((c : Thread nD τ).loc main_v12 ↦{fullShare} Ff 2) := by
    rw [(arr_whole1 2).set_eq_univ, show dat.share 2 = dat.q 2 from rfl, hq2] <;> rfl
  have h3 : ((cfg1.win 3).arr.view.loc (c : Thread nD τ) ↦[(cfg1.win 3).arr.view.set]{dat.share 3} Ff 3 : sProp 𝕄)
      = ((c : Thread nD τ).loc main_v16 ↦{fullShare} Ff 3) := by
    rw [(arr_whole1 3).set_eq_univ, show dat.share 3 = dat.q 3 from rfl, hq3] <;> rfl
  have h4 : ((cfg1.win 4).arr.view.loc (c : Thread nD τ) ↦[(cfg1.win 4).arr.view.set]{dat.share 4} Ff 4 : sProp 𝕄)
      = ((c : Thread nD τ).loc main_v17 ↦{fullShare} Ff 4) := by
    rw [(arr_whole1 4).set_eq_univ, show dat.share 4 = fullShare from rfl] <;> rfl
  unfold Dat.arrays
  rw [bigSep_W1]
  beta_reduce
  rw [h0, h1, h2, h3, h4]

/-- A core's unscoped buffers are the buffers behind the windows' arrays and the rest (the arrays need not be distinct). -/
theorem split1 (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

/-- The full share is its left half composed with its right half: a whole array is its two halves1 at one contents. -/
theorem halves1 (c : Dev nD) (f : Buf (Elt F) ((c : Thread nD τ).loc main_arg1)) :
    ((c : Thread nD τ).loc main_arg1 ↦{fullShare} f : sProp 𝕄)
      ⊣⊢ iprop(((c : Thread nD τ).loc main_arg1 ↦{fullShare.left} f) ∗ ((c : Thread nD τ).loc main_arg1 ↦{fullShare.right} f)) :=
  pointsTo_share (PosShare.mem_left_op_right fullShare)

/-- ENTRY: a core's unscoped buffers at contents `V` are pipeline 1's arrays at the proof data's entry contents —
    read off `V`, the shared array half to each of its two windows, the others whole — and the unscoped rest. -/
theorem arrays_of_unscopedBufs1 (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (hA : ∀ w, dat.A w = V (Pipeline.arrRef spec1 w)) :
    (unscopedBufs c V : sProp 𝕄) ⊢ iprop(dat.arrays (dat.arrAt · 0) ∗ Pipeline.unscopedRest spec1 c V) := by
  have e : ∀ w, dat.arrAt w 0 = V (Pipeline.arrRef spec1 w) := fun w => (show dat.arrAt w 0 = dat.A w from rfl).trans (hA w)
  rw [split1 c V, arrBufs1_eq c V, arrays1_eq c dat hq0 hq1 hq2 hq3, e 0, e 1, e 2, e 3, e 4]
  refine sep_mono ?_ .rfl
  exact (sep_mono (halves1 c (V main_arg1)).mp .rfl).trans sep_assoc.mp

/-- EXIT: the pipeline's arrays at contents `Ff` and the unscoped rest at `V` are the core's unscoped buffers at any
    `V'` that has the arrays at `Ff` and agrees with `V` off them (the two halves1 of the shared array hold the same
    contents, `V'` of it, and join). -/
theorem unscopedBufs_of_arrays1 (c : Dev nD) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (V V' : (b : Ref sig .tc) → Buf (Elt F) ((c : Thread nD τ).loc b))
    (Ff : (w : Fin cfg1.W) → Buf (Elt F) ((cfg1.win w).arr.view.loc (c : Thread nD τ)))
    (hF : ∀ w, Ff w = V' (Pipeline.arrRef spec1 w))
    (hrest : ∀ b, b ∉ Finset.univ.image (Pipeline.arrRef spec1) → V' b = V b) :
    iprop(dat.arrays Ff ∗ Pipeline.unscopedRest spec1 c V) ⊢ (unscopedBufs c V' : sProp 𝕄) := by
  rw [split1 c V', arrBufs1_eq c V', arrays1_eq c dat hq0 hq1 hq2 hq3, hF 0, hF 1, hF 2, hF 3, hF 4]
  refine sep_mono ?_ (Entails.of_eq ?_)
  · exact sep_assoc.mpr.trans (sep_mono (halves1 c (V' main_arg1)).mpr .rfl)
  · unfold Pipeline.unscopedRest
    exact bigSep_congr fun b hb => by rw [hrest b (Finset.mem_sdiff.mp hb).2]

end Cert.KernelIdeal.Hand

end
-- ==== Proof.Run.lean ====
/-
  @main's run: three kernel regions among four stretches of host operations.

  Between two items a core holds every unscoped buffer whole at known contents: the launch memory, then each host
  stretch's operations applied, then, after a region, the same with the region's one result array at what the
  pipeline's write-back leaves there. Each region enters the pipeline rule from that state and comes back to it. The
  run then reads the last contents against the final memory: the two argument arrays are as launched (no item writes
  them), and the result buffer holds the last stretch's value.
-/
import proofs.«123217_j81080392613941_1_alg».proof.Proof.Body0
import proofs.«123217_j81080392613941_1_alg».proof.Proof.Body1
import proofs.«123217_j81080392613941_1_alg».proof.Proof.Body2
import proofs.«123217_j81080392613941_1_alg».proof.Proof.Shared0
import proofs.«123217_j81080392613941_1_alg».proof.Proof.Shared1
import proofs.«123217_j81080392613941_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, one after the other -/

/-- A result array's contents nothing has been said about yet: as launched. -/
abbrev asLaunched (r : Ref sig .tc) (c : Dev nD) : Buf (Elt F) ((c : Thread nD τ).loc r) := m ((c : Thread nD τ).loc r)

/-- The three regions' result arrays as the unknowns the valuations are written over. -/
def outsOf (r0 : (c : Dev nD) → Buf (Elt F) ((c : Thread nD τ).loc main_v7)) (r1 : (c : Dev nD) → Buf (Elt F) ((c : Thread nD τ).loc main_v17))
    (r2 : (c : Dev nD) → Buf (Elt F) ((c : Thread nD τ).loc main_v27)) : Outs (F := F) := fun J r c =>
  match J with
  | 2 => Function.update (fun r => asLaunched m r c) main_v7 (r0 c) r
  | 4 => Function.update (fun r => asLaunched m r c) main_v17 (r1 c) r
  | _ => Function.update (fun r => asLaunched m r c) main_v27 (r2 c) r

theorem outsOf_2 (r0 r1 r2) (c : Dev nD) : outsOf m r0 r1 r2 2 main_v7 c = r0 c := by
  unfold outsOf; exact Function.update_self ..
theorem outsOf_4 (r0 r1 r2) (c : Dev nD) : outsOf m r0 r1 r2 4 main_v17 c = r1 c := by
  unfold outsOf; exact Function.update_self ..
theorem outsOf_6 (r0 r1 r2) (c : Dev nD) : outsOf m r0 r1 r2 6 main_v27 c = r2 c := by
  unfold outsOf; exact Function.update_self ..

/-- Region 0's entry contents, at the TensorCore's references. -/
abbrev E1 (c : Dev nD) (b : Ref sig .tc) : Buf (Elt F) ((c : Thread nD τ).loc b) := V1 m c b
/-- What region 0 leaves in its result array: the accumulator's block written back after the last point. -/
def res0 (c : Dev nD) : Buf (Elt F) ((c : Thread nD τ).loc main_v7) := (dat0 (E1 m) c).arrAt 4 cfg0.N
/-- The unknowns with region 0's result known. -/
abbrev outs₁ : Outs (F := F) := outsOf m (res0 m) (asLaunched m main_v17) (asLaunched m main_v27)
/-- Region 1's entry contents. -/
abbrev E3 (c : Dev nD) (b : Ref sig .tc) : Buf (Elt F) ((c : Thread nD τ).loc b) := V3 m (outs₁ m) c b
def res1 (c : Dev nD) : Buf (Elt F) ((c : Thread nD τ).loc main_v17) := (dat1 (E3 m) c).arrAt 4 cfg1.N
abbrev outs₂ : Outs (F := F) := outsOf m (res0 m) (res1 m) (asLaunched m main_v27)
/-- Region 2's entry contents. -/
abbrev E5 (c : Dev nD) (b : Ref sig .tc) : Buf (Elt F) ((c : Thread nD τ).loc b) := V5 m (outs₂ m) c b
def res2 (c : Dev nD) : Buf (Elt F) ((c : Thread nD τ).loc main_v27) := (dat2 (E5 m) c).arrAt 4 cfg2.N
/-- The unknowns, all three known. -/
abbrev outs : Outs (F := F) := outsOf m (res0 m) (res1 m) (res2 m)

theorem outs_2 (c : Dev nD) : outs m 2 main_v7 c = res0 m c := outsOf_2 m _ _ _ c
theorem outs₁_2 (c : Dev nD) : outs₁ m 2 main_v7 c = res0 m c := outsOf_2 m _ _ _ c
theorem outs₂_2 (c : Dev nD) : outs₂ m 2 main_v7 c = res0 m c := outsOf_2 m _ _ _ c
theorem outs_4 (c : Dev nD) : outs m 4 main_v17 c = res1 m c := outsOf_4 m _ _ _ c
theorem outs₂_4 (c : Dev nD) : outs₂ m 4 main_v17 c = res1 m c := outsOf_4 m _ _ _ c
theorem outs_6 (c : Dev nD) : outs m 6 main_v27 c = res2 m c := outsOf_6 m _ _ _ c

/-- The valuations read an unknown only at its own item: with all three known they are the staged ones. -/
theorem V3_outs (c : Dev nD) : V3 m (outs m) c = V3 m (outs₁ m) c := by
  show StableHlo.after hostOps1 (Function.update (V1 m c) main_v7 (outs m 2 main_v7 c)) = StableHlo.after hostOps1 (Function.update (V1 m c) main_v7 (outs₁ m 2 main_v7 c))
  rw [outs_2, outs₁_2]
theorem V3_outs₂ (c : Dev nD) : V3 m (outs₂ m) c = V3 m (outs₁ m) c := by
  show StableHlo.after hostOps1 (Function.update (V1 m c) main_v7 (outs₂ m 2 main_v7 c)) = StableHlo.after hostOps1 (Function.update (V1 m c) main_v7 (outs₁ m 2 main_v7 c))
  rw [outs₂_2, outs₁_2]
theorem V5_outs (c : Dev nD) : V5 m (outs m) c = V5 m (outs₂ m) c := by
  show StableHlo.after hostOps2 (Function.update (V3 m (outs m) c) main_v17 (outs m 4 main_v17 c)) = StableHlo.after hostOps2 (Function.update (V3 m (outs₂ m) c) main_v17 (outs₂ m 4 main_v17 c))
  rw [outs_4, outs₂_4, V3_outs, V3_outs₂]

/-! ## The proof data family and the thread state -/

/-- Every pipeline's proof data, each at its region's entry contents: a literal match on the pipeline. -/
def pdats : (p : Fin 3) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and that it owes
    nothing. -/
abbrev R (c : Dev nD) : sProp 𝕄 := iprop((∃ r, prngReg c r) ∗ ∃ W, owes (c : Thread nD τ) (0 : CellTallies nD τ sig Unit) W)

/-! ## Each region's arrays at its exit -/

theorem hF0 (c : Dev nD) (w : Fin cfg0.W) : (pdats m 0 c).arrAt w cfg0.N = V2 m (outs m) c (Pipeline.arrRef spec0 w) := by
  match w with
  | ⟨0, _⟩ => exact ((pdats m 0 c).arrAt_in 0 rfl _).trans ((A_eq0 (E1 m) c 0).trans (V2_of m (outs m) c main_arg0 (by decide)).symm)
  | ⟨1, _⟩ => exact ((pdats m 0 c).arrAt_in 1 rfl _).trans ((A_eq0 (E1 m) c 1).trans (V2_of m (outs m) c main_arg0 (by decide)).symm)
  | ⟨2, _⟩ => exact ((pdats m 0 c).arrAt_in 2 rfl _).trans ((A_eq0 (E1 m) c 2).trans (V2_of m (outs m) c main_v2 (by decide)).symm)
  | ⟨3, _⟩ => exact ((pdats m 0 c).arrAt_in 3 rfl _).trans ((A_eq0 (E1 m) c 3).trans (V2_of m (outs m) c main_v6 (by decide)).symm)
  | ⟨4, _⟩ =>
    show res0 m c = Function.update (V1 m c) main_v7 (outs m 2 main_v7 c) main_v7
    rw [Function.update_self, outs_2]
theorem hrest0 (c : Dev nD) : ∀ b, b ∉ Finset.univ.image (Pipeline.arrRef spec0) → V2 m (outs m) c b = E1 m c b :=
  fun b hb => V2_of m (outs m) c b (fun h => hb (Finset.mem_image.mpr ⟨4, Finset.mem_univ _, (List.mem_singleton.mp h).symm⟩))

theorem hF1 (c : Dev nD) (w : Fin cfg1.W) : (pdats m 1 c).arrAt w cfg1.N = V4 m (outs m) c (Pipeline.arrRef spec1 w) := by
  match w with
  | ⟨0, _⟩ => exact ((pdats m 1 c).arrAt_in 0 rfl _).trans ((A_eq1 (E3 m) c 0).trans ((congrFun (V3_outs m c) _).symm.trans (V4_of m (outs m) c main_arg1 (by decide)).symm))
  | ⟨1, _⟩ => exact ((pdats m 1 c).arrAt_in 1 rfl _).trans ((A_eq1 (E3 m) c 1).trans ((congrFun (V3_outs m c) _).symm.trans (V4_of m (outs m) c main_arg1 (by decide)).symm))
  | ⟨2, _⟩ => exact ((pdats m 1 c).arrAt_in 2 rfl _).trans ((A_eq1 (E3 m) c 2).trans ((congrFun (V3_outs m c) _).symm.trans (V4_of m (outs m) c main_v12 (by decide)).symm))
  | ⟨3, _⟩ => exact ((pdats m 1 c).arrAt_in 3 rfl _).trans ((A_eq1 (E3 m) c 3).trans ((congrFun (V3_outs m c) _).symm.trans (V4_of m (outs m) c main_v16 (by decide)).symm))
  | ⟨4, _⟩ =>
    show res1 m c = Function.update (V3 m (outs m) c) main_v17 (outs m 4 main_v17 c) main_v17
    rw [Function.update_self, outs_4]
theorem hrest1 (c : Dev nD) : ∀ b, b ∉ Finset.univ.image (Pipeline.arrRef spec1) → V4 m (outs m) c b = E3 m c b :=
  fun b hb => (V4_of m (outs m) c b (fun h => hb (Finset.mem_image.mpr ⟨4, Finset.mem_univ _, (List.mem_singleton.mp h).symm⟩))).trans (congrFun (V3_outs m c) _)

theorem hF2 (c : Dev nD) (w : Fin cfg2.W) : (pdats m 2 c).arrAt w cfg2.N = V6 m (outs m) c (Pipeline.arrRef spec2 w) := by
  match w with
  | ⟨0, _⟩ => exact ((pdats m 2 c).arrAt_in 0 rfl _).trans ((A_eq2 (E5 m) c 0).trans ((congrFun (V5_outs m c) _).symm.trans (V6_of m (outs m) c main_arg0 (by decide)).symm))
  | ⟨1, _⟩ => exact ((pdats m 2 c).arrAt_in 1 rfl _).trans ((A_eq2 (E5 m) c 1).trans ((congrFun (V5_outs m c) _).symm.trans (V6_of m (outs m) c main_arg1 (by decide)).symm))
  | ⟨2, _⟩ => exact ((pdats m 2 c).arrAt_in 2 rfl _).trans ((A_eq2 (E5 m) c 2).trans ((congrFun (V5_outs m c) _).symm.trans (V6_of m (outs m) c main_v22 (by decide)).symm))
  | ⟨3, _⟩ => exact ((pdats m 2 c).arrAt_in 3 rfl _).trans ((A_eq2 (E5 m) c 3).trans ((congrFun (V5_outs m c) _).symm.trans (V6_of m (outs m) c main_v26 (by decide)).symm))
  | ⟨4, _⟩ =>
    show res2 m c = Function.update (V5 m (outs m) c) main_v27 (outs m 6 main_v27 c) main_v27
    rw [Function.update_self, outs_6]
theorem hrest2 (c : Dev nD) : ∀ b, b ∉ Finset.univ.image (Pipeline.arrRef spec2) → V6 m (outs m) c b = E5 m c b :=
  fun b hb => (V6_of m (outs m) c b (fun h => hb (Finset.mem_image.mpr ⟨4, Finset.mem_univ _, (List.mem_singleton.mp h).symm⟩))).trans (congrFun (V5_outs m c) _)

/-- Region 2 holds each of its arrays whole. -/
theorem q2_full (c : Dev nD) (w : Fin cfg2.W) : (pdats m 2 c).q w = fullShare := by
  match w with
  | ⟨0, _⟩ => rfl
  | ⟨1, _⟩ => rfl
  | ⟨2, _⟩ => rfl
  | ⟨3, _⟩ => rfl
  | ⟨4, _⟩ => rfl

/-! ## The regions as segments -/

-- `iapply` of a library lemma stated over the pinned configuration unifies only when unification may unfold plain
-- definitions in a metavariable's type
set_option backward.isDefEq.respectTransparency.types false in
/-- REGION 0 over the thread state: entered from every unscoped buffer at the contents before it, left at those contents
    updated at `main_v7` by what the pipeline's write-back leaves. The shared sample array is split between its two
    windows at entry and joined at exit; the generator register goes into the body's invariant and comes out; nothing
    is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := arrays_of_unscopedBufs0 c (pdats m 0 c) rfl rfl rfl rfl (E1 m c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 c (pdats m 0 c) rfl rfl rfl rfl (E1 m c) (fun b => V2 m (outs m) c b)
      ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- REGION 1 over the thread state: entered from every unscoped buffer at the contents before it, left at those contents
    updated at `main_v17` by what the pipeline's write-back leaves. The shared sample array is split between its two
    windows at entry and joined at exit; the generator register goes into the body's invariant and comes out; nothing
    is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_outs]
    have hsplit := arrays_of_unscopedBufs1 c (pdats m 1 c) rfl rfl rfl rfl (E3 m c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 c (pdats m 1 c) rfl rfl rfl rfl (E3 m c) (fun b => V4 m (outs m) c b)
      ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- REGION 2 over the thread state: its five arrays are distinct buffers, each held whole. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none, V5_outs]
    have hsplit := Pipeline.arrays_of_unscopedBufs (p := 2) (pcfgs (F := F)) adm (pdats m) launch2.win launch2.arr_whole c
      ((pdats m 2 c).share_full (q2_full m c)) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full (q2_full m c))
      (E5 m c) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's ghost state and the rest states -/

/-- The launch element: the pipeline library's, at every pipeline's staging cells. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own ((emb₁ : Emb (UR sig nD τ) 𝕄) (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals makes the rest state on every core: the generator register, and nothing owed. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE3 (c : Dev nD) : R (F := F) c ⊢ (iprop(∃ W, owes (c : Thread nD τ) (0 : CellTallies nD τ sig Unit) W) : sProp 𝕄) := by
  iintro ⟨-, H⟩; iexact H

/-! ## The frame -/

/-- THE FRAME: every weakly fair execution of @main terminates, nothing faulting, and the two argument arrays end as
    launched — the conditional frame of the several-region program at these three regions' records. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond (m := m) (EP := (emb₁ : Emb (UR sig nD τ) 𝕄)) (ι := ()) (𝒱₀ := 𝒱₀) (L := L) (lv := lv) (hL := fun _ _ => rfl) (ρ := ρ) (outs := outs m)
    (pdats := pdats m) (O₀ := 0) (G := fun _ => (BI.emp : sProp 𝕄)) (u₀ := u₀) (hu₀ := hu₀) (E := fun _ c => R c) (hE0 := hE0 ρ) (hE3 := hE3)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

/-! ## The run with the result named -/

-- the launch theorem's implicit arguments are found by unifying its conclusion with this one, which takes unfolding
-- plain definitions in a metavariable's type
set_option backward.isDefEq.respectTransparency.types false in
/-- THE RUN: as the frame, and the result buffer ends at the last stretch's value: the last valuation read at
    `main_v33`. The same launch over the same segments as the conditional frame; only the reading of the last thread
    state against the final memory asks for one more buffer. -/
theorem run : θ_run defs (onTc (τ := τ) (main (F := F))) ⟨m, fun _ => 0, ρ⟩ (fun r => ∀ c : Dev nD,
      r.2.mem ((c.tc : Thread nD τ).loc main_v33) = V7 m (outs m) c main_v33
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm (pdats m) () cellOf_inj (emb₁ : Emb (UR sig nD τ) 𝕄) defs₀ 𝒱₀ L lv m ρ main
    (segs m (outs m) 𝒱₀ L lv (fun _ c => R c) () (pdats m) (reg0 m) (reg1 m) (reg2 m))
    (fun c Q => by
      rewrite [main_chain c, Seg.run_eq_chain,
        show (segs m (outs m) 𝒱₀ L lv (fun _ c => R c) () (pdats m) (reg0 m) (reg1 m) (reg2 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) (0 : Dev nD → CellTallies nD τ sig Unit) (fun _ _ => rfl)
    (fun _ => (BI.emp : sProp 𝕄)) u₀ hu₀
    (T₀ := fun c => iprop(StableHlo.held (c : Thread nD τ) (Pipeline.ucRefs τ sig) (V0 m c) ∗ R c))
    (Tₙ := fun c => StableHlo.held (c : Thread nD τ) (Pipeline.ucRefs τ sig) (V7 m (outs m) c))
    (hch := fun c => ⟨.rfl, .rfl, .rfl, .rfl, .rfl, .rfl, .rfl, sep_mono .rfl (hE3 c)⟩)
    (hinit := ?_) (QY := fun c s => s.mem ((c.tc : Thread nD τ).loc main_v33) = V7 m (outs m) c main_v33
      ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    have hj : iprop((bigSep Finset.univ fun c : Dev nD => StableHlo.held (c : Thread nD τ) (Pipeline.ucRefs τ sig) (V0 m c)) ∗ bigSep Finset.univ (fun c : Dev nD => R (F := F) c))
        ⊢ (bigSep Finset.univ (fun c : Dev nD => iprop(StableHlo.held (c : Thread nD τ) (Pipeline.ucRefs τ sig) (V0 m c) ∗ R (F := F) c)) : sProp 𝕄) := by
      rw [← bigSep_sep']
    iapply hj
    isplitl [Hh]; · iexact Hh
    iexact HE
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact ⟨h (Proc.devRef .tc main_v33) (Finset.mem_filter.mpr ⟨StableHlo.devRef_mem_tcRefs main_v33, by decide⟩),
        (h (Proc.devRef .tc main_arg0) (Finset.mem_filter.mpr ⟨StableHlo.devRef_mem_tcRefs main_arg0, by decide⟩)).trans (V7_main_arg0 m (outs m) c),
        (h (Proc.devRef .tc main_arg1) (Finset.mem_filter.mpr ⟨StableHlo.devRef_mem_tcRefs main_arg1, by decide⟩)).trans (V7_main_arg1 m (outs m) c)⟩
    · iexact HSI

end Cert.KernelIdeal.Hand

end
-- ==== Proof.Spec.lean ====
/-
  What both programs compute, as one function of the two sample matrices, over the extended reals.

  For samples X, Y (8192 rows of 256 features each) the Gaussian Gram entry of rows i and j is
  exp(-max(|x_i|^2 + |y_j|^2 - 2 <x_i, y_j>, 0)), the squared distance through the three inner products. The sum of
  all 8192 x 8192 entries, divided by 2^26, is the mean Gram entry; the statistic is
  sqrt(mean(N,N) + mean(R,R) - 2 mean(N,R)). The float literals stay as their words: the same word on both sides is
  never evaluated, only the zero word is read as 0.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A sample matrix: 8192 rows, 256 features. -/
abbrev SA : Shape := ⟨2, ![8192, 256]⟩

/-- One Gram entry from the two squared norms `p`, `q` and the inner product `d`:
    exp(-1 * max(p + q - 2 d, 0)). -/
def gram (p q d : EReal) : EReal :=
  Ideal.exp (Ideal.ofBits .f32 0xBF800000#32 * max (p + q - Ideal.ofBits .f32 0x40000000#32 * d) (Ideal.ofBits .f32 0x00000000#32))

/-- The squared norm of row `i`. -/
def sq (X : SA.Idx → EReal) (i : Fin 8192) : EReal := ∑ k : Fin 256, X (ix2 i k) * X (ix2 i k)

/-- The inner product of row `i` of `X` with row `j` of `Y`. -/
def dot (X Y : SA.Idx → EReal) (i j : Fin 8192) : EReal := ∑ k : Fin 256, X (ix2 i k) * Y (ix2 j k)

/-- The sum of all Gram entries of `X` against `Y`. -/
def gramSum (X Y : SA.Idx → EReal) : EReal := ∑ i : Fin 8192, ∑ j : Fin 8192, gram (sq X i) (sq Y j) (dot X Y i j)

/-- The mean Gram entry: the sum over 2^26 = 8192 * 8192. -/
def mean (s : EReal) : EReal := Ideal.div s (Ideal.ofBits .f32 0x4C800000#32)

/-- The statistic both programs return. -/
def mmd (N R : SA.Idx → EReal) : EReal :=
  Ideal.sqrt ((mean (gramSum N N) + mean (gramSum R R)) - Ideal.ofBits .f32 0x40000000#32 * mean (gramSum N R))

end Cert.Spec

end
-- ==== Proof.PayValue.lean ====
/-
  The kernel body's stored value, read at its one index, over the extended reals: the running total the block found
  plus the block's own partial sum of Gram entries.

  The body forms, for a block of 512 rows of X against 1024 rows of Y, the 512 x 1024 matrix of Gram entries (inner
  products by the matrix product over the 256 features, the squared norms broadcast along rows and columns), sums it
  along the columns, then along the rows, and adds the result to the 1 x 1 accumulator.
-/
import proofs.«123217_j81080392613941_1_alg».proof.Proof.Gen.KernelIdeal.Skeleton
import proofs.«123217_j81080392613941_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Idealize.ShloMosaic Idealize.ShloMosaic.ValueIdx Cert.KernelIdeal Cert.KernelIdeal.Gen

/-- The partial sum of Gram entries one block contributes: rows `r` of the X block against rows `cc` of the Y block,
    the squared norms read from the column `x2` and the row `x3`. -/
def blockSum (x0 : Vec Ideal S512x256 .f32) (x1 : Vec Ideal S1024x256 .f32) (x2 : Vec Ideal S512x1 .f32) (x3 : Vec Ideal S1x1024 .f32) : EReal :=
  ∑ r : Fin 512, ∑ cc : Fin 1024,
    Cert.Spec.gram (x2 (ix2 r (0 : Fin 1))) (x3 (ix2 (0 : Fin 1) cc)) (∑ k : Fin 256, x0 (ix2 r k) * x1 (ix2 cc k))

/-! ## The matrix product at an entry

Both operands contract their feature axis (axis 1): entry (r, cc) of the product pairs row r of the left operand with
row cc of the right one. The four lemmas say which coordinate of the entry or of the contraction position each operand
axis reads. -/

/-- The left operand's row axis reads the entry's row. -/
theorem lhs_axis0 (i : S512x1024.Idx) (q : dot_S512x256_S1024x256_S512x1024_1_1_0_0_n_n.contr.Idx) :
    (dot_S512x256_S1024x256_S512x1024_1_1_0_0_n_n.lhsIdx i q 0).val = (i 0).val := by
  unfold DotDims.lhsIdx
  rw [dif_neg (show ¬(0 : Fin S512x256.rank) ∈ dot_S512x256_S1024x256_S512x1024_1_1_0_0_n_n.lhsBatch by decide), dif_pos (show (0 : Fin S512x256.rank) ∈ dot_S512x256_S1024x256_S512x1024_1_1_0_0_n_n.lhsNonContracting by decide)]
  rfl
/-- The left operand's feature axis reads the contraction position. -/
theorem lhs_axis1 (i : S512x1024.Idx) (q : dot_S512x256_S1024x256_S512x1024_1_1_0_0_n_n.contr.Idx) :
    (dot_S512x256_S1024x256_S512x1024_1_1_0_0_n_n.lhsIdx i q 1).val = (q ⟨0, by decide⟩).val :=
  dot_S512x256_S1024x256_S512x1024_1_1_0_0_n_n.lhsIdx_val_of_single rfl i q
/-- The right operand's row axis reads the entry's column. -/
theorem rhs_axis0 (i : S512x1024.Idx) (q : dot_S512x256_S1024x256_S512x1024_1_1_0_0_n_n.contr.Idx) :
    (dot_S512x256_S1024x256_S512x1024_1_1_0_0_n_n.rhsIdx i q 0).val = (i 1).val := by
  unfold DotDims.rhsIdx
  rw [dif_neg (show ¬(0 : Fin S1024x256.rank) ∈ dot_S512x256_S1024x256_S512x1024_1_1_0_0_n_n.rhsBatch by decide), dif_pos (show (0 : Fin S1024x256.rank) ∈ dot_S512x256_S1024x256_S512x1024_1_1_0_0_n_n.rhsNonContracting by decide)]
  rfl
/-- The right operand's feature axis reads the contraction position. -/
theorem rhs_axis1 (i : S512x1024.Idx) (q : dot_S512x256_S1024x256_S512x1024_1_1_0_0_n_n.contr.Idx) :
    (dot_S512x256_S1024x256_S512x1024_1_1_0_0_n_n.rhsIdx i q 1).val = (q ⟨0, by decide⟩).val :=
  dot_S512x256_S1024x256_S512x1024_1_1_0_0_n_n.rhsIdx_val_of_single rfl i q

/-- Entry (r, cc) of the product into the zero accumulator is the inner product of row r of `x0` with row cc of `x1`
    over the 256 features. -/
theorem matmul_entry (x0 : FVec Ideal S512x256 .f32) (x1 : FVec Ideal S1024x256 .f32) (r : Fin 512) (cc : Fin 1024) :
    matmul dot_S512x256_S1024x256_S512x1024_1_1_0_0_n_n (some .fp32) x0 x1 (constant (F := Ideal) S512x1024 .f32 0x00000000#32) (ix2 r cc)
      = ∑ k : Fin 256, x0 (ix2 r k) * x1 (ix2 cc k) := by
  refine (Ideal.matmul_constant_zero_apply dot_S512x256_S1024x256_S512x1024_1_1_0_0_n_n (some .fp32) x0 x1 (ix2 r cc)).trans ?_
  rw [← Equiv.sum_comp (contrEquiv1 dot_S512x256_S1024x256_S512x1024_1_1_0_0_n_n 256 rfl rfl).symm]
  refine Finset.sum_congr rfl fun k _ => ?_
  have hk := contrEquiv1_symm_val dot_S512x256_S1024x256_S512x1024_1_1_0_0_n_n 256 rfl rfl k
  have el : dot_S512x256_S1024x256_S512x1024_1_1_0_0_n_n.lhsIdx (ix2 r cc) ((contrEquiv1 dot_S512x256_S1024x256_S512x1024_1_1_0_0_n_n 256 rfl rfl).symm k) = ix2 r k := funext fun a => Fin.ext (by
    match a with
    | ⟨0, _⟩ => exact lhs_axis0 _ _
    | ⟨1, _⟩ => exact (lhs_axis1 _ _).trans hk)
  have er : dot_S512x256_S1024x256_S512x1024_1_1_0_0_n_n.rhsIdx (ix2 r cc) ((contrEquiv1 dot_S512x256_S1024x256_S512x1024_1_1_0_0_n_n 256 rfl rfl).symm k) = ix2 cc k := funext fun a => Fin.ext (by
    match a with
    | ⟨0, _⟩ => exact rhs_axis0 _ _
    | ⟨1, _⟩ => exact (rhs_axis1 _ _).trans hk)
  rw [el, er]

/-! ## One Gram entry -/

/-- Pointwise, exp(-1 * max(p + q - 2 m, 0)) is the Gram entry of the two norms `p`, `q` and the inner product `m`. -/
theorem entry_apply (p q m : FVec Ideal S512x1024 .f32) (j : S512x1024.Idx) :
    exp (mulf (broadcast S512x1024 (Scalar.ofBits (F := Ideal) .f32 0xBF800000#32))
      (maximumf (subf (addf p q) (mulf (broadcast S512x1024 (Scalar.ofBits (F := Ideal) .f32 0x40000000#32)) m))
        (broadcast S512x1024 (Scalar.ofBits (F := Ideal) .f32 0x00000000#32)))) j
      = Cert.Spec.gram (p j) (q j) (m j) := rfl

/-- The column of squared norms spread along the rows: entry (r, cc) reads the column at r. -/
theorem col_apply (x2 : Vec Ideal S512x1 .f32) (r : Fin 512) (cc : Fin 1024) :
    broadcastTo S512x1024 (shapeCast S512x1 x2 shapeCasts_S512x1_S512x1) broadcasts_S512x1_S512x1024 (ix2 r cc)
      = x2 (ix2 r (0 : Fin 1)) := by
  rw [shapeCast_self]
  refine broadcastTo_apply x2 broadcasts_S512x1_S512x1024 (ix2 r cc) (ix2 r (0 : Fin 1)) fun ax => ?_
  match ax with
  | ⟨0, _⟩ =>
    show r.val = if (512 : Nat) = 1 then 0 else r.val
    rw [if_neg (by decide)]
  | ⟨1, _⟩ => rfl

/-- The row of squared norms spread along the columns: entry (r, cc) reads the row at cc. -/
theorem row_apply (x3 : Vec Ideal S1x1024 .f32) (r : Fin 512) (cc : Fin 1024) :
    broadcastTo S512x1024 (shapeCast S1x1024 x3 shapeCasts_S1x1024_S1x1024) broadcasts_S1x1024_S512x1024 (ix2 r cc)
      = x3 (ix2 (0 : Fin 1) cc) := by
  rw [shapeCast_self]
  exact broadcastTo_1b_ab_apply x3 broadcasts_S1x1024_S512x1024 r cc

/-! ## The two sums -/

/-- An `[a]` array viewed as the column `[a, 1]` reads, at `(i, u)`, the operand at `i`, whatever the unit
    coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the columns, at row r: the sum over cc of the entries (r, cc). -/
theorem rowSum_apply (E : FVec Ideal S512x1024 .f32) (r : Fin 512) :
    multiReduction (F := Ideal) .add [1] S512 E 0x00000000#32 reduces_S512x1024_S512 (.inl rfl) rfl (ix1 r)
      = ∑ cc : Fin 1024, E (ix2 r cc) := by
  refine (Ideal.multiReduction_add_single E 0x00000000#32 reduces_S512x1024_S512 (.inl rfl) rfl (ix1 r)).trans ?_
  refine Finset.sum_congr rfl fun cc _ => congrArg E (funext fun a => Fin.ext ?_)
  match a with
  | ⟨0, _⟩ => rfl
  | ⟨1, _⟩ => rfl

/-- The sum of a column along its rows: the sum over r of the entries (r, 0). -/
theorem colSum_apply (C : FVec Ideal S512x1 .f32) (u : Fin 1) :
    multiReduction (F := Ideal) .add [0] S1 C 0x00000000#32 reduces_S512x1_S1 (.inl rfl) rfl (ix1 u)
      = ∑ r : Fin 512, C (ix2 r (0 : Fin 1)) := by
  refine (Ideal.multiReduction_add_single C 0x00000000#32 reduces_S512x1_S1 (.inl rfl) rfl (ix1 u)).trans ?_
  refine Finset.sum_congr rfl fun r _ => congrArg C (funext fun a => Fin.ext ?_)
  match a with
  | ⟨0, _⟩ => rfl
  | ⟨1, _⟩ =>
    show u.val = 0
    omega

/-- The accumulator plus the sum along the columns, then along the rows, of a 512 x 1024 matrix `E`: at the one index
    of the 1 x 1 result, the accumulator's entry plus the double sum of the entries of `E`. -/
theorem total_apply (E : FVec Ideal S512x1024 .f32) (a : FVec Ideal S1x1 .f32) (j : S1x1.Idx) :
    addf (F := Ideal) (shapeCast S1x1 a shapeCasts_S1x1_S1x1)
      (shapeCast S1x1 (multiReduction (F := Ideal) .add [0] S1
        (shapeCast S512x1 (multiReduction (F := Ideal) .add [1] S512 E 0x00000000#32 reduces_S512x1024_S512 (.inl rfl) rfl) shapeCasts_S512_S512x1)
        0x00000000#32 reduces_S512x1_S1 (.inl rfl) rfl) shapeCasts_S1_S1x1) j
      = a (ix2 (0 : Fin 1) (0 : Fin 1)) + ∑ r : Fin 512, ∑ cc : Fin 1024, E (ix2 r cc) := by
  obtain ⟨u, w, rfl⟩ : ∃ (u w : Fin 1), j = ix2 u w := ⟨j 0, j 1, eq_ix2 j⟩
  obtain rfl : u = 0 := Subsingleton.elim _ _
  obtain rfl : w = 0 := Subsingleton.elim _ _
  refine (addf_apply _ _ _).trans ?_
  rw [shapeCast_self]
  refine congrArg (a (ix2 (0 : Fin 1) (0 : Fin 1)) + ·) ?_
  refine (shapeCast_a_1a_apply _ shapeCasts_S1_S1x1 (0 : Fin 1) (0 : Fin 1)).trans ?_
  refine (colSum_apply _ (0 : Fin 1)).trans ?_
  refine Finset.sum_congr rfl fun r _ => ?_
  refine (shapeCast_a_a1_apply _ shapeCasts_S512_S512x1 r (0 : Fin 1)).trans ?_
  exact rowSum_apply E r

/-! ## The stored values -/

/-- The reset value is zero. -/
theorem k0_pay1_apply (j : S1x1.Idx) : k0_pay1 (F := Ideal) j = 0 := by
  unfold k0_pay1
  exact Ideal.ofBits_zero_f32

/-- The stored value is the accumulator found plus the block's partial sum. -/
theorem k0_pay2_apply (x0 : Vec Ideal S512x256 .f32) (x1 : Vec Ideal S1024x256 .f32) (x2 : Vec Ideal S512x1 .f32) (x3 : Vec Ideal S1x1024 .f32)
    (a : Vec Ideal S1x1 .f32) (j : S1x1.Idx) :
    k0_pay2 (F := Ideal) x0 x1 x2 x3 a j = a (ix2 (0 : Fin 1) (0 : Fin 1)) + blockSum x0 x1 x2 x3 := by
  unfold k0_pay2
  refine (total_apply _ a j).trans ?_
  refine congrArg (a (ix2 (0 : Fin 1) (0 : Fin 1)) + ·) ?_
  unfold blockSum
  refine Finset.sum_congr rfl fun r _ => Finset.sum_congr rfl fun cc _ => ?_
  refine (entry_apply _ _ _ (ix2 r cc)).trans ?_
  rw [col_apply x2 r cc, row_apply x3 r cc, matmul_entry x0 x1 r cc]

/-- The reset value is zero. -/
theorem k1_pay1_apply (j : S1x1.Idx) : k1_pay1 (F := Ideal) j = 0 := by
  unfold k1_pay1
  exact Ideal.ofBits_zero_f32

/-- The stored value is the accumulator found plus the block's partial sum. -/
theorem k1_pay2_apply (x0 : Vec Ideal S512x256 .f32) (x1 : Vec Ideal S1024x256 .f32) (x2 : Vec Ideal S512x1 .f32) (x3 : Vec Ideal S1x1024 .f32)
    (a : Vec Ideal S1x1 .f32) (j : S1x1.Idx) :
    k1_pay2 (F := Ideal) x0 x1 x2 x3 a j = a (ix2 (0 : Fin 1) (0 : Fin 1)) + blockSum x0 x1 x2 x3 := by
  unfold k1_pay2
  refine (total_apply _ a j).trans ?_
  refine congrArg (a (ix2 (0 : Fin 1) (0 : Fin 1)) + ·) ?_
  unfold blockSum
  refine Finset.sum_congr rfl fun r _ => Finset.sum_congr rfl fun cc _ => ?_
  refine (entry_apply _ _ _ (ix2 r cc)).trans ?_
  rw [col_apply x2 r cc, row_apply x3 r cc, matmul_entry x0 x1 r cc]

/-- The reset value is zero. -/
theorem k2_pay1_apply (j : S1x1.Idx) : k2_pay1 (F := Ideal) j = 0 := by
  unfold k2_pay1
  exact Ideal.ofBits_zero_f32

/-- The stored value is the accumulator found plus the block's partial sum. -/
theorem k2_pay2_apply (x0 : Vec Ideal S512x256 .f32) (x1 : Vec Ideal S1024x256 .f32) (x2 : Vec Ideal S512x1 .f32) (x3 : Vec Ideal S1x1024 .f32)
    (a : Vec Ideal S1x1 .f32) (j : S1x1.Idx) :
    k2_pay2 (F := Ideal) x0 x1 x2 x3 a j = a (ix2 (0 : Fin 1) (0 : Fin 1)) + blockSum x0 x1 x2 x3 := by
  unfold k2_pay2
  refine (total_apply _ a j).trans ?_
  refine congrArg (a (ix2 (0 : Fin 1) (0 : Fin 1)) + ·) ?_
  unfold blockSum
  refine Finset.sum_congr rfl fun r _ => Finset.sum_congr rfl fun cc _ => ?_
  refine (entry_apply _ _ _ (ix2 r cc)).trans ?_
  rw [col_apply x2 r cc, row_apply x3 r cc, matmul_entry x0 x1 r cc]

end Cert.KernelIdeal.PayValue

end
-- ==== Proof.BodyValue0.lean ====
/-
  Region 0's accumulator, as a value. What a call of the body leaves in the 1 x 1 buffer is the body's stored term of
  the four input blocks and of what the buffer held (zero at the first point, where the reset store comes first). Over
  the extended reals that term adds the block's partial sum of Gram entries to the running total, so after the last
  of the 128 points the buffer, and after its write-back the region's result array, holds the sum of the 128 blocks'
  partial sums.
-/
import proofs.«123217_j81080392613941_1_alg».proof.Proof.Body0
import proofs.«123217_j81080392613941_1_alg».proof.Proof.PayValue
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

open Cert.KernelIdeal.PayValue

section AnyInstance
variable {F : FTy → Type} [FloatOps F]

/-- The stores' offset in the 1 x 1 buffer is zero on both axes. -/
theorem off0_zero : (![0, 0] : Fin 2 → Nat) = fun _ => 0 :=
  funext fun a => by match a with | ⟨0, _⟩ => rfl | ⟨1, _⟩ => rfl

/-- The first point leaves the stored term over the reset value. -/
theorem piece0_A (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond0 i)
    (x0 : Vec F S512x256 .f32) (x1 : Vec F S1024x256 .f32) (x2 : Vec F S512x1 .f32) (x3 : Vec F S1x1024 .f32) :
    out0_A_4 c i arg2 harg2 arg3 harg3 arg4 harg4 arg5 harg5 arg6 harg6 hc0 x0 x1 x2 x3 = k0_pay2 x0 x1 x2 x3 (k0_pay1 (F := F)) := by
  -- the later of the two stores covers the buffer, and its load of the buffer reads the reset value back
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  rw [View.canon_cons_unit_zero (S := S1x1) off0_zero, View.readCov_unit_zero (S := S1x1) _ off0_zero]
  simp only [View.readAt_eq_ld, harg2.read_unread, harg3.read_unread, harg4.read_unread, harg5.read_unread,
    View.ld_unit_zero (S := S512x256) off0_zero, View.ld_unit_zero (S := S1024x256) off0_zero,
    View.ld_unit_zero (S := S512x1) off0_zero, View.ld_unit_zero (S := S1x1024) off0_zero]

/-- Every other point leaves the stored term over what the buffer held. -/
theorem piece0_B (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond0 i)
    (x0 : Vec F S512x256 .f32) (x1 : Vec F S1024x256 .f32) (x2 : Vec F S512x1 .f32) (x3 : Vec F S1x1024 .f32) (xo : Vec F S1x1 .f32) :
    out0_B_4 c i arg2 harg2 arg3 harg3 arg4 harg4 arg5 harg5 arg6 harg6 hc0 x0 x1 x2 x3 xo = k0_pay2 x0 x1 x2 x3 xo := by
  -- the one store covers the buffer; every load reads a whole buffer
  unfold out0_B_4
  rw [View.read_writes_eq_canon _ _ _ (cover0_B_4 c i arg2 harg2 arg3 harg3 arg4 harg4 arg5 harg5 arg6 harg6 hc0 x0 x1 x2 x3 xo)]
  unfold kernelRun0_B
  dsimp only
  sl_unfold_words
  rw [View.canon_unit_zero off0_zero]
  simp only [View.readAt_eq_ld, harg2.read_unread, harg3.read_unread, harg4.read_unread, harg5.read_unread, harg6.read_unread,
    View.ld_unit_zero (S := S512x256) off0_zero, View.ld_unit_zero (S := S1024x256) off0_zero,
    View.ld_unit_zero (S := S512x1) off0_zero, View.ld_unit_zero (S := S1x1024) off0_zero,
    View.ld_unit_zero (S := S1x1) off0_zero]

end AnyInstance

variable (V : (c : Dev nD) → (b : Ref sig .tc) → Buf (Elt Ideal) ((c : Thread nD τ).loc b))

/-- The partial sum of Gram entries the block at point `t` contributes. -/
def blockSumAt0 (c : Dev nD) (t : Fin cfg0.N) : EReal :=
  blockSum (iblk0 V c 0 t) (iblk0 V c 1 t) (iblk0 V c 2 t) (iblk0 V c 3 t)

/-- Point `s`'s addend as a function of every natural: the block's partial sum at a point of the grid, zero past it. -/
def addend0 (c : Dev nD) (s : ℕ) : EReal :=
  if hs : s < cfg0.N then blockSumAt0 V c ⟨s, hs⟩ else 0

/-- After point `n` the accumulator holds the sum of the partial sums of the points up to `n`: the first point adds
    its partial sum to the reset value zero, every later point adds its own to what the point before left. By
    induction on the point. -/
theorem outsAt0_eq (c : Dev nD) : ∀ (n : ℕ) (h : n < cfg0.N) (j : S1x1.Idx),
    outsAt0 (F := Ideal) V c n h j = ∑ s ∈ Finset.range (n + 1), addend0 V c s
  | 0, h, j => by
    rw [Finset.sum_range_one]
    refine (congrFun ((outsAt0_A V c ⟨0, h⟩ rfl).trans (piece0_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0 ⟨0, h⟩).mpr rfl) (iblk0 V c 0 ⟨0, h⟩) (iblk0 V c 1 ⟨0, h⟩) (iblk0 V c 2 ⟨0, h⟩) (iblk0 V c 3 ⟨0, h⟩))) j).trans ?_
    refine (k0_pay2_apply (iblk0 V c 0 ⟨0, h⟩) (iblk0 V c 1 ⟨0, h⟩) (iblk0 V c 2 ⟨0, h⟩) (iblk0 V c 3 ⟨0, h⟩) (k0_pay1 (F := Ideal)) j).trans ?_
    rw [k0_pay1_apply, zero_add]
    unfold addend0
    rw [dif_pos h]
    rfl
  | n + 1, h, j => by
    rw [Finset.sum_range_succ, ← outsAt0_eq c n (Nat.lt_of_succ_lt h) (ix2 (0 : Fin 1) (0 : Fin 1))]
    refine (congrFun ((outsAt0_B V c ⟨n + 1, h⟩ (Nat.succ_ne_zero n)).trans (piece0_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hc => Nat.succ_ne_zero n ((hcond0 ⟨n + 1, h⟩).mp hc)) (iblk0 V c 0 ⟨n + 1, h⟩) (iblk0 V c 1 ⟨n + 1, h⟩) (iblk0 V c 2 ⟨n + 1, h⟩) (iblk0 V c 3 ⟨n + 1, h⟩) (outsAt0 V c n (Nat.lt_of_succ_lt h)))) j).trans ?_
    refine (k0_pay2_apply (iblk0 V c 0 ⟨n + 1, h⟩) (iblk0 V c 1 ⟨n + 1, h⟩) (iblk0 V c 2 ⟨n + 1, h⟩) (iblk0 V c 3 ⟨n + 1, h⟩) (outsAt0 V c n (Nat.lt_of_succ_lt h)) j).trans ?_
    unfold addend0
    rw [dif_pos h]
    rfl

/-- After the last point the accumulator holds the sum of all blocks' partial sums. -/
theorem outsAt0_last (c : Dev nD) (h : 127 < cfg0.N) (j : S1x1.Idx) :
    outsAt0 (F := Ideal) V c 127 h j = ∑ t : Fin cfg0.N, blockSumAt0 V c t := by
  -- the points up to 127 are all 128 points of the grid
  rw [outsAt0_eq V c 127 h j, show 127 + 1 = cfg0.N from N_0.symm, ← Fin.sum_univ_eq_sum_range]
  refine Finset.sum_congr rfl fun t _ => ?_
  unfold addend0
  rw [dif_pos t.isLt]

/-- The last point of the grid. -/
abbrev tLast0 : Fin cfg0.N := ⟨127, lt_of_lt_of_eq (by decide : 127 < 128) N_0.symm⟩

/-- The region's result array after the run: the accumulator's block, written back after the last point. -/
theorem arrAt0_last (c : Dev nD) (j : S1x1.Idx) :
    (dat0 (F := Ideal) V c).arrAt 4 cfg0.N j = ∑ t : Fin cfg0.N, blockSumAt0 V c t := by
  have hN : cfg0.N = 128 := N_0
  -- the only write-back is the last point's; its block is the whole 1 x 1 array, and what it writes is the total
  refine congrFun ((dat0 (F := Ideal) V c).arrAt_eq_of_cover 4 (fun _ => (∑ t : Fin cfg0.N, blockSumAt0 V c t : EReal)) ?hG ?hcover) j
  case hG =>
    intro t hf
    have h127 : t.val = 127 := by have := (flush0_4 t).mp hf; have := t.isLt; omega
    obtain rfl : t = tLast0 := Fin.ext h127
    funext y
    rw [View.read_apply]
    show (dat0 (F := Ideal) V c).after 4 tLast0 _ = _
    rw [after0_4]
    exact outsAt0_last V c tLast0.isLt _
  case hcover =>
    intro i
    refine ⟨tLast0, (flush0_4 tLast0).mpr rfl, ?_⟩
    show i ∈ ((View.whole main_v7).slice (win0_4.rect tLast0)).set
    rw [View.set_slice_whole, Rect.mem_set_unit]
    intro a
    have h0 : (i 0 : Nat) < 1 := (i 0).isLt
    have h1 : (i 1 : Nat) < 1 := (i 1).isLt
    match a with
    | ⟨0, _⟩ =>
      show win0_4.index tLast0 0 * win0_4.size 0 ≤ (i 0 : Nat) ∧ (i 0 : Nat) < win0_4.index tLast0 0 * win0_4.size 0 + win0_4.xsize (grid0.coords tLast0) 0
      rw [show win0_4.index tLast0 0 * win0_4.size 0 = 0 from by decide +kernel, show win0_4.xsize (grid0.coords tLast0) 0 = 1 from by decide +kernel]; omega
    | ⟨1, _⟩ =>
      show win0_4.index tLast0 1 * win0_4.size 1 ≤ (i 1 : Nat) ∧ (i 1 : Nat) < win0_4.index tLast0 1 * win0_4.size 1 + win0_4.xsize (grid0.coords tLast0) 1
      rw [show win0_4.index tLast0 1 * win0_4.size 1 = 0 from by decide +kernel, show win0_4.xsize (grid0.coords tLast0) 1 = 1 from by decide +kernel]; omega

end Cert.KernelIdeal.Hand

end
-- ==== Proof.BodyValue1.lean ====
/-
  Region 0's accumulator, as a value. What a call of the body leaves in the 1 x 1 buffer is the body's stored term of
  the four input blocks and of what the buffer held (zero at the first point, where the reset store comes first). Over
  the extended reals that term adds the block's partial sum of Gram entries to the running total, so after the last
  of the 128 points the buffer, and after its write-back the region's result array, holds the sum of the 128 blocks'
  partial sums.
-/
import proofs.«123217_j81080392613941_1_alg».proof.Proof.Body1
import proofs.«123217_j81080392613941_1_alg».proof.Proof.PayValue
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

open Cert.KernelIdeal.PayValue

section AnyInstance
variable {F : FTy → Type} [FloatOps F]

/-- The stores' offset in the 1 x 1 buffer is zero on both axes. -/
theorem off1_zero : (![0, 0] : Fin 2 → Nat) = fun _ => 0 :=
  funext fun a => by match a with | ⟨0, _⟩ => rfl | ⟨1, _⟩ => rfl

/-- The first point leaves the stored term over the reset value. -/
theorem piece1_A (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond1 i)
    (x0 : Vec F S512x256 .f32) (x1 : Vec F S1024x256 .f32) (x2 : Vec F S512x1 .f32) (x3 : Vec F S1x1024 .f32) :
    out1_A_4 c i arg2 harg2 arg3 harg3 arg4 harg4 arg5 harg5 arg6 harg6 hc0 x0 x1 x2 x3 = k1_pay2 x0 x1 x2 x3 (k1_pay1 (F := F)) := by
  -- the later of the two stores covers the buffer, and its load of the buffer reads the reset value back
  unfold out1_A_4
  rw [View.read_writes_eq_canon _ _ _ (cover1_A_4 c i arg2 harg2 arg3 harg3 arg4 harg4 arg5 harg5 arg6 harg6 hc0 x0 x1 x2 x3)]
  unfold kernelRun1_A
  dsimp only
  sl_unfold_words
  rw [View.canon_cons_unit_zero (S := S1x1) off1_zero, View.readCov_unit_zero (S := S1x1) _ off1_zero]
  simp only [View.readAt_eq_ld, harg2.read_unread, harg3.read_unread, harg4.read_unread, harg5.read_unread,
    View.ld_unit_zero (S := S512x256) off1_zero, View.ld_unit_zero (S := S1024x256) off1_zero,
    View.ld_unit_zero (S := S512x1) off1_zero, View.ld_unit_zero (S := S1x1024) off1_zero]

/-- Every other point leaves the stored term over what the buffer held. -/
theorem piece1_B (c : Dev nD) (i : grid1.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond1 i)
    (x0 : Vec F S512x256 .f32) (x1 : Vec F S1024x256 .f32) (x2 : Vec F S512x1 .f32) (x3 : Vec F S1x1024 .f32) (xo : Vec F S1x1 .f32) :
    out1_B_4 c i arg2 harg2 arg3 harg3 arg4 harg4 arg5 harg5 arg6 harg6 hc0 x0 x1 x2 x3 xo = k1_pay2 x0 x1 x2 x3 xo := by
  -- the one store covers the buffer; every load reads a whole buffer
  unfold out1_B_4
  rw [View.read_writes_eq_canon _ _ _ (cover1_B_4 c i arg2 harg2 arg3 harg3 arg4 harg4 arg5 harg5 arg6 harg6 hc0 x0 x1 x2 x3 xo)]
  unfold kernelRun1_B
  dsimp only
  sl_unfold_words
  rw [View.canon_unit_zero off1_zero]
  simp only [View.readAt_eq_ld, harg2.read_unread, harg3.read_unread, harg4.read_unread, harg5.read_unread, harg6.read_unread,
    View.ld_unit_zero (S := S512x256) off1_zero, View.ld_unit_zero (S := S1024x256) off1_zero,
    View.ld_unit_zero (S := S512x1) off1_zero, View.ld_unit_zero (S := S1x1024) off1_zero,
    View.ld_unit_zero (S := S1x1) off1_zero]

end AnyInstance

variable (V : (c : Dev nD) → (b : Ref sig .tc) → Buf (Elt Ideal) ((c : Thread nD τ).loc b))

/-- The partial sum of Gram entries the block at point `t` contributes. -/
def blockSumAt1 (c : Dev nD) (t : Fin cfg1.N) : EReal :=
  blockSum (iblk1 V c 0 t) (iblk1 V c 1 t) (iblk1 V c 2 t) (iblk1 V c 3 t)

/-- Point `s`'s addend as a function of every natural: the block's partial sum at a point of the grid, zero past it. -/
def addend1 (c : Dev nD) (s : ℕ) : EReal :=
  if hs : s < cfg1.N then blockSumAt1 V c ⟨s, hs⟩ else 0

/-- After point `n` the accumulator holds the sum of the partial sums of the points up to `n`: the first point adds
    its partial sum to the reset value zero, every later point adds its own to what the point before left. By
    induction on the point. -/
theorem outsAt1_eq (c : Dev nD) : ∀ (n : ℕ) (h : n < cfg1.N) (j : S1x1.Idx),
    outsAt1 (F := Ideal) V c n h j = ∑ s ∈ Finset.range (n + 1), addend1 V c s
  | 0, h, j => by
    rw [Finset.sum_range_one]
    refine (congrFun ((outsAt1_A V c ⟨0, h⟩ rfl).trans (piece1_A (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) ((hcond1 ⟨0, h⟩).mpr rfl) (iblk1 V c 0 ⟨0, h⟩) (iblk1 V c 1 ⟨0, h⟩) (iblk1 V c 2 ⟨0, h⟩) (iblk1 V c 3 ⟨0, h⟩))) j).trans ?_
    refine (k1_pay2_apply (iblk1 V c 0 ⟨0, h⟩) (iblk1 V c 1 ⟨0, h⟩) (iblk1 V c 2 ⟨0, h⟩) (iblk1 V c 3 ⟨0, h⟩) (k1_pay1 (F := Ideal)) j).trans ?_
    rw [k1_pay1_apply, zero_add]
    unfold addend1
    rw [dif_pos h]
    rfl
  | n + 1, h, j => by
    rw [Finset.sum_range_succ, ← outsAt1_eq c n (Nat.lt_of_succ_lt h) (ix2 (0 : Fin 1) (0 : Fin 1))]
    refine (congrFun ((outsAt1_B V c ⟨n + 1, h⟩ (Nat.succ_ne_zero n)).trans (piece1_B (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun hc => Nat.succ_ne_zero n ((hcond1 ⟨n + 1, h⟩).mp hc)) (iblk1 V c 0 ⟨n + 1, h⟩) (iblk1 V c 1 ⟨n + 1, h⟩) (iblk1 V c 2 ⟨n + 1, h⟩) (iblk1 V c 3 ⟨n + 1, h⟩) (outsAt1 V c n (Nat.lt_of_succ_lt h)))) j).trans ?_
    refine (k1_pay2_apply (iblk1 V c 0 ⟨n + 1, h⟩) (iblk1 V c 1 ⟨n + 1, h⟩) (iblk1 V c 2 ⟨n + 1, h⟩) (iblk1 V c 3 ⟨n + 1, h⟩) (outsAt1 V c n (Nat.lt_of_succ_lt h)) j).trans ?_
    unfold addend1
    rw [dif_pos h]
    rfl

/-- After the last point the accumulator holds the sum of all blocks' partial sums. -/
theorem outsAt1_last (c : Dev nD) (h : 127 < cfg1.N) (j : S1x1.Idx) :
    outsAt1 (F := Ideal) V c 127 h j = ∑ t : Fin cfg1.N, blockSumAt1 V c t := by
  -- the points up to 127 are all 128 points of the grid
  rw [outsAt1_eq V c 127 h j, show 127 + 1 = cfg1.N from N_1.symm, ← Fin.sum_univ_eq_sum_range]
  refine Finset.sum_congr rfl fun t _ => ?_
  unfold addend1
  rw [dif_pos t.isLt]

/-- The last point of the grid. -/
abbrev tLast1 : Fin cfg1.N := ⟨127, lt_of_lt_of_eq (by decide : 127 < 128) N_1.symm⟩

/-- The region's result array after the run: the accumulator's block, written back after the last point. -/
theorem arrAt1_last (c : Dev nD) (j : S1x1.Idx) :
    (dat1 (F := Ideal) V c).arrAt 4 cfg1.N j = ∑ t : Fin cfg1.N, blockSumAt1 V c t := by
  have hN : cfg1.N = 128 := N_1
  -- the only write-back is the last point's; its block is the whole 1 x 1 array, and what it writes is the total
  refine congrFun ((dat1 (F := Ideal) V c).arrAt_eq_of_cover 4 (fun _ => (∑ t : Fin cfg1.N, blockSumAt1 V c t : EReal)) ?hG ?hcover) j
  case hG =>
    intro t hf
    have h127 : t.val = 127 := by have := (flush1_4 t).mp hf; have := t.isLt; omega
    obtain rfl : t = tLast1 := Fin.ext h127
    funext y
    rw [View.read_apply]
    show (dat1 (F := Ideal) V c).after 4 tLast1 _ = _
    rw [after1_4]
    exact outsAt1_last V c tLast1.isLt _
  case hcover =>
    intro i
    refine ⟨tLast1, (flush1_4 tLast1).mpr rfl, ?_⟩
    show i ∈ ((View.whole main_v7).slice (win1_4.rect tLast1)).set
    rw [View.set_slice_whole, Rect.mem_set_unit]
    intro a
    have h0 : (i 0 : Nat) < 1 := (i 0).isLt
    have h1 : (i 1 : Nat) < 1 := (i 1).isLt
    match a with
    | ⟨0, _⟩ =>
      show win1_4.index tLast1 0 * win1_4.size 0 ≤ (i 0 : Nat) ∧ (i 0 : Nat) < win1_4.index tLast1 0 * win1_4.size 0 + win1_4.xsize (grid1.coords tLast1) 0
      rw [show win1_4.index tLast1 0 * win1_4.size 0 = 0 from by decide +kernel, show win1_4.xsize (grid1.coords tLast1) 0 = 1 from by decide +kernel]; omega
    | ⟨1, _⟩ =>
      show win1_4.index tLast1 1 * win1_4.size 1 ≤ (i 1 : Nat) ∧ (i 1 : Nat) < win1_4.index tLast1 1 * win1_4.size 1 + win1_4.xsize (grid1.coords tLast1) 1
      rw [show win1_4.index tLast1 1 * win1_4.size 1 = 0 from by decide +kernel, show win1_4.xsize (grid1.coords tLast1) 1 = 1 from by decide +kernel]; omega

end Cert.KernelIdeal.Hand

end
-- ==== Proof.BodyValue2.lean ====
/-
  Region 0's accumulator, as a value. What a call of the body leaves in the 1 x 1 buffer is the body's stored term of
  the four input blocks and of what the buffer held (zero at the first point, where the reset store comes first). Over
  the extended reals that term adds the block's partial sum of Gram entries to the running total, so after the last
  of the 128 points the buffer, and after its write-back the region's result array, holds the sum of the 128 blocks'
  partial sums.
-/
import proofs.«123217_j81080392613941_1_alg».proof.Proof.Body2
import proofs.«123217_j81080392613941_1_alg».proof.Proof.PayValue
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

open Cert.KernelIdeal.PayValue

section AnyInstance
variable {F : FTy → Type} [FloatOps F]

/-- The stores' offset in the 1 x 1 buffer is zero on both axes. -/
theorem off2_zero : (![0, 0] : Fin 2 → Nat) = fun _ => 0 :=
  funext fun a => by match a with | ⟨0, _⟩ => rfl | ⟨1, _⟩ => rfl

/-- The first point leaves the stored term over the reset value. -/
theorem piece2_A (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : cond2 i)
    (x0 : Vec F S512x256 .f32) (x1 : Vec F S1024x256 .f32) (x2 : Vec F S512x1 .f32) (x3 : Vec F S1x1024 .f32) :
    out2_A_4 c i arg2 harg2 arg3 harg3 arg4 harg4 arg5 harg5 arg6 harg6 hc0 x0 x1 x2 x3 = k2_pay2 x0 x1 x2 x3 (k2_pay1 (F := F)) := by
  -- the later of the two stores covers the buffer, and its load of the buffer reads the reset value back
  unfold out2_A_4
  rw [View.read_writes_eq_canon _ _ _ (cover2_A_4 c i arg2 harg2 arg3 harg3 arg4 harg4 arg5 harg5 arg6 harg6 hc0 x0 x1 x2 x3)]
  unfold kernelRun2_A
  dsimp only
  sl_unfold_words
  rw [View.canon_cons_unit_zero (S := S1x1) off2_zero, View.readCov_unit_zero (S := S1x1) _ off2_zero]
  simp only [View.readAt_eq_ld, harg2.read_unread, harg3.read_unread, harg4.read_unread, harg5.read_unread,
    View.ld_unit_zero (S := S512x256) off2_zero, View.ld_unit_zero (S := S1024x256) off2_zero,
    View.ld_unit_zero (S := S512x1) off2_zero, View.ld_unit_zero (S := S1x1024) off2_zero]

/-- Every other point leaves the stored term over what the buffer held. -/
theorem piece2_B (c : Dev nD) (i : grid2.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (hc0 : ¬cond2 i)
    (x0 : Vec F S512x256 .f32) (x1 : Vec F S1024x256 .f32) (x2 : Vec F S512x1 .f32) (x3 : Vec F S1x1024 .f32) (xo : Vec F S1x1 .f32) :
    out2_B_4 c i arg2 harg2 arg3 harg3 arg4 harg4 arg5 harg5 arg6 harg6 hc0 x0 x1 x2 x3 xo = k2_pay2 x0 x1 x2 x3 xo := by
  -- the one store covers the buffer; every load reads a whole buffer
  unfold out2_B_4
  rw [View.read_writes_eq_canon _ _ _ (cover2_B_4 c i arg2 harg2 arg3 harg3 arg4 harg4 arg5 harg5 arg6 harg6 hc0 x0 x1 x2 x3 xo)]
  unfold kernelRun2_B
  dsimp only
  sl_unfold_words
  rw [View.canon_unit_zero off2_zero]
  simp only [View.readAt_eq_ld, harg2.read_unread, harg3.read_unread, harg4.read_unread, harg5.read_unread, harg6.read_unread,
    View.ld_unit_zero (S := S512x256) off2_zero, View.ld_unit_zero (S := S1024x256) off2_zero,
    View.ld_unit_zero (S := S512x1) off2_zero, View.ld_unit_zero (S := S1x1024) off2_zero,
    View.ld_unit_zero (S := S1x1) off2_zero]

end AnyInstance

variable (V : (c : Dev nD) → (b : Ref sig .tc) → Buf (Elt Ideal) ((c : Thread nD τ).loc b))

/-- The partial sum of Gram entries the block at point `t` contributes. -/
def blockSumAt2 (c : Dev nD) (t : Fin cfg2.N) : EReal :=
  blockSum (iblk2 V c 0 t) (iblk2 V c 1 t) (iblk2 V c 2 t) (iblk2 V c 3 t)

/-- Point `s`'s addend as a function of every natural: the block's partial sum at a point of the grid, zero past it. -/
def addend2 (c : Dev nD) (s : ℕ) : EReal :=
  if hs : s < cfg2.N then blockSumAt2 V c ⟨s, hs⟩ else 0

/-- After point `n` the accumulator holds the sum of the partial sums of the points up to `n`: the first point adds
    its partial sum to the reset value zero, every later point adds its own to what the point before left. By
    induction on the point. -/
theorem outsAt2_eq (c : Dev nD) : ∀ (n : ℕ) (h : n < cfg2.N) (j : S1x1.Idx),
    outsAt2 (F := Ideal) V c n h j = ∑ s ∈ Finset.range (n + 1), addend2 V c s
  | 0, h, j => by
    rw [Finset.sum_range_one]
    refine (congrFun ((outsAt2_A V c ⟨0, h⟩ rfl).trans (piece2_A (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) ((hcond2 ⟨0, h⟩).mpr rfl) (iblk2 V c 0 ⟨0, h⟩) (iblk2 V c 1 ⟨0, h⟩) (iblk2 V c 2 ⟨0, h⟩) (iblk2 V c 3 ⟨0, h⟩))) j).trans ?_
    refine (k2_pay2_apply (iblk2 V c 0 ⟨0, h⟩) (iblk2 V c 1 ⟨0, h⟩) (iblk2 V c 2 ⟨0, h⟩) (iblk2 V c 3 ⟨0, h⟩) (k2_pay1 (F := Ideal)) j).trans ?_
    rw [k2_pay1_apply, zero_add]
    unfold addend2
    rw [dif_pos h]
    rfl
  | n + 1, h, j => by
    rw [Finset.sum_range_succ, ← outsAt2_eq c n (Nat.lt_of_succ_lt h) (ix2 (0 : Fin 1) (0 : Fin 1))]
    refine (congrFun ((outsAt2_B V c ⟨n + 1, h⟩ (Nat.succ_ne_zero n)).trans (piece2_B (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (fun hc => Nat.succ_ne_zero n ((hcond2 ⟨n + 1, h⟩).mp hc)) (iblk2 V c 0 ⟨n + 1, h⟩) (iblk2 V c 1 ⟨n + 1, h⟩) (iblk2 V c 2 ⟨n + 1, h⟩) (iblk2 V c 3 ⟨n + 1, h⟩) (outsAt2 V c n (Nat.lt_of_succ_lt h)))) j).trans ?_
    refine (k2_pay2_apply (iblk2 V c 0 ⟨n + 1, h⟩) (iblk2 V c 1 ⟨n + 1, h⟩) (iblk2 V c 2 ⟨n + 1, h⟩) (iblk2 V c 3 ⟨n + 1, h⟩) (outsAt2 V c n (Nat.lt_of_succ_lt h)) j).trans ?_
    unfold addend2
    rw [dif_pos h]
    rfl

/-- After the last point the accumulator holds the sum of all blocks' partial sums. -/
theorem outsAt2_last (c : Dev nD) (h : 127 < cfg2.N) (j : S1x1.Idx) :
    outsAt2 (F := Ideal) V c 127 h j = ∑ t : Fin cfg2.N, blockSumAt2 V c t := by
  -- the points up to 127 are all 128 points of the grid
  rw [outsAt2_eq V c 127 h j, show 127 + 1 = cfg2.N from N_2.symm, ← Fin.sum_univ_eq_sum_range]
  refine Finset.sum_congr rfl fun t _ => ?_
  unfold addend2
  rw [dif_pos t.isLt]

/-- The last point of the grid. -/
abbrev tLast2 : Fin cfg2.N := ⟨127, lt_of_lt_of_eq (by decide : 127 < 128) N_2.symm⟩

/-- The region's result array after the run: the accumulator's block, written back after the last point. -/
theorem arrAt2_last (c : Dev nD) (j : S1x1.Idx) :
    (dat2 (F := Ideal) V c).arrAt 4 cfg2.N j = ∑ t : Fin cfg2.N, blockSumAt2 V c t := by
  have hN : cfg2.N = 128 := N_2
  -- the only write-back is the last point's; its block is the whole 1 x 1 array, and what it writes is the total
  refine congrFun ((dat2 (F := Ideal) V c).arrAt_eq_of_cover 4 (fun _ => (∑ t : Fin cfg2.N, blockSumAt2 V c t : EReal)) ?hG ?hcover) j
  case hG =>
    intro t hf
    have h127 : t.val = 127 := by have := (flush2_4 t).mp hf; have := t.isLt; omega
    obtain rfl : t = tLast2 := Fin.ext h127
    funext y
    rw [View.read_apply]
    show (dat2 (F := Ideal) V c).after 4 tLast2 _ = _
    rw [after2_4]
    exact outsAt2_last V c tLast2.isLt _
  case hcover =>
    intro i
    refine ⟨tLast2, (flush2_4 tLast2).mpr rfl, ?_⟩
    show i ∈ ((View.whole main_v7).slice (win2_4.rect tLast2)).set
    rw [View.set_slice_whole, Rect.mem_set_unit]
    intro a
    have h0 : (i 0 : Nat) < 1 := (i 0).isLt
    have h1 : (i 1 : Nat) < 1 := (i 1).isLt
    match a with
    | ⟨0, _⟩ =>
      show win2_4.index tLast2 0 * win2_4.size 0 ≤ (i 0 : Nat) ∧ (i 0 : Nat) < win2_4.index tLast2 0 * win2_4.size 0 + win2_4.xsize (grid2.coords tLast2) 0
      rw [show win2_4.index tLast2 0 * win2_4.size 0 = 0 from by decide +kernel, show win2_4.xsize (grid2.coords tLast2) 0 = 1 from by decide +kernel]; omega
    | ⟨1, _⟩ =>
      show win2_4.index tLast2 1 * win2_4.size 1 ≤ (i 1 : Nat) ∧ (i 1 : Nat) < win2_4.index tLast2 1 * win2_4.size 1 + win2_4.xsize (grid2.coords tLast2) 1
      rw [show win2_4.index tLast2 1 * win2_4.size 1 = 0 from by decide +kernel, show win2_4.xsize (grid2.coords tLast2) 1 = 1 from by decide +kernel]; omega

end Cert.KernelIdeal.Hand

end
-- ==== Proof.Regroup.lean ====
/-
  Regrouping the double sum: a sum over all pairs (i, j) of 8192 x 8192 is the sum, over a 16 x 8 grid of blocks in
  row-major order, of each block's sum over its 512 rows and 1024 columns. Only commutativity and associativity of
  addition are used, so it holds in any commutative additive monoid (the extended reals among them).
-/
import Mathlib.Algebra.BigOperators.Fin
import Mathlib.Algebra.BigOperators.Group.Finset.Basic
import Mathlib.Data.Fintype.BigOperators
import Mathlib.Logic.Equiv.Fin.Basic

namespace Cert.Regroup

/-- An index `n * a + b` with `a < m` and `b < n` is below `m * n`. -/
theorem mul_add_lt {m n a b : ℕ} (ha : a < m) (hb : b < n) : n * a + b < m * n :=
  calc n * a + b < n * a + n := Nat.add_lt_add_left hb _
    _ = n * (a + 1) := (Nat.mul_succ n a).symm
    _ ≤ n * m := Nat.mul_le_mul_left n ha
    _ = m * n := Nat.mul_comm n m

/-- A sum over `N = m * n` indices is the sum over `m` groups of `n` consecutive indices each: the index
    `n * a + b` is the `b`-th member of group `a`. (Every index below `m * n` is `n * a + b` for exactly
    one pair.) -/
theorem sum_fin_mul {M : Type} [AddCommMonoid M] {N m n : ℕ} (h : N = m * n) (f : Fin N → M) :
    (∑ i : Fin N, f i)
      = ∑ a : Fin m, ∑ b : Fin n, f ⟨n * a.val + b.val, h ▸ mul_add_lt a.isLt b.isLt⟩ := by
  subst h
  rw [← finProdFinEquiv.sum_comp f, Fintype.sum_prod_type]
  refine Finset.sum_congr rfl fun a _ => Finset.sum_congr rfl fun b _ => ?_
  congr 1
  exact Fin.ext (Nat.add_comm _ _)

/-- Block `t` of the 16 x 8 grid (row-major: block row `t / 8`, block column `t % 8`) covers rows
    `512 (t / 8) + r` and columns `1024 (t % 8) + cc`. -/
theorem sum_blocks {M : Type} [AddCommMonoid M] (g : Fin 8192 → Fin 8192 → M) :
    (∑ t : Fin 128, ∑ r : Fin 512, ∑ cc : Fin 1024,
        g ⟨512 * (t.val / 8) + r.val, by omega⟩ ⟨1024 * (t.val % 8) + cc.val, by omega⟩)
      = ∑ i : Fin 8192, ∑ j : Fin 8192, g i j := by
  -- the right side: rows split 16 x 512, and for each row the columns split 8 x 1024
  have hR : (∑ i : Fin 8192, ∑ j : Fin 8192, g i j)
      = ∑ a : Fin 16, ∑ r : Fin 512, ∑ b : Fin 8, ∑ cc : Fin 1024,
          g ⟨512 * a.val + r.val, by omega⟩ ⟨1024 * b.val + cc.val, by omega⟩ := by
    rw [sum_fin_mul (N := 8192) (m := 16) (n := 512) rfl]
    refine Finset.sum_congr rfl fun a _ => Finset.sum_congr rfl fun r _ => ?_
    exact sum_fin_mul (N := 8192) (m := 8) (n := 1024) rfl _
  -- the left side: the 128 blocks split 16 x 8, with (8 a + b) / 8 = a and (8 a + b) % 8 = b
  rw [hR, sum_fin_mul (N := 128) (m := 16) (n := 8) rfl]
  refine Finset.sum_congr rfl fun a _ => ?_
  -- for a fixed block row, exchange "block column" and "row inside the block"
  refine Finset.sum_comm.trans ?_
  refine Finset.sum_congr rfl fun r _ => Finset.sum_congr rfl fun b _ =>
    Finset.sum_congr rfl fun cc _ => ?_
  exact congrArg₂ g (Fin.ext (by dsimp only; omega)) (Fin.ext (by dsimp only; omega))

end Cert.Regroup
-- ==== Proof.BlockSum0.lean ====
/-
  Region 0's blocks read off their arrays, and the sum over the grid. Point `t` of the 16 x 8 grid (row-major) stages
  rows `512 (t / 8) + r` of the first sample array and of its squared-norm column, and rows `1024 (t % 8) + cc` of the
  second sample array and the same entries of its squared-norm row. So the 128 blocks' partial sums of Gram entries
  add up to the sum over all 8192 x 8192 pairs.
-/
import proofs.«123217_j81080392613941_1_alg».proof.Proof.Body0
import proofs.«123217_j81080392613941_1_alg».proof.Proof.PayValue
import proofs.«123217_j81080392613941_1_alg».proof.Proof.Regroup
import proofs.«123217_j81080392613941_1_alg».proof.Proof.Spec

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

open Cert.KernelIdeal.PayValue

variable (V : (c : Dev nD) → (b : Ref sig .tc) → Buf (Elt Ideal) ((c : Thread nD τ).loc b))

/-- The four windows' arrays as the region finds them, at their literal types. -/
abbrev arrX0 (c : Dev nD) : FVec Ideal S8192x256 .f32 := V c (Pipeline.arrRef spec0 0)
abbrev arrY0 (c : Dev nD) : FVec Ideal S8192x256 .f32 := V c (Pipeline.arrRef spec0 1)
abbrev arrP0 (c : Dev nD) : FVec Ideal S8192x1 .f32 := V c (Pipeline.arrRef spec0 2)
abbrev arrQ0 (c : Dev nD) : FVec Ideal S1x8192 .f32 := V c (Pipeline.arrRef spec0 3)

/-- The windows' index maps over the 128 grid points (row-major, 16 x 8): the first sample block and its squared-norm
    column follow the block row `t / 8`, the second sample block and its squared-norm row follow the block column
    `t % 8`; the other block index of each window is zero. -/
theorem blockIndex0 : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8 :=
  (by decide +kernel : ∀ t : Fin grid0.N, _)

/-- Entry (r, k) of the first sample block at point `t` is entry (512 (t / 8) + r, k) of the array: a block's
    coordinate is its block index times the block extent plus the coordinate inside the block. -/
theorem iblk0_0_apply (c : Dev nD) (t : Fin cfg0.N) (r : Fin 512) (k : Fin 256) (h : 512 * (t.val / 8) + r.val < 8192) :
    iblk0 V c 0 t (ix2 r k) = arrX0 V c (ix2 (⟨512 * (t.val / 8) + r.val, h⟩ : Fin 8192) k) := by
  obtain ⟨e0, e1, -⟩ := blockIndex0 t
  show V c (Pipeline.arrRef spec0 0) (((cfg0.win 0).blk t).view.emb (ix2 r k)) = V c (Pipeline.arrRef spec0 0) _
  refine congrArg _ ?_
  funext a; apply Fin.ext
  match a with
  | ⟨0, _⟩ => show win0_0.index t (0 : Fin 2) * 512 + 1 * r.val = 512 * (t.val / 8) + r.val; omega
  | ⟨1, _⟩ => show win0_0.index t (1 : Fin 2) * 256 + 1 * k.val = k.val; omega

/-- Entry (cc, k) of the second sample block at point `t` is entry (1024 (t % 8) + cc, k) of the array. -/
theorem iblk0_1_apply (c : Dev nD) (t : Fin cfg0.N) (cc : Fin 1024) (k : Fin 256) (h : 1024 * (t.val % 8) + cc.val < 8192) :
    iblk0 V c 1 t (ix2 cc k) = arrY0 V c (ix2 (⟨1024 * (t.val % 8) + cc.val, h⟩ : Fin 8192) k) := by
  obtain ⟨-, -, e0, e1, -⟩ := blockIndex0 t
  show V c (Pipeline.arrRef spec0 1) (((cfg0.win 1).blk t).view.emb (ix2 cc k)) = V c (Pipeline.arrRef spec0 1) _
  refine congrArg _ ?_
  funext a; apply Fin.ext
  match a with
  | ⟨0, _⟩ => show win0_1.index t (0 : Fin 2) * 1024 + 1 * cc.val = 1024 * (t.val % 8) + cc.val; omega
  | ⟨1, _⟩ => show win0_1.index t (1 : Fin 2) * 256 + 1 * k.val = k.val; omega

/-- Entry r of the squared-norm column block at point `t` is entry 512 (t / 8) + r of the column. -/
theorem iblk0_2_apply (c : Dev nD) (t : Fin cfg0.N) (r : Fin 512) (h : 512 * (t.val / 8) + r.val < 8192) :
    iblk0 V c 2 t (ix2 r (0 : Fin 1)) = arrP0 V c (ix2 (⟨512 * (t.val / 8) + r.val, h⟩ : Fin 8192) (0 : Fin 1)) := by
  obtain ⟨-, -, -, -, e0, e1, -⟩ := blockIndex0 t
  show V c (Pipeline.arrRef spec0 2) (((cfg0.win 2).blk t).view.emb (ix2 r (0 : Fin 1))) = V c (Pipeline.arrRef spec0 2) _
  refine congrArg _ ?_
  funext a; apply Fin.ext
  match a with
  | ⟨0, _⟩ => show win0_2.index t (0 : Fin 2) * 512 + 1 * r.val = 512 * (t.val / 8) + r.val; omega
  | ⟨1, _⟩ => show win0_2.index t (1 : Fin 2) * 1 + 1 * (0 : Fin 1).val = (0 : Fin 1).val; omega

/-- Entry cc of the squared-norm row block at point `t` is entry 1024 (t % 8) + cc of the row. -/
theorem iblk0_3_apply (c : Dev nD) (t : Fin cfg0.N) (cc : Fin 1024) (h : 1024 * (t.val % 8) + cc.val < 8192) :
    iblk0 V c 3 t (ix2 (0 : Fin 1) cc) = arrQ0 V c (ix2 (0 : Fin 1) (⟨1024 * (t.val % 8) + cc.val, h⟩ : Fin 8192)) := by
  obtain ⟨-, -, -, -, -, -, e0, e1⟩ := blockIndex0 t
  show V c (Pipeline.arrRef spec0 3) (((cfg0.win 3).blk t).view.emb (ix2 (0 : Fin 1) cc)) = V c (Pipeline.arrRef spec0 3) _
  refine congrArg _ ?_
  funext a; apply Fin.ext
  match a with
  | ⟨0, _⟩ => show win0_3.index t (0 : Fin 2) * 1 + 1 * (0 : Fin 1).val = (0 : Fin 1).val; omega
  | ⟨1, _⟩ => show win0_3.index t (1 : Fin 2) * 1024 + 1 * cc.val = 1024 * (t.val % 8) + cc.val; omega

/-- A grid point is one of 128, so its block row is below 16 and its block column below 8. -/
theorem point_lt0 (t : Fin cfg0.N) : t.val < 128 := N_0 ▸ t.isLt

/-- One block's partial sum, read off the arrays: rows `512 (t / 8) + r` of the first sample against rows
    `1024 (t % 8) + cc` of the second. -/
theorem blockSum0_eq (c : Dev nD) (X Y : Cert.Spec.SA.Idx → EReal)
    (h0 : arrX0 V c = X) (h1 : arrY0 V c = Y)
    (h2 : ∀ i : Fin 8192, arrP0 V c (ix2 i (0 : Fin 1)) = Cert.Spec.sq X i)
    (h3 : ∀ j : Fin 8192, arrQ0 V c (ix2 (0 : Fin 1) j) = Cert.Spec.sq Y j) (t : Fin cfg0.N) :
    blockSum (iblk0 V c 0 t) (iblk0 V c 1 t) (iblk0 V c 2 t) (iblk0 V c 3 t)
      = ∑ r : Fin 512, ∑ cc : Fin 1024,
          Cert.Spec.gram
            (Cert.Spec.sq X ⟨512 * (t.val / 8) + r.val, by have := point_lt0 t; omega⟩)
            (Cert.Spec.sq Y ⟨1024 * (t.val % 8) + cc.val, by omega⟩)
            (Cert.Spec.dot X Y ⟨512 * (t.val / 8) + r.val, by have := point_lt0 t; omega⟩
              ⟨1024 * (t.val % 8) + cc.val, by omega⟩) := by
  have ht := point_lt0 t
  unfold blockSum
  refine Finset.sum_congr rfl fun r _ => Finset.sum_congr rfl fun cc _ => ?_
  have hr : 512 * (t.val / 8) + r.val < 8192 := by omega
  have hc : 1024 * (t.val % 8) + cc.val < 8192 := by omega
  rw [iblk0_2_apply V c t r hr, iblk0_3_apply V c t cc hc, h2, h3]
  refine congrArg _ ?_
  unfold Cert.Spec.dot
  refine Finset.sum_congr rfl fun k _ => ?_
  rw [iblk0_0_apply V c t r k hr, iblk0_1_apply V c t cc k hc, h0, h1]

/-- The blocks' partial sums add up to the Gram sum of the two sample arrays, the squared norms being those of their
    rows. -/
theorem gramSum0 (c : Dev nD) (X Y : Cert.Spec.SA.Idx → EReal)
    (h0 : arrX0 V c = X) (h1 : arrY0 V c = Y)
    (h2 : ∀ i : Fin 8192, arrP0 V c (ix2 i (0 : Fin 1)) = Cert.Spec.sq X i)
    (h3 : ∀ j : Fin 8192, arrQ0 V c (ix2 (0 : Fin 1) j) = Cert.Spec.sq Y j) :
    (∑ t : Fin cfg0.N, blockSum (iblk0 V c 0 t) (iblk0 V c 1 t) (iblk0 V c 2 t) (iblk0 V c 3 t)) = Cert.Spec.gramSum X Y := by
  unfold Cert.Spec.gramSum
  rw [← Cert.Regroup.sum_blocks (fun i j => Cert.Spec.gram (Cert.Spec.sq X i) (Cert.Spec.sq Y j) (Cert.Spec.dot X Y i j))]
  rw [← (finCongr N_0).sum_comp]
  refine Finset.sum_congr rfl fun t _ => ?_
  exact blockSum0_eq V c X Y h0 h1 h2 h3 t

end Cert.KernelIdeal.Hand

end
-- ==== Proof.BlockSum1.lean ====
/-
  Region 0's blocks read off their arrays, and the sum over the grid. Point `t` of the 16 x 8 grid (row-major) stages
  rows `512 (t / 8) + r` of the first sample array and of its squared-norm column, and rows `1024 (t % 8) + cc` of the
  second sample array and the same entries of its squared-norm row. So the 128 blocks' partial sums of Gram entries
  add up to the sum over all 8192 x 8192 pairs.
-/
import proofs.«123217_j81080392613941_1_alg».proof.Proof.Body1
import proofs.«123217_j81080392613941_1_alg».proof.Proof.PayValue
import proofs.«123217_j81080392613941_1_alg».proof.Proof.Regroup
import proofs.«123217_j81080392613941_1_alg».proof.Proof.Spec

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

open Cert.KernelIdeal.PayValue

variable (V : (c : Dev nD) → (b : Ref sig .tc) → Buf (Elt Ideal) ((c : Thread nD τ).loc b))

/-- The four windows' arrays as the region finds them, at their literal types. -/
abbrev arrX1 (c : Dev nD) : FVec Ideal S8192x256 .f32 := V c (Pipeline.arrRef spec1 0)
abbrev arrY1 (c : Dev nD) : FVec Ideal S8192x256 .f32 := V c (Pipeline.arrRef spec1 1)
abbrev arrP1 (c : Dev nD) : FVec Ideal S8192x1 .f32 := V c (Pipeline.arrRef spec1 2)
abbrev arrQ1 (c : Dev nD) : FVec Ideal S1x8192 .f32 := V c (Pipeline.arrRef spec1 3)

/-- The windows' index maps over the 128 grid points (row-major, 16 x 8): the first sample block and its squared-norm
    column follow the block row `t / 8`, the second sample block and its squared-norm row follow the block column
    `t % 8`; the other block index of each window is zero. -/
theorem blockIndex1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8 :=
  (by decide +kernel : ∀ t : Fin grid1.N, _)

/-- Entry (r, k) of the first sample block at point `t` is entry (512 (t / 8) + r, k) of the array: a block's
    coordinate is its block index times the block extent plus the coordinate inside the block. -/
theorem iblk1_0_apply (c : Dev nD) (t : Fin cfg1.N) (r : Fin 512) (k : Fin 256) (h : 512 * (t.val / 8) + r.val < 8192) :
    iblk1 V c 0 t (ix2 r k) = arrX1 V c (ix2 (⟨512 * (t.val / 8) + r.val, h⟩ : Fin 8192) k) := by
  obtain ⟨e0, e1, -⟩ := blockIndex1 t
  show V c (Pipeline.arrRef spec1 0) (((cfg1.win 0).blk t).view.emb (ix2 r k)) = V c (Pipeline.arrRef spec1 0) _
  refine congrArg _ ?_
  funext a; apply Fin.ext
  match a with
  | ⟨0, _⟩ => show win1_0.index t (0 : Fin 2) * 512 + 1 * r.val = 512 * (t.val / 8) + r.val; omega
  | ⟨1, _⟩ => show win1_0.index t (1 : Fin 2) * 256 + 1 * k.val = k.val; omega

/-- Entry (cc, k) of the second sample block at point `t` is entry (1024 (t % 8) + cc, k) of the array. -/
theorem iblk1_1_apply (c : Dev nD) (t : Fin cfg1.N) (cc : Fin 1024) (k : Fin 256) (h : 1024 * (t.val % 8) + cc.val < 8192) :
    iblk1 V c 1 t (ix2 cc k) = arrY1 V c (ix2 (⟨1024 * (t.val % 8) + cc.val, h⟩ : Fin 8192) k) := by
  obtain ⟨-, -, e0, e1, -⟩ := blockIndex1 t
  show V c (Pipeline.arrRef spec1 1) (((cfg1.win 1).blk t).view.emb (ix2 cc k)) = V c (Pipeline.arrRef spec1 1) _
  refine congrArg _ ?_
  funext a; apply Fin.ext
  match a with
  | ⟨0, _⟩ => show win1_1.index t (0 : Fin 2) * 1024 + 1 * cc.val = 1024 * (t.val % 8) + cc.val; omega
  | ⟨1, _⟩ => show win1_1.index t (1 : Fin 2) * 256 + 1 * k.val = k.val; omega

/-- Entry r of the squared-norm column block at point `t` is entry 512 (t / 8) + r of the column. -/
theorem iblk1_2_apply (c : Dev nD) (t : Fin cfg1.N) (r : Fin 512) (h : 512 * (t.val / 8) + r.val < 8192) :
    iblk1 V c 2 t (ix2 r (0 : Fin 1)) = arrP1 V c (ix2 (⟨512 * (t.val / 8) + r.val, h⟩ : Fin 8192) (0 : Fin 1)) := by
  obtain ⟨-, -, -, -, e0, e1, -⟩ := blockIndex1 t
  show V c (Pipeline.arrRef spec1 2) (((cfg1.win 2).blk t).view.emb (ix2 r (0 : Fin 1))) = V c (Pipeline.arrRef spec1 2) _
  refine congrArg _ ?_
  funext a; apply Fin.ext
  match a with
  | ⟨0, _⟩ => show win1_2.index t (0 : Fin 2) * 512 + 1 * r.val = 512 * (t.val / 8) + r.val; omega
  | ⟨1, _⟩ => show win1_2.index t (1 : Fin 2) * 1 + 1 * (0 : Fin 1).val = (0 : Fin 1).val; omega

/-- Entry cc of the squared-norm row block at point `t` is entry 1024 (t % 8) + cc of the row. -/
theorem iblk1_3_apply (c : Dev nD) (t : Fin cfg1.N) (cc : Fin 1024) (h : 1024 * (t.val % 8) + cc.val < 8192) :
    iblk1 V c 3 t (ix2 (0 : Fin 1) cc) = arrQ1 V c (ix2 (0 : Fin 1) (⟨1024 * (t.val % 8) + cc.val, h⟩ : Fin 8192)) := by
  obtain ⟨-, -, -, -, -, -, e0, e1⟩ := blockIndex1 t
  show V c (Pipeline.arrRef spec1 3) (((cfg1.win 3).blk t).view.emb (ix2 (0 : Fin 1) cc)) = V c (Pipeline.arrRef spec1 3) _
  refine congrArg _ ?_
  funext a; apply Fin.ext
  match a with
  | ⟨0, _⟩ => show win1_3.index t (0 : Fin 2) * 1 + 1 * (0 : Fin 1).val = (0 : Fin 1).val; omega
  | ⟨1, _⟩ => show win1_3.index t (1 : Fin 2) * 1024 + 1 * cc.val = 1024 * (t.val % 8) + cc.val; omega

/-- A grid point is one of 128, so its block row is below 16 and its block column below 8. -/
theorem point_lt1 (t : Fin cfg1.N) : t.val < 128 := N_1 ▸ t.isLt

/-- One block's partial sum, read off the arrays: rows `512 (t / 8) + r` of the first sample against rows
    `1024 (t % 8) + cc` of the second. -/
theorem blockSum1_eq (c : Dev nD) (X Y : Cert.Spec.SA.Idx → EReal)
    (h0 : arrX1 V c = X) (h1 : arrY1 V c = Y)
    (h2 : ∀ i : Fin 8192, arrP1 V c (ix2 i (0 : Fin 1)) = Cert.Spec.sq X i)
    (h3 : ∀ j : Fin 8192, arrQ1 V c (ix2 (0 : Fin 1) j) = Cert.Spec.sq Y j) (t : Fin cfg1.N) :
    blockSum (iblk1 V c 0 t) (iblk1 V c 1 t) (iblk1 V c 2 t) (iblk1 V c 3 t)
      = ∑ r : Fin 512, ∑ cc : Fin 1024,
          Cert.Spec.gram
            (Cert.Spec.sq X ⟨512 * (t.val / 8) + r.val, by have := point_lt1 t; omega⟩)
            (Cert.Spec.sq Y ⟨1024 * (t.val % 8) + cc.val, by omega⟩)
            (Cert.Spec.dot X Y ⟨512 * (t.val / 8) + r.val, by have := point_lt1 t; omega⟩
              ⟨1024 * (t.val % 8) + cc.val, by omega⟩) := by
  have ht := point_lt1 t
  unfold blockSum
  refine Finset.sum_congr rfl fun r _ => Finset.sum_congr rfl fun cc _ => ?_
  have hr : 512 * (t.val / 8) + r.val < 8192 := by omega
  have hc : 1024 * (t.val % 8) + cc.val < 8192 := by omega
  rw [iblk1_2_apply V c t r hr, iblk1_3_apply V c t cc hc, h2, h3]
  refine congrArg _ ?_
  unfold Cert.Spec.dot
  refine Finset.sum_congr rfl fun k _ => ?_
  rw [iblk1_0_apply V c t r k hr, iblk1_1_apply V c t cc k hc, h0, h1]

/-- The blocks' partial sums add up to the Gram sum of the two sample arrays, the squared norms being those of their
    rows. -/
theorem gramSum1 (c : Dev nD) (X Y : Cert.Spec.SA.Idx → EReal)
    (h0 : arrX1 V c = X) (h1 : arrY1 V c = Y)
    (h2 : ∀ i : Fin 8192, arrP1 V c (ix2 i (0 : Fin 1)) = Cert.Spec.sq X i)
    (h3 : ∀ j : Fin 8192, arrQ1 V c (ix2 (0 : Fin 1) j) = Cert.Spec.sq Y j) :
    (∑ t : Fin cfg1.N, blockSum (iblk1 V c 0 t) (iblk1 V c 1 t) (iblk1 V c 2 t) (iblk1 V c 3 t)) = Cert.Spec.gramSum X Y := by
  unfold Cert.Spec.gramSum
  rw [← Cert.Regroup.sum_blocks (fun i j => Cert.Spec.gram (Cert.Spec.sq X i) (Cert.Spec.sq Y j) (Cert.Spec.dot X Y i j))]
  rw [← (finCongr N_1).sum_comp]
  refine Finset.sum_congr rfl fun t _ => ?_
  exact blockSum1_eq V c X Y h0 h1 h2 h3 t

end Cert.KernelIdeal.Hand

end
-- ==== Proof.BlockSum2.lean ====
/-
  Region 0's blocks read off their arrays, and the sum over the grid. Point `t` of the 16 x 8 grid (row-major) stages
  rows `512 (t / 8) + r` of the first sample array and of its squared-norm column, and rows `1024 (t % 8) + cc` of the
  second sample array and the same entries of its squared-norm row. So the 128 blocks' partial sums of Gram entries
  add up to the sum over all 8192 x 8192 pairs.
-/
import proofs.«123217_j81080392613941_1_alg».proof.Proof.Body2
import proofs.«123217_j81080392613941_1_alg».proof.Proof.PayValue
import proofs.«123217_j81080392613941_1_alg».proof.Proof.Regroup
import proofs.«123217_j81080392613941_1_alg».proof.Proof.Spec

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

open Cert.KernelIdeal.PayValue

variable (V : (c : Dev nD) → (b : Ref sig .tc) → Buf (Elt Ideal) ((c : Thread nD τ).loc b))

/-- The four windows' arrays as the region finds them, at their literal types. -/
abbrev arrX2 (c : Dev nD) : FVec Ideal S8192x256 .f32 := V c (Pipeline.arrRef spec2 0)
abbrev arrY2 (c : Dev nD) : FVec Ideal S8192x256 .f32 := V c (Pipeline.arrRef spec2 1)
abbrev arrP2 (c : Dev nD) : FVec Ideal S8192x1 .f32 := V c (Pipeline.arrRef spec2 2)
abbrev arrQ2 (c : Dev nD) : FVec Ideal S1x8192 .f32 := V c (Pipeline.arrRef spec2 3)

/-- The windows' index maps over the 128 grid points (row-major, 16 x 8): the first sample block and its squared-norm
    column follow the block row `t / 8`, the second sample block and its squared-norm row follow the block column
    `t % 8`; the other block index of each window is zero. -/
theorem blockIndex2 : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = t.val % 8 :=
  (by decide +kernel : ∀ t : Fin grid2.N, _)

/-- Entry (r, k) of the first sample block at point `t` is entry (512 (t / 8) + r, k) of the array: a block's
    coordinate is its block index times the block extent plus the coordinate inside the block. -/
theorem iblk2_0_apply (c : Dev nD) (t : Fin cfg2.N) (r : Fin 512) (k : Fin 256) (h : 512 * (t.val / 8) + r.val < 8192) :
    iblk2 V c 0 t (ix2 r k) = arrX2 V c (ix2 (⟨512 * (t.val / 8) + r.val, h⟩ : Fin 8192) k) := by
  obtain ⟨e0, e1, -⟩ := blockIndex2 t
  show V c (Pipeline.arrRef spec2 0) (((cfg2.win 0).blk t).view.emb (ix2 r k)) = V c (Pipeline.arrRef spec2 0) _
  refine congrArg _ ?_
  funext a; apply Fin.ext
  match a with
  | ⟨0, _⟩ => show win2_0.index t (0 : Fin 2) * 512 + 1 * r.val = 512 * (t.val / 8) + r.val; omega
  | ⟨1, _⟩ => show win2_0.index t (1 : Fin 2) * 256 + 1 * k.val = k.val; omega

/-- Entry (cc, k) of the second sample block at point `t` is entry (1024 (t % 8) + cc, k) of the array. -/
theorem iblk2_1_apply (c : Dev nD) (t : Fin cfg2.N) (cc : Fin 1024) (k : Fin 256) (h : 1024 * (t.val % 8) + cc.val < 8192) :
    iblk2 V c 1 t (ix2 cc k) = arrY2 V c (ix2 (⟨1024 * (t.val % 8) + cc.val, h⟩ : Fin 8192) k) := by
  obtain ⟨-, -, e0, e1, -⟩ := blockIndex2 t
  show V c (Pipeline.arrRef spec2 1) (((cfg2.win 1).blk t).view.emb (ix2 cc k)) = V c (Pipeline.arrRef spec2 1) _
  refine congrArg _ ?_
  funext a; apply Fin.ext
  match a with
  | ⟨0, _⟩ => show win2_1.index t (0 : Fin 2) * 1024 + 1 * cc.val = 1024 * (t.val % 8) + cc.val; omega
  | ⟨1, _⟩ => show win2_1.index t (1 : Fin 2) * 256 + 1 * k.val = k.val; omega

/-- Entry r of the squared-norm column block at point `t` is entry 512 (t / 8) + r of the column. -/
theorem iblk2_2_apply (c : Dev nD) (t : Fin cfg2.N) (r : Fin 512) (h : 512 * (t.val / 8) + r.val < 8192) :
    iblk2 V c 2 t (ix2 r (0 : Fin 1)) = arrP2 V c (ix2 (⟨512 * (t.val / 8) + r.val, h⟩ : Fin 8192) (0 : Fin 1)) := by
  obtain ⟨-, -, -, -, e0, e1, -⟩ := blockIndex2 t
  show V c (Pipeline.arrRef spec2 2) (((cfg2.win 2).blk t).view.emb (ix2 r (0 : Fin 1))) = V c (Pipeline.arrRef spec2 2) _
  refine congrArg _ ?_
  funext a; apply Fin.ext
  match a with
  | ⟨0, _⟩ => show win2_2.index t (0 : Fin 2) * 512 + 1 * r.val = 512 * (t.val / 8) + r.val; omega
  | ⟨1, _⟩ => show win2_2.index t (1 : Fin 2) * 1 + 1 * (0 : Fin 1).val = (0 : Fin 1).val; omega

/-- Entry cc of the squared-norm row block at point `t` is entry 1024 (t % 8) + cc of the row. -/
theorem iblk2_3_apply (c : Dev nD) (t : Fin cfg2.N) (cc : Fin 1024) (h : 1024 * (t.val % 8) + cc.val < 8192) :
    iblk2 V c 3 t (ix2 (0 : Fin 1) cc) = arrQ2 V c (ix2 (0 : Fin 1) (⟨1024 * (t.val % 8) + cc.val, h⟩ : Fin 8192)) := by
  obtain ⟨-, -, -, -, -, -, e0, e1⟩ := blockIndex2 t
  show V c (Pipeline.arrRef spec2 3) (((cfg2.win 3).blk t).view.emb (ix2 (0 : Fin 1) cc)) = V c (Pipeline.arrRef spec2 3) _
  refine congrArg _ ?_
  funext a; apply Fin.ext
  match a with
  | ⟨0, _⟩ => show win2_3.index t (0 : Fin 2) * 1 + 1 * (0 : Fin 1).val = (0 : Fin 1).val; omega
  | ⟨1, _⟩ => show win2_3.index t (1 : Fin 2) * 1024 + 1 * cc.val = 1024 * (t.val % 8) + cc.val; omega

/-- A grid point is one of 128, so its block row is below 16 and its block column below 8. -/
theorem point_lt2 (t : Fin cfg2.N) : t.val < 128 := N_2 ▸ t.isLt

/-- One block's partial sum, read off the arrays: rows `512 (t / 8) + r` of the first sample against rows
    `1024 (t % 8) + cc` of the second. -/
theorem blockSum2_eq (c : Dev nD) (X Y : Cert.Spec.SA.Idx → EReal)
    (h0 : arrX2 V c = X) (h1 : arrY2 V c = Y)
    (h2 : ∀ i : Fin 8192, arrP2 V c (ix2 i (0 : Fin 1)) = Cert.Spec.sq X i)
    (h3 : ∀ j : Fin 8192, arrQ2 V c (ix2 (0 : Fin 1) j) = Cert.Spec.sq Y j) (t : Fin cfg2.N) :
    blockSum (iblk2 V c 0 t) (iblk2 V c 1 t) (iblk2 V c 2 t) (iblk2 V c 3 t)
      = ∑ r : Fin 512, ∑ cc : Fin 1024,
          Cert.Spec.gram
            (Cert.Spec.sq X ⟨512 * (t.val / 8) + r.val, by have := point_lt2 t; omega⟩)
            (Cert.Spec.sq Y ⟨1024 * (t.val % 8) + cc.val, by omega⟩)
            (Cert.Spec.dot X Y ⟨512 * (t.val / 8) + r.val, by have := point_lt2 t; omega⟩
              ⟨1024 * (t.val % 8) + cc.val, by omega⟩) := by
  have ht := point_lt2 t
  unfold blockSum
  refine Finset.sum_congr rfl fun r _ => Finset.sum_congr rfl fun cc _ => ?_
  have hr : 512 * (t.val / 8) + r.val < 8192 := by omega
  have hc : 1024 * (t.val % 8) + cc.val < 8192 := by omega
  rw [iblk2_2_apply V c t r hr, iblk2_3_apply V c t cc hc, h2, h3]
  refine congrArg _ ?_
  unfold Cert.Spec.dot
  refine Finset.sum_congr rfl fun k _ => ?_
  rw [iblk2_0_apply V c t r k hr, iblk2_1_apply V c t cc k hc, h0, h1]

/-- The blocks' partial sums add up to the Gram sum of the two sample arrays, the squared norms being those of their
    rows. -/
theorem gramSum2 (c : Dev nD) (X Y : Cert.Spec.SA.Idx → EReal)
    (h0 : arrX2 V c = X) (h1 : arrY2 V c = Y)
    (h2 : ∀ i : Fin 8192, arrP2 V c (ix2 i (0 : Fin 1)) = Cert.Spec.sq X i)
    (h3 : ∀ j : Fin 8192, arrQ2 V c (ix2 (0 : Fin 1) j) = Cert.Spec.sq Y j) :
    (∑ t : Fin cfg2.N, blockSum (iblk2 V c 0 t) (iblk2 V c 1 t) (iblk2 V c 2 t) (iblk2 V c 3 t)) = Cert.Spec.gramSum X Y := by
  unfold Cert.Spec.gramSum
  rw [← Cert.Regroup.sum_blocks (fun i j => Cert.Spec.gram (Cert.Spec.sq X i) (Cert.Spec.sq Y j) (Cert.Spec.dot X Y i j))]
  rw [← (finCongr N_2).sum_comp]
  refine Finset.sum_congr rfl fun t _ => ?_
  exact blockSum2_eq V c X Y h0 h1 h2 h3 t

end Cert.KernelIdeal.Hand

end
-- ==== Proof.KernelValue.lean ====
/-
  What the kernel's program returns, over the extended reals: the statistic of the specification.

  The host stretch before each region forms the squared norms of the rows of that region's two sample arrays (a sum of
  squares along the features, laid out as a column for the first and as a row for the second), so each region's result
  array ends at the Gram sum of its two samples; the stretches after the regions divide each by 2^26 and combine the
  three means under the square root.
-/
import proofs.«123217_j81080392613941_1_alg».proof.Proof.Run
import proofs.«123217_j81080392613941_1_alg».proof.Proof.BodyValue0
import proofs.«123217_j81080392613941_1_alg».proof.Proof.BodyValue1
import proofs.«123217_j81080392613941_1_alg».proof.Proof.BodyValue2
import proofs.«123217_j81080392613941_1_alg».proof.Proof.BlockSum0
import proofs.«123217_j81080392613941_1_alg».proof.Proof.BlockSum1
import proofs.«123217_j81080392613941_1_alg».proof.Proof.BlockSum2
import proofs.«123217_j81080392613941_1_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

open Cert.KernelIdeal.PayValue

/-! ## The squared norms as the host stretches form them -/

/-- The squared-norm column as the host stretch forms it (the sum of squares along the features from the zero word,
    laid out as a column), read at row `i`: the squared norm of that row. -/
theorem sqCol_apply (x : FVec Ideal S8192x256 .f32) (hb : S8192.BroadcastsInDim S8192x1 (![0] : Fin 1 → Fin S8192x1.rank))
    (hr : S8192x256.ReducesTo [1] S8192) (hs : 0 < S_.numel) (i : Fin 8192) :
    (broadcastInDim S8192x1 ![0] hb
        (Host.reduceAdd (mulf x x) (constant (F := Ideal) S_ .f32 0x00000000#32) hr hs)
      : S8192x1.Idx → EReal) (ix2 i (0 : Fin 1)) = Cert.Spec.sq x i := by
  rw [broadcastInDim_apply _ hb _ (ix2 i (0 : Fin 1)) (ix1 i) (fun a => match a with
    | ⟨0, _⟩ => by show i.val = if (8192 : Nat) = 1 then 0 else i.val; rw [if_neg (by decide)])]
  simp only [Host.reduceAdd, Ideal.hostReduceAdd_def]
  rw [Ideal.hostReduceAdd_single hr (by decide)]
  show _ + _ = ∑ k : Fin 256, x (ix2 i k) * x (ix2 i k)
  rw [show (constant (F := Ideal) S_ .f32 0x00000000#32 (Shape.Idx.first hs) : EReal) = 0 from Ideal.ofBits_zero_f32, zero_add]
  refine Finset.sum_congr rfl fun k _ => ?_
  have e : (Shape.Reduces.lift (by decide : S8192x256.Reduces [1] S8192) (ix1 i) k : S8192x256.Idx) = ix2 i k :=
    funext fun a => Fin.ext (by match a with | ⟨0, _⟩ => rfl | ⟨1, _⟩ => rfl)
  exact congrArg (fun z => x z * x z) e

/-- The same squared norms laid out as a row (the column transposed), read at entry `j`. -/
theorem sqRow_apply (x : FVec Ideal S8192x256 .f32) (hb : S8192.BroadcastsInDim S8192x1 (![0] : Fin 1 → Fin S8192x1.rank))
    (hr : S8192x256.ReducesTo [1] S8192) (hs : 0 < S_.numel) (ht : S8192x1.Transposes [1, 0] S1x8192) (j : Fin 8192) :
    (transpose S1x8192 [1, 0] (broadcastInDim S8192x1 ![0] hb
        (Host.reduceAdd (mulf x x) (constant (F := Ideal) S_ .f32 0x00000000#32) hr hs)) ht
      : S1x8192.Idx → EReal) (ix2 (0 : Fin 1) j) = Cert.Spec.sq x j := by
  rw [transpose_apply [1, 0] _ ht (ix2 (0 : Fin 1) j) (ix2 j (0 : Fin 1)) (fun b => match b with
    | ⟨0, _⟩ => rfl
    | ⟨1, _⟩ => rfl)]
  exact sqCol_apply x hb hr hs j

/-- A 1 x 1 array reshaped to a scalar, read at the scalar's one index: the array's one entry. -/
theorem reshape11_apply (x : S1x1.Idx → EReal) (h : S1x1.ShapeCasts S_) (i : S_.Idx) :
    shapeCast S_ x h i = x (ix2 (0 : Fin 1) (0 : Fin 1)) := by
  refine shapeCast_apply x h i _ ?_
  have h1 := (S1x1.rowMajor (ix2 (0 : Fin 1) (0 : Fin 1))).isLt
  have h2 := (S_.rowMajor i).isLt
  have e1 : S1x1.numel = 1 := by decide
  have e2 : S_.numel = 1 := by decide
  omega

/-- The statistic from its ingredients: the two same-sample means `a`, `b` and the cross Gram sum `g`. -/
def mmdOf (a b g : EReal) : EReal :=
  Ideal.sqrt ((a + b) - Ideal.ofBits .f32 0x40000000#32 * Cert.Spec.mean g)

/-- The last stretch's term over scalars `x9`, `x19` and a 1 x 1 array `x27`, read at the scalar's one index. -/
theorem mmdTerm_apply (x9 x19 : FVec Ideal S_ .f32) (x27 : FVec Ideal S1x1 .f32) (h : S1x1.ShapeCasts S_) (i : S_.Idx) :
    (Host.sqrt (subf (addf x9 x19) (mulf (constant S_ .f32 0x40000000#32)
        (Host.divf (shapeCast S_ x27 h) (constant S_ .f32 0x4C800000#32)))) : S_.Idx → EReal) i
      = mmdOf (x9 i) (x19 i) (x27 (ix2 (0 : Fin 1) (0 : Fin 1))) := by
  show Ideal.sqrt ((x9 i + x19 i) - Ideal.ofBits .f32 0x40000000#32
      * Ideal.div (shapeCast S_ x27 h i) (Ideal.ofBits .f32 0x4C800000#32)) = _
  rw [reshape11_apply]
  rfl

/-! ## What each host stretch writes, from any contents before it -/

section Stretches

variable (W : Valuation τ sig (Elt Ideal))

/-- The first stretch's squared-norm column, read at row `i`: the squared norm of row `i` of the first sample. -/
theorem hostOps0_v2 (i : Fin 8192) :
    (StableHlo.after hostOps0 W (Proc.devRef .tc main_v2) : S8192x1.Idx → EReal) (ix2 i (0 : Fin 1))
      = Cert.Spec.sq (W (Proc.devRef .tc main_arg0) : FVec Ideal S8192x256 .f32) i := by
  after_results
  exact sqCol_apply _ _ _ _ i

/-- The first stretch's squared-norm row, read at entry `j`. -/
theorem hostOps0_v6 (j : Fin 8192) :
    (StableHlo.after hostOps0 W (Proc.devRef .tc main_v6) : S1x8192.Idx → EReal) (ix2 (0 : Fin 1) j)
      = Cert.Spec.sq (W (Proc.devRef .tc main_arg0) : FVec Ideal S8192x256 .f32) j := by
  after_results
  exact sqRow_apply _ _ _ _ _ j

/-- The second stretch's squared-norm column: of the second sample. -/
theorem hostOps1_v12 (i : Fin 8192) :
    (StableHlo.after hostOps1 W (Proc.devRef .tc main_v12) : S8192x1.Idx → EReal) (ix2 i (0 : Fin 1))
      = Cert.Spec.sq (W (Proc.devRef .tc main_arg1) : FVec Ideal S8192x256 .f32) i := by
  after_results
  exact sqCol_apply _ _ _ _ i

/-- The second stretch's squared-norm row: of the second sample. -/
theorem hostOps1_v16 (j : Fin 8192) :
    (StableHlo.after hostOps1 W (Proc.devRef .tc main_v16) : S1x8192.Idx → EReal) (ix2 (0 : Fin 1) j)
      = Cert.Spec.sq (W (Proc.devRef .tc main_arg1) : FVec Ideal S8192x256 .f32) j := by
  after_results
  exact sqRow_apply _ _ _ _ _ j

/-- The third stretch's squared-norm column: of the first sample. -/
theorem hostOps2_v22 (i : Fin 8192) :
    (StableHlo.after hostOps2 W (Proc.devRef .tc main_v22) : S8192x1.Idx → EReal) (ix2 i (0 : Fin 1))
      = Cert.Spec.sq (W (Proc.devRef .tc main_arg0) : FVec Ideal S8192x256 .f32) i := by
  after_results
  exact sqCol_apply _ _ _ _ i

/-- The third stretch's squared-norm row: of the second sample. -/
theorem hostOps2_v26 (j : Fin 8192) :
    (StableHlo.after hostOps2 W (Proc.devRef .tc main_v26) : S1x8192.Idx → EReal) (ix2 (0 : Fin 1) j)
      = Cert.Spec.sq (W (Proc.devRef .tc main_arg1) : FVec Ideal S8192x256 .f32) j := by
  after_results
  exact sqRow_apply _ _ _ _ _ j

/-- The second stretch's first mean: region 0's one result entry over 2^26. -/
theorem hostOps1_v9 (i : S_.Idx) :
    ((StableHlo.after hostOps1 W (Proc.devRef .tc main_v9) : S_.Idx → EReal) i : EReal)
      = Cert.Spec.mean ((W (Proc.devRef .tc main_v7) : S1x1.Idx → EReal) (ix2 (0 : Fin 1) (0 : Fin 1))) := by
  after_results
  show Ideal.div (shapeCast S_ (W (Proc.devRef .tc main_v7) : S1x1.Idx → EReal) _ i) (Ideal.ofBits .f32 0x4C800000#32) = _
  rw [reshape11_apply]
  rfl

/-- The third stretch's mean: region 1's one result entry over 2^26. -/
theorem hostOps2_v19 (i : S_.Idx) :
    ((StableHlo.after hostOps2 W (Proc.devRef .tc main_v19) : S_.Idx → EReal) i : EReal)
      = Cert.Spec.mean ((W (Proc.devRef .tc main_v17) : S1x1.Idx → EReal) (ix2 (0 : Fin 1) (0 : Fin 1))) := by
  after_results
  show Ideal.div (shapeCast S_ (W (Proc.devRef .tc main_v17) : S1x1.Idx → EReal) _ i) (Ideal.ofBits .f32 0x4C800000#32) = _
  rw [reshape11_apply]
  rfl

/-- The last stretch's result: the square root of the two earlier means' sum less twice the mean of region 2's one
    result entry. -/
theorem hostOps3_v33 (i : S_.Idx) :
    ((StableHlo.after hostOps3 W (Proc.devRef .tc main_v33) : S_.Idx → EReal) i : EReal)
      = mmdOf ((W (Proc.devRef .tc main_v9) : S_.Idx → EReal) i) ((W (Proc.devRef .tc main_v19) : S_.Idx → EReal) i)
          ((W (Proc.devRef .tc main_v27) : S1x1.Idx → EReal) (ix2 (0 : Fin 1) (0 : Fin 1))) := by
  after_results
  exact mmdTerm_apply _ _ _ _ i

end Stretches

/-! ## The regions' results -/

variable (m : (ℓ : Loc nD τ sig) → Buf (Elt Ideal) ℓ)

/-- Region 0's result array holds the Gram sum of the first sample with itself. -/
theorem res0_eq (c : Dev nD) (j : S1x1.Idx) :
    res0 m c j = Cert.Spec.gramSum (m ((c : Thread nD τ).loc main_arg0)) (m ((c : Thread nD τ).loc main_arg0)) := by
  have hX : E1 m c main_arg0 = m ((c : Thread nD τ).loc main_arg0) := (V1_of m c main_arg0 (by decide)).trans rfl
  refine (arrAt0_last (E1 m) c j).trans ?_
  refine gramSum0 (E1 m) c _ _ hX hX (fun i => ?_) (fun i => ?_)
  · show (StableHlo.after hostOps0 (V0 m c) (Proc.devRef .tc main_v2) : S8192x1.Idx → EReal) (ix2 i (0 : Fin 1)) = _
    exact hostOps0_v2 (V0 m c) i
  · show (StableHlo.after hostOps0 (V0 m c) (Proc.devRef .tc main_v6) : S1x8192.Idx → EReal) (ix2 (0 : Fin 1) i) = _
    exact hostOps0_v6 (V0 m c) i

/-- Region 1's: the second sample with itself. -/
theorem res1_eq (c : Dev nD) (j : S1x1.Idx) :
    res1 m c j = Cert.Spec.gramSum (m ((c : Thread nD τ).loc main_arg1)) (m ((c : Thread nD τ).loc main_arg1)) := by
  have hY2 : V2 m (outs₁ m) c main_arg1 = m ((c : Thread nD τ).loc main_arg1) :=
    (V2_of m (outs₁ m) c main_arg1 (by decide)).trans ((V1_of m c main_arg1 (by decide)).trans rfl)
  have hY : E3 m c main_arg1 = m ((c : Thread nD τ).loc main_arg1) := (V3_of m (outs₁ m) c main_arg1 (by decide)).trans hY2
  refine (arrAt1_last (E3 m) c j).trans ?_
  refine gramSum1 (E3 m) c _ _ hY hY (fun i => ?_) (fun i => ?_)
  · show (StableHlo.after hostOps1 (V2 m (outs₁ m) c) (Proc.devRef .tc main_v12) : S8192x1.Idx → EReal) (ix2 i (0 : Fin 1)) = _
    rw [hostOps1_v12]; exact congrArg (Cert.Spec.sq · i) hY2
  · show (StableHlo.after hostOps1 (V2 m (outs₁ m) c) (Proc.devRef .tc main_v16) : S1x8192.Idx → EReal) (ix2 (0 : Fin 1) i) = _
    rw [hostOps1_v16]; exact congrArg (Cert.Spec.sq · i) hY2

/-- Region 2's: the first sample against the second. -/
theorem res2_eq (c : Dev nD) (j : S1x1.Idx) :
    res2 m c j = Cert.Spec.gramSum (m ((c : Thread nD τ).loc main_arg0)) (m ((c : Thread nD τ).loc main_arg1)) := by
  have hX4 : V4 m (outs₂ m) c main_arg0 = m ((c : Thread nD τ).loc main_arg0) :=
    (V4_of m (outs₂ m) c main_arg0 (by decide)).trans <| (V3_of m (outs₂ m) c main_arg0 (by decide)).trans <|
      (V2_of m (outs₂ m) c main_arg0 (by decide)).trans <| (V1_of m c main_arg0 (by decide)).trans rfl
  have hY4 : V4 m (outs₂ m) c main_arg1 = m ((c : Thread nD τ).loc main_arg1) :=
    (V4_of m (outs₂ m) c main_arg1 (by decide)).trans <| (V3_of m (outs₂ m) c main_arg1 (by decide)).trans <|
      (V2_of m (outs₂ m) c main_arg1 (by decide)).trans <| (V1_of m c main_arg1 (by decide)).trans rfl
  have hX : E5 m c main_arg0 = m ((c : Thread nD τ).loc main_arg0) := (V5_of m (outs₂ m) c main_arg0 (by decide)).trans hX4
  have hY : E5 m c main_arg1 = m ((c : Thread nD τ).loc main_arg1) := (V5_of m (outs₂ m) c main_arg1 (by decide)).trans hY4
  refine (arrAt2_last (E5 m) c j).trans ?_
  refine gramSum2 (E5 m) c _ _ hX hY (fun i => ?_) (fun i => ?_)
  · show (StableHlo.after hostOps2 (V4 m (outs₂ m) c) (Proc.devRef .tc main_v22) : S8192x1.Idx → EReal) (ix2 i (0 : Fin 1)) = _
    rw [hostOps2_v22]; exact congrArg (Cert.Spec.sq · i) hX4
  · show (StableHlo.after hostOps2 (V4 m (outs₂ m) c) (Proc.devRef .tc main_v26) : S1x8192.Idx → EReal) (ix2 (0 : Fin 1) i) = _
    rw [hostOps2_v26]; exact congrArg (Cert.Spec.sq · i) hY4

/-! ## The result -/

/-- The program's result buffer after the last stretch. -/
theorem result_eq (c : Dev nD) :
    V7 (F := Ideal) m (outs m) c main_v33
      = fun _ => Cert.Spec.mmd (m ((c : Thread nD τ).loc main_arg0)) (m ((c : Thread nD τ).loc main_arg1)) := by
  -- the three regions' result arrays, as the later stretches find them
  have h7 : V2 m (outs m) c main_v7 = res0 m c := by
    show Function.update (V1 m c) main_v7 (outs m 2 main_v7 c) main_v7 = _
    rw [Function.update_self, outs_2]
  have h17 : V4 m (outs m) c main_v17 = res1 m c := by
    show Function.update (V3 m (outs m) c) main_v17 (outs m 4 main_v17 c) main_v17 = _
    rw [Function.update_self, outs_4]
  have h27 : V6 m (outs m) c main_v27 = res2 m c := by
    show Function.update (V5 m (outs m) c) main_v27 (outs m 6 main_v27 c) main_v27 = _
    rw [Function.update_self, outs_6]
  -- the two earlier means reach the last stretch unchanged
  have h9 : V6 m (outs m) c main_v9 = V3 m (outs m) c main_v9 :=
    (V6_of m (outs m) c main_v9 (by decide)).trans <| (V5_of m (outs m) c main_v9 (by decide)).trans (V4_of m (outs m) c main_v9 (by decide))
  have h19 : V6 m (outs m) c main_v19 = V5 m (outs m) c main_v19 := V6_of m (outs m) c main_v19 (by decide)
  funext i
  have e9 : ((V6 m (outs m) c main_v9 : S_.Idx → EReal) i : EReal)
      = Cert.Spec.mean (Cert.Spec.gramSum (m ((c : Thread nD τ).loc main_arg0)) (m ((c : Thread nD τ).loc main_arg0))) := by
    rw [h9]
    show ((StableHlo.after hostOps1 (V2 m (outs m) c) (Proc.devRef .tc main_v9) : S_.Idx → EReal) i : EReal) = _
    rw [hostOps1_v9]
    exact congrArg Cert.Spec.mean ((congrFun h7 _).trans (res0_eq m c _))
  have e19 : ((V6 m (outs m) c main_v19 : S_.Idx → EReal) i : EReal)
      = Cert.Spec.mean (Cert.Spec.gramSum (m ((c : Thread nD τ).loc main_arg1)) (m ((c : Thread nD τ).loc main_arg1))) := by
    rw [h19]
    show ((StableHlo.after hostOps2 (V4 m (outs m) c) (Proc.devRef .tc main_v19) : S_.Idx → EReal) i : EReal) = _
    rw [hostOps2_v19]
    exact congrArg Cert.Spec.mean ((congrFun h17 _).trans (res1_eq m c _))
  have e27 : ((V6 m (outs m) c main_v27 : S1x1.Idx → EReal) (ix2 (0 : Fin 1) (0 : Fin 1)) : EReal)
      = Cert.Spec.gramSum (m ((c : Thread nD τ).loc main_arg0)) (m ((c : Thread nD τ).loc main_arg1)) :=
    (congrFun h27 _).trans (res2_eq m c _)
  have key : mmdOf ((V6 m (outs m) c main_v9 : S_.Idx → EReal) i) ((V6 m (outs m) c main_v19 : S_.Idx → EReal) i)
        ((V6 m (outs m) c main_v27 : S1x1.Idx → EReal) (ix2 (0 : Fin 1) (0 : Fin 1)))
      = mmdOf (Cert.Spec.mean (Cert.Spec.gramSum (m ((c : Thread nD τ).loc main_arg0)) (m ((c : Thread nD τ).loc main_arg0))))
          (Cert.Spec.mean (Cert.Spec.gramSum (m ((c : Thread nD τ).loc main_arg1)) (m ((c : Thread nD τ).loc main_arg1))))
          (Cert.Spec.gramSum (m ((c : Thread nD τ).loc main_arg0)) (m ((c : Thread nD τ).loc main_arg1))) :=
    congr (congr (congrArg mmdOf e9) e19) e27
  exact (hostOps3_v33 (V6 m (outs m) c) i).trans (key.trans rfl)

end Cert.KernelIdeal.Hand

end
-- ==== Proof.RefValue.lean ====
/-
  The reference's result is the statistic of the specification.

  The reference forms, three times (for the pairs (N, N), (R, R), (N, R) of sample matrices), the 8192 x 8192 matrix of
  Gram entries exp(-1 * max(|x_i|^2 + |y_j|^2 - 2 <x_i, y_j>, 0)): the squared norms are sums from 0 over the 256 features
  of the squares, spread along the columns and along the rows; the inner products are the contraction of X with the
  transpose of Y over the features. It sums all entries from 0 and divides by 2^26, which is the mean Gram entry, and
  returns sqrt(mean(N,N) + mean(R,R) - 2 mean(N,R)). Read entry by entry over the extended reals this is the
  specification's function, term for term: the zero a sum starts from is the extended real 0, every other literal is the
  same word on both sides and is never evaluated, and a sum over all index pairs is the double sum over rows and
  columns.
-/
import proofs.«123217_j81080392613941_1_alg».proof.Proof.Gen.ReferenceIdeal.Run
import proofs.«123217_j81080392613941_1_alg».proof.Proof.Gen.ReferenceIdeal.Read
import proofs.«123217_j81080392613941_1_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read

/-- The squared norm of row `i` of `X`, spread along the columns: at entry (i, j) it is the sum from 0, over the 256
    features, of the squares of row `i`. -/
theorem rowSq (X : (⟨S8192x256, .f32⟩ : BufTy).Contents (Elt Ideal)) (i j : Fin 8192) :
    val_main_v48 (F := Ideal) X (ix2 i j) = Cert.Spec.sq X i := by
  rw [val_main_v48_apply, val_main_v46_apply, val_main_v43_apply, val_main_cst_13_apply]
  simp only [val_main_v42_apply, Ideal.ofBits_def, Ideal.mulf_def, Ideal.ofBits_zero_f32, zero_add]
  unfold Cert.Spec.sq
  refine Finset.sum_congr rfl fun k _ => ?_
  have e : idx_main_v43 (idx_main_v46 (idx_main_v48 (ix2 i j))) k = ix2 i k :=
    funext fun a => Fin.ext (by match a with | ⟨0, _⟩ => rfl | ⟨1, _⟩ => rfl)
  rw [e]

/-- The squared norm of row `j` of `Y`, spread along the rows: at entry (i, j) it is the sum from 0, over the 256
    features, of the squares of row `j`. -/
theorem colSq (Y : (⟨S8192x256, .f32⟩ : BufTy).Contents (Elt Ideal)) (i j : Fin 8192) :
    val_main_v49 (F := Ideal) Y (ix2 i j) = Cert.Spec.sq Y j := by
  rw [val_main_v49_apply, val_main_v47_apply, val_main_v45_apply, val_main_cst_14_apply]
  simp only [val_main_v44_apply, Ideal.ofBits_def, Ideal.mulf_def, Ideal.ofBits_zero_f32, zero_add]
  unfold Cert.Spec.sq
  refine Finset.sum_congr rfl fun k _ => ?_
  have e : idx_main_v45 (idx_main_v47 (idx_main_v49 (ix2 i j))) k = ix2 j k :=
    funext fun a => Fin.ext (by match a with | ⟨0, _⟩ => rfl | ⟨1, _⟩ => rfl)
  rw [e]

/-- The contraction of `X` with the transpose of `Y` over the 256 features, at entry (i, j), is the inner product of
    row `i` of `X` with row `j` of `Y`. -/
theorem rowDot (X Y : (⟨S8192x256, .f32⟩ : BufTy).Contents (Elt Ideal)) (i j : Fin 8192) :
    val_main_v52 (F := Ideal) X Y (ix2 i j) = Cert.Spec.dot X Y i j := by
  rw [val_main_v52_apply]
  unfold Cert.Spec.dot
  refine Finset.sum_congr rfl fun k _ => ?_
  rw [val_main_v51_apply]
  have el : lidx_main_v52 (ix2 i j) k = ix2 i k :=
    funext fun a => Fin.ext (by match a with | ⟨0, _⟩ => rfl | ⟨1, _⟩ => rfl)
  have er : idx_main_v51 (ridx_main_v52 (ix2 i j) k) = ix2 j k :=
    funext fun a => Fin.ext (by match a with | ⟨0, _⟩ => rfl | ⟨1, _⟩ => rfl)
  rw [el, er]

/-- Entry (i, j) of the Gram matrix of `X` against `Y`: exp(-1 * max(|x_i|^2 + |y_j|^2 - 2 <x_i, y_j>, 0)). -/
theorem gramEntry (X Y : (⟨S8192x256, .f32⟩ : BufTy).Contents (Elt Ideal)) (i j : Fin 8192) :
    val_main_v60 (F := Ideal) X Y (ix2 i j)
      = Cert.Spec.gram (Cert.Spec.sq X i) (Cert.Spec.sq Y j) (Cert.Spec.dot X Y i j) := by
  rw [val_main_v60_apply, val_main_v59_apply, val_main_v58_apply, val_main_cst_17_apply, val_main_v57_apply,
    val_main_v56_apply, val_main_cst_16_apply, val_main_v55_apply, val_main_v54_apply, val_main_v53_apply,
    val_main_cst_15_apply, val_main_v50_apply, rowSq, colSq, rowDot]
  rfl

/-- The Gram stage of `X` against `Y`: the sum from 0 of all 8192 x 8192 entries, as the double sum over rows and
    columns, divided by 2^26. -/
theorem gramStage (X Y : (⟨S8192x256, .f32⟩ : BufTy).Contents (Elt Ideal)) :
    val_main_v62 (F := Ideal) X Y = fun _ => Cert.Spec.mean (Cert.Spec.gramSum X Y) := by
  funext c
  rw [val_main_v62_apply, val_main_v61_apply, val_main_cst_18_apply, val_main_cst_19_apply]
  simp only [Ideal.ofBits_def, Ideal.hostDivf_def, Ideal.ofBits_zero_f32, zero_add]
  unfold Cert.Spec.mean Cert.Spec.gramSum
  refine congrArg (Ideal.div · _) ?_
  rw [sum_idx2]
  exact Finset.sum_congr rfl fun i _ => Finset.sum_congr rfl fun j _ => gramEntry X Y i j

/-- The first stage is the Gram stage of `X` against itself: the same operations applied to the same operands. -/
theorem gramStage_self0 (X : (⟨S8192x256, .f32⟩ : BufTy).Contents (Elt Ideal)) :
    val_main_v20 (F := Ideal) X = val_main_v62 (F := Ideal) X X := rfl

/-- The second stage is the Gram stage of `Y` against itself. -/
theorem gramStage_self1 (Y : (⟨S8192x256, .f32⟩ : BufTy).Contents (Elt Ideal)) :
    val_main_v41 (F := Ideal) Y = val_main_v62 (F := Ideal) Y Y := rfl

/-- The reference's result at its one index is the statistic sqrt(mean(N,N) + mean(R,R) - 2 mean(N,R)). -/
theorem result_apply (a0 a1 : (⟨S8192x256, .f32⟩ : BufTy).Contents (Elt Ideal)) (c : S_.Idx) :
    val_main_v66 (F := Ideal) a0 a1 c = Cert.Spec.mmd a0 a1 := by
  rw [val_main_v66_apply, val_main_v65_apply, val_main_v64_apply, val_main_v63_apply, val_main_cst_20_apply,
    gramStage_self0, gramStage_self1, gramStage, gramStage, gramStage]
  rfl

/-- The reference's result is the constant function at the statistic of its two arguments. -/
theorem result_eq (a0 a1 : (⟨S8192x256, .f32⟩ : BufTy).Contents (Elt Ideal)) :
    val_main_v66 (F := Ideal) a0 a1 = fun _ => Cert.Spec.mmd a0 a1 :=
  funext fun c => result_apply a0 a1 c

end Cert.ReferenceIdeal.RefValue

end
-- ==== Proof.lean ====
/-
  The certificate: a kernel that accumulates, over a 16 x 8 grid of blocks and in three pallas_calls, the sums of the
  Gaussian Gram entries of two samples (each with itself, and one against the other) and returns
  sqrt(mean(N,N) + mean(R,R) - 2 mean(N,R)), against the plain reference that forms the three 8192 x 8192 Gram
  matrices whole and takes their means.

  Over the extended reals both compute the statistic of the specification: entry by entry the two programs apply the
  same operations with the same literals, and the kernel's grouping of the double sum into blocks is a reordering of a
  sum in a commutative monoid (no finiteness is needed, so the precondition is never opened). The three frames: each
  program runs to the end, faults nowhere and leaves its two argument arrays as launched. The idealization rewrote no
  operation, so what it preserves is trivial.
-/
import proofs.«123217_j81080392613941_1_alg».proof.Defs
import proofs.«123217_j81080392613941_1_alg».proof.Proof.Gen.Kernel
import proofs.«123217_j81080392613941_1_alg».proof.Proof.Gen.KernelIdeal
import proofs.«123217_j81080392613941_1_alg».proof.Proof.Gen.ReferenceIdeal
import proofs.«123217_j81080392613941_1_alg».proof.Proof.Gen.Pre_finite_inputs
import proofs.«123217_j81080392613941_1_alg».proof.Proof.Gen.ReferenceIdeal.Run
import proofs.«123217_j81080392613941_1_alg».proof.Proof.Gen.ReferenceIdeal.Read
import proofs.«123217_j81080392613941_1_alg».proof.Proof.KRun
import proofs.«123217_j81080392613941_1_alg».proof.Proof.Run
import proofs.«123217_j81080392613941_1_alg».proof.Proof.KernelValue
import proofs.«123217_j81080392613941_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the statistic of the specification of arguments that agree. -/
theorem algebraic : Cert.algebraic_KernelIdeal_ReferenceIdeal := by
  intro m ρ m' ρ' _ hagree
  refine ⟨fun c => fun _ => Cert.Spec.mmd (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.result_eq m c), (h c).2⟩) (Cert.KernelIdeal.Hand.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v66_eq, Cert.ReferenceIdeal.RefValue.result_eq, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
